-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v14)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v14) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v28) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x30 : Shape := ⟨2, ![8192, 30]⟩
abbrev S2x640x256 : Shape := ⟨3, ![2, 640, 256]⟩
abbrev S32x512 : Shape := ⟨2, ![32, 512]⟩
abbrev S32 : Shape := ⟨1, ![32]⟩
abbrev S32x32 : Shape := ⟨2, ![32, 32]⟩
abbrev S1x32 : Shape := ⟨2, ![1, 32]⟩
abbrev S1 : Shape := ⟨1, ![1]⟩
abbrev S_ : Shape := ⟨0, ![]⟩

class Facts : Prop where
  bcast_S_S2x640x256 : S_.BroadcastsInDim S2x640x256 (![] : Fin 0 → Fin S2x640x256.rank)
  reducesTo_S2x640x256_S_d0_1_2 : S2x640x256.ReducesTo [0, 1, 2] S_
  h_S_ : 0 < S_.numel
  bcast_S_S32x512 : S_.BroadcastsInDim S32x512 (![] : Fin 0 → Fin S32x512.rank)
  reducesTo_S32x512_S_d0_1 : S32x512.ReducesTo [0, 1] S_
  bcast_S_S32 : S_.BroadcastsInDim S32 (![] : Fin 0 → Fin S32.rank)
  reducesTo_S32_S_d0 : S32.ReducesTo [0] S_
  bcast_S_S32x32 : S_.BroadcastsInDim S32x32 (![] : Fin 0 → Fin S32x32.rank)
  reducesTo_S32x32_S_d0_1 : S32x32.ReducesTo [0, 1] S_
  bcast_S_S1x32 : S_.BroadcastsInDim S1x32 (![] : Fin 0 → Fin S1x32.rank)
  reducesTo_S1x32_S_d0_1 : S1x32.ReducesTo [0, 1] S_
  bcast_S_S1 : S_.BroadcastsInDim S1 (![] : Fin 0 → Fin S1.rank)
  reducesTo_S1_S_d0 : S1.ReducesTo [0] S_
  bcast_S_S8192x30 : S_.BroadcastsInDim S8192x30 (![] : Fin 0 → Fin S8192x30.rank)
  reducesTo_S8192x30_S_d0_1 : S8192x30.ReducesTo [0, 1] S_

variable [Facts]

def fn_part2 {F : FTy → Type} [FloatOps F] (main_arg0 : IVec S8192x30 32) (main_arg1 : IVec S8192x30 32) (main_v33 : IVec S_ 1) : IVec S_ 1 :=
  let main_c_12 : IVec S_ 32 := constantI S_ 32 0#32
  let main_v34 : IVec S8192x30 32 := broadcastInDim S8192x30 ![] bcast_S_S8192x30 main_c_12
  let main_v35 : IVec S8192x30 1 := cmpi .sge main_arg0 main_v34
  let main_c_13 : IVec S_ 32 := constantI S_ 32 640#32
  let main_v36 : IVec S8192x30 32 := broadcastInDim S8192x30 ![] bcast_S_S8192x30 main_c_13
  let main_v37 : IVec S8192x30 1 := cmpi .slt main_arg0 main_v36
  let main_v38 : IVec S8192x30 1 := andi main_v35 main_v37
  let main_c_14 : IVec S_ 1 := constantI S_ 1 1#1
  let main_v39 : IVec S_ 1 := (fun x v => Host.reduce IntOp.andi x v reducesTo_S8192x30_S_d0_1 h_S_) main_v38 main_c_14
  let main_v40 : IVec S_ 1 := andi main_v33 main_v39
  let main_c_15 : IVec S_ 32 := constantI S_ 32 0#32
  let main_v41 : IVec S8192x30 32 := broadcastInDim S8192x30 ![] bcast_S_S8192x30 main_c_15
  let main_v42 : IVec S8192x30 1 := cmpi .sge main_arg1 main_v41
  let main_c_16 : IVec S_ 32 := constantI S_ 32 640#32
  let main_v43 : IVec S8192x30 32 := broadcastInDim S8192x30 ![] bcast_S_S8192x30 main_c_16
  let main_v44 : IVec S8192x30 1 := cmpi .slt main_arg1 main_v43
  let main_v45 : IVec S8192x30 1 := andi main_v42 main_v44
  let main_c_17 : IVec S_ 1 := constantI S_ 1 1#1
  let main_v46 : IVec S_ 1 := (fun x v => Host.reduce IntOp.andi x v reducesTo_S8192x30_S_d0_1 h_S_) main_v45 main_c_17
  let main_v47 : IVec S_ 1 := andi main_v40 main_v46
  main_v47

def fn_part1 {F : FTy → Type} [FloatOps F] (main_arg0 : IVec S8192x30 32) (main_arg1 : IVec S8192x30 32) (main_arg6 : FVec F S32 .f32) (main_arg7 : FVec F S1x32 .f32) (main_arg8 : FVec F S1 .f32) (main_v13 : IVec S_ 1) (main_v16 : IVec S32x32 1) : IVec S_ 1 :=
  let main_c_5 : IVec S_ 1 := constantI S_ 1 1#1
  let main_v17 : IVec S_ 1 := (fun x v => Host.reduce IntOp.andi x v reducesTo_S32x32_S_d0_1 h_S_) main_v16 main_c_5
  let main_v18 : IVec S_ 1 := andi main_v13 main_v17
  let main_v19 : FVec F S32 .f32 := Host.absf main_arg6
  let main_cst_6 : FVec F S_ .f32 := constant S_ .f32 0x7F800000#32
  let main_v20 : FVec F S32 .f32 := broadcastInDim S32 ![] bcast_S_S32 main_cst_6
  let main_v21 : IVec S32 1 := cmpf .olt main_v19 main_v20
  let main_c_7 : IVec S_ 1 := constantI S_ 1 1#1
  let main_v22 : IVec S_ 1 := (fun x v => Host.reduce IntOp.andi x v reducesTo_S32_S_d0 h_S_) main_v21 main_c_7
  let main_v23 : IVec S_ 1 := andi main_v18 main_v22
  let main_v24 : FVec F S1x32 .f32 := Host.absf main_arg7
  let main_cst_8 : FVec F S_ .f32 := constant S_ .f32 0x7F800000#32
  let main_v25 : FVec F S1x32 .f32 := broadcastInDim S1x32 ![] bcast_S_S1x32 main_cst_8
  let main_v26 : IVec S1x32 1 := cmpf .olt main_v24 main_v25
  let main_c_9 : IVec S_ 1 := constantI S_ 1 1#1
  let main_v27 : IVec S_ 1 := (fun x v => Host.reduce IntOp.andi x v reducesTo_S1x32_S_d0_1 h_S_) main_v26 main_c_9
  let main_v28 : IVec S_ 1 := andi main_v23 main_v27
  let main_v29 : FVec F S1 .f32 := Host.absf main_arg8
  let main_cst_10 : FVec F S_ .f32 := constant S_ .f32 0x7F800000#32
  let main_v30 : FVec F S1 .f32 := broadcastInDim S1 ![] bcast_S_S1 main_cst_10
  let main_v31 : IVec S1 1 := cmpf .olt main_v29 main_v30
  let main_c_11 : IVec S_ 1 := constantI S_ 1 1#1
  let main_v32 : IVec S_ 1 := (fun x v => Host.reduce IntOp.andi x v reducesTo_S1_S_d0 h_S_) main_v31 main_c_11
  let main_v33 : IVec S_ 1 := andi main_v28 main_v32
  fn_part2 (F := F) main_arg0 main_arg1 main_v33

def fn {F : FTy → Type} [FloatOps F] (main_arg0 : IVec S8192x30 32) (main_arg1 : IVec S8192x30 32) (main_arg2 : FVec F S2x640x256 .f32) (main_arg3 : FVec F S32x512 .f32) (main_arg4 : FVec F S32 .f32) (main_arg5 : FVec F S32x32 .f32) (main_arg6 : FVec F S32 .f32) (main_arg7 : FVec F S1x32 .f32) (main_arg8 : FVec F S1 .f32) : IVec S_ 1 :=
  let main_v0 : FVec F S2x640x256 .f32 := Host.absf main_arg2
  let main_cst : FVec F S_ .f32 := constant S_ .f32 0x7F800000#32
  let main_v1 : FVec F S2x640x256 .f32 := broadcastInDim S2x640x256 ![] bcast_S_S2x640x256 main_cst
  let main_v2 : IVec S2x640x256 1 := cmpf .olt main_v0 main_v1
  let main_c : IVec S_ 1 := constantI S_ 1 1#1
  let main_v3 : IVec S_ 1 := (fun x v => Host.reduce IntOp.andi x v reducesTo_S2x640x256_S_d0_1_2 h_S_) main_v2 main_c
  let main_v4 : FVec F S32x512 .f32 := Host.absf main_arg3
  let main_cst_0 : FVec F S_ .f32 := constant S_ .f32 0x7F800000#32
  let main_v5 : FVec F S32x512 .f32 := broadcastInDim S32x512 ![] bcast_S_S32x512 main_cst_0
  let main_v6 : IVec S32x512 1 := cmpf .olt main_v4 main_v5
  let main_c_1 : IVec S_ 1 := constantI S_ 1 1#1
  let main_v7 : IVec S_ 1 := (fun x v => Host.reduce IntOp.andi x v reducesTo_S32x512_S_d0_1 h_S_) main_v6 main_c_1
  let main_v8 : IVec S_ 1 := andi main_v3 main_v7
  let main_v9 : FVec F S32 .f32 := Host.absf main_arg4
  let main_cst_2 : FVec F S_ .f32 := constant S_ .f32 0x7F800000#32
  let main_v10 : FVec F S32 .f32 := broadcastInDim S32 ![] bcast_S_S32 main_cst_2
  let main_v11 : IVec S32 1 := cmpf .olt main_v9 main_v10
  let main_c_3 : IVec S_ 1 := constantI S_ 1 1#1
  let main_v12 : IVec S_ 1 := (fun x v => Host.reduce IntOp.andi x v reducesTo_S32_S_d0 h_S_) main_v11 main_c_3
  let main_v13 : IVec S_ 1 := andi main_v8 main_v12
  let main_v14 : FVec F S32x32 .f32 := Host.absf main_arg5
  let main_cst_4 : FVec F S_ .f32 := constant S_ .f32 0x7F800000#32
  let main_v15 : FVec F S32x32 .f32 := broadcastInDim S32x32 ![] bcast_S_S32x32 main_cst_4
  let main_v16 : IVec S32x32 1 := cmpf .olt main_v14 main_v15
  fn_part1 (F := F) main_arg0 main_arg1 main_arg6 main_arg7 main_arg8 main_v13 main_v16
-- ==== Kernel.lean ====
abbrev S8192x30 : Shape := ⟨2, ![8192, 30]⟩
abbrev S2x640x256 : Shape := ⟨3, ![2, 640, 256]⟩
abbrev S32x512 : Shape := ⟨2, ![32, 512]⟩
abbrev S32 : Shape := ⟨1, ![32]⟩
abbrev S32x32 : Shape := ⟨2, ![32, 32]⟩
abbrev S1x32 : Shape := ⟨2, ![1, 32]⟩
abbrev S1 : Shape := ⟨1, ![1]⟩
abbrev S_ : Shape := ⟨0, ![]⟩
abbrev S512x32 : Shape := ⟨2, ![512, 32]⟩
abbrev S32x1 : Shape := ⟨2, ![32, 1]⟩
abbrev S1x1 : Shape := ⟨2, ![1, 1]⟩
abbrev S8192x128 : Shape := ⟨2, ![8192, 128]⟩
abbrev S1024x30 : Shape := ⟨2, ![1024, 30]⟩
abbrev S1024x128 : Shape := ⟨2, ![1024, 128]⟩
abbrev S1024x640 : Shape := ⟨2, ![1024, 640]⟩
abbrev S1x640x256 : Shape := ⟨3, ![1, 640, 256]⟩
abbrev S640x256 : Shape := ⟨2, ![640, 256]⟩
abbrev S1024x1 : Shape := ⟨2, ![1024, 1]⟩
abbrev S1024x256 : Shape := ⟨2, ![1024, 256]⟩
abbrev S1024x512 : Shape := ⟨2, ![1024, 512]⟩
abbrev S1024x32 : Shape := ⟨2, ![1024, 32]⟩
abbrev S8192x1 : Shape := ⟨2, ![8192, 1]⟩
abbrev S8192 : Shape := ⟨1, ![8192]⟩

abbrev nBuf : Space → Nat
  | .hbm => 38
  | .vmem => 13
  | .smem => 0
  | _ => 0

abbrev bufTy : (tb : Table) → Fin (tcTables nBuf tb) → BufTy
  | .hbm, ⟨0, _⟩ => ⟨S8192x30, .i32⟩
  | .hbm, ⟨1, _⟩ => ⟨S8192x30, .i32⟩
  | .hbm, ⟨2, _⟩ => ⟨S2x640x256, .f32⟩
  | .hbm, ⟨3, _⟩ => ⟨S32x512, .f32⟩
  | .hbm, ⟨4, _⟩ => ⟨S32, .f32⟩
  | .hbm, ⟨5, _⟩ => ⟨S32x32, .f32⟩
  | .hbm, ⟨6, _⟩ => ⟨S32, .f32⟩
  | .hbm, ⟨7, _⟩ => ⟨S1x32, .f32⟩
  | .hbm, ⟨8, _⟩ => ⟨S1, .f32⟩
  | .hbm, ⟨9, _⟩ => ⟨S_, .i32⟩
  | .hbm, ⟨10, _⟩ => ⟨S_, .i32⟩
  | .hbm, ⟨11, _⟩ => ⟨S_, .i32⟩
  | .hbm, ⟨12, _⟩ => ⟨S8192x30, .i32⟩
  | .hbm, ⟨13, _⟩ => ⟨S8192x30, .i32⟩
  | .hbm, ⟨14, _⟩ => ⟨S_, .i32⟩
  | .hbm, ⟨15, _⟩ => ⟨S8192x30, .i32⟩
  | .hbm, ⟨16, _⟩ => ⟨S8192x30, .i32⟩
  | .hbm, ⟨17, _⟩ => ⟨S_, .i32⟩
  | .hbm, ⟨18, _⟩ => ⟨S_, .i32⟩
  | .hbm, ⟨19, _⟩ => ⟨S_, .i32⟩
  | .hbm, ⟨20, _⟩ => ⟨S8192x30, .i32⟩
  | .hbm, ⟨21, _⟩ => ⟨S8192x30, .i32⟩
  | .hbm, ⟨22, _⟩ => ⟨S_, .i32⟩
  | .hbm, ⟨23, _⟩ => ⟨S8192x30, .i32⟩
  | .hbm, ⟨24, _⟩ => ⟨S8192x30, .i32⟩
  | .hbm, ⟨25, _⟩ => ⟨S2x640x256, .bf16⟩
  | .hbm, ⟨26, _⟩ => ⟨S512x32, .f32⟩
  | .hbm, ⟨27, _⟩ => ⟨S512x32, .bf16⟩
  | .hbm, ⟨28, _⟩ => ⟨S32x32, .f32⟩
  | .hbm, ⟨29, _⟩ => ⟨S32x32, .bf16⟩
  | .hbm, ⟨30, _⟩ => ⟨S32x1, .f32⟩
  | .hbm, ⟨31, _⟩ => ⟨S32x1, .bf16⟩
  | .hbm, ⟨32, _⟩ => ⟨S1x32, .f32⟩
  | .hbm, ⟨33, _⟩ => ⟨S1x32, .f32⟩
  | .hbm, ⟨34, _⟩ => ⟨S1x1, .f32⟩
  | .hbm, ⟨35, _⟩ => ⟨S8192x128, .f32⟩
  | .hbm, ⟨36, _⟩ => ⟨S8192x1, .f32⟩
  | .hbm, ⟨37, _⟩ => ⟨S8192, .f32⟩
  | .local _ .vmem, ⟨0, _⟩ => ⟨S1024x30, .i32⟩
  | .local _ .vmem, ⟨1, _⟩ => ⟨S1024x30, .i32⟩
  | .local _ .vmem, ⟨2, _⟩ => ⟨S1024x30, .i32⟩
  | .local _ .vmem, ⟨3, _⟩ => ⟨S1024x30, .i32⟩
  | .local _ .vmem, ⟨4, _⟩ => ⟨S2x640x256, .bf16⟩
  | .local _ .vmem, ⟨5, _⟩ => ⟨S512x32, .bf16⟩
  | .local _ .vmem, ⟨6, _⟩ => ⟨S1x32, .f32⟩
  | .local _ .vmem, ⟨7, _⟩ => ⟨S32x32, .bf16⟩
  | .local _ .vmem, ⟨8, _⟩ => ⟨S1x32, .f32⟩
  | .local _ .vmem, ⟨9, _⟩ => ⟨S32x1, .bf16⟩
  | .local _ .vmem, ⟨10, _⟩ => ⟨S1x1, .f32⟩
  | .local _ .vmem, ⟨11, _⟩ => ⟨S1024x128, .f32⟩
  | .local _ .vmem, ⟨12, _⟩ => ⟨S1024x128, .f32⟩
  | _, _ => ⟨S8192x30, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_c : Ref sig .tc := ⟨.hbm, 9, rfl⟩
abbrev main_c_0 : Ref sig .tc := ⟨.hbm, 10, rfl⟩
abbrev main_call0_v0 : Ref sig .tc := ⟨.hbm, 11, rfl⟩
abbrev main_call0_v1 : Ref sig .tc := ⟨.hbm, 12, rfl⟩
abbrev main_call0_v2 : Ref sig .tc := ⟨.hbm, 13, rfl⟩
abbrev main_call0_v3 : Ref sig .tc := ⟨.hbm, 14, rfl⟩
abbrev main_call0_v4 : Ref sig .tc := ⟨.hbm, 15, rfl⟩
abbrev main_v0 : Ref sig .tc := ⟨.hbm, 16, rfl⟩
abbrev main_c_1 : Ref sig .tc := ⟨.hbm, 17, rfl⟩
abbrev main_c_2 : Ref sig .tc := ⟨.hbm, 18, rfl⟩
abbrev main_call1_v0 : Ref sig .tc := ⟨.hbm, 19, rfl⟩
abbrev main_call1_v1 : Ref sig .tc := ⟨.hbm, 20, rfl⟩
abbrev main_call1_v2 : Ref sig .tc := ⟨.hbm, 21, rfl⟩
abbrev main_call1_v3 : Ref sig .tc := ⟨.hbm, 22, rfl⟩
abbrev main_call1_v4 : Ref sig .tc := ⟨.hbm, 23, rfl⟩
abbrev main_v1 : Ref sig .tc := ⟨.hbm, 24, rfl⟩
abbrev main_v2 : Ref sig .tc := ⟨.hbm, 25, rfl⟩
abbrev main_v3 : Ref sig .tc := ⟨.hbm, 26, rfl⟩
abbrev main_v4 : Ref sig .tc := ⟨.hbm, 27, rfl⟩
abbrev main_v5 : Ref sig .tc := ⟨.hbm, 28, rfl⟩
abbrev main_v6 : Ref sig .tc := ⟨.hbm, 29, rfl⟩
abbrev main_v7 : Ref sig .tc := ⟨.hbm, 30, rfl⟩
abbrev main_v8 : Ref sig .tc := ⟨.hbm, 31, rfl⟩
abbrev main_v9 : Ref sig .tc := ⟨.hbm, 32, rfl⟩
abbrev main_v10 : Ref sig .tc := ⟨.hbm, 33, rfl⟩
abbrev main_v11 : Ref sig .tc := ⟨.hbm, 34, rfl⟩
abbrev main_v12 : Ref sig .tc := ⟨.hbm, 35, rfl⟩
abbrev main_v13 : Ref sig .tc := ⟨.hbm, 36, rfl⟩
abbrev main_v14 : Ref sig .tc := ⟨.hbm, 37, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg9_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem9_1 : DmaSem sig := 12

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x30 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x30 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S2x640x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512x32 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x32 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S32x32 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x32 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S32x1 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S1024x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

class Facts₀ : Prop where
  bcast_S_S8192x30 : S_.BroadcastsInDim S8192x30 (![] : Fin 0 → Fin S8192x30.rank)
  bitsLt_bf16_f32 : FTy.bits .bf16 < FTy.bits .f32
  transposes_S32x512_S512x32_1_0 : S32x512.Transposes [1, 0] S512x32
  transposes_S32x32_S32x32_1_0 : S32x32.Transposes [1, 0] S32x32
  transposes_S1x32_S32x1_1_0 : S1x32.Transposes [1, 0] S32x1
  shapeCasts_S32_S1x32 : S32.ShapeCasts S1x32
  shapeCasts_S1_S1x1 : S1.ShapeCasts S1x1
  iota_S1024x640_d1_w32 : S1024x640.Iotas .tc 32 [1]
  inb_S2x640x256_S1x640x256_0_0_0 : ∀ a, (![0, 0, 0] : Fin 3 → Nat) a + S1x640x256.size a ≤ S2x640x256.size a
  h_S1x640x256 : 0 < S1x640x256.numel
  shapeCasts_S1x640x256_S640x256 : S1x640x256.ShapeCasts S640x256
  inb_S1024x30_S1024x30_0_0 : ∀ a, (![0, 0] : Fin 2 → Nat) a + S1024x30.size a ≤ S1024x30.size a
  h_S1024x30 : 0 < S1024x30.numel
  shapeCasts_S1024x30_S1024x30 : S1024x30.ShapeCasts S1024x30
  slices_S1024x30_o0_0_S1024x1 : S1024x30.Slices ![0, 0] S1024x1
  broadcasts_S1024x1_S1024x640 : S1024x1.Broadcasts S1024x640
  natLt_1_32 : 1 < 32
  slices_S1024x30_o0_1_S1024x1 : S1024x30.Slices ![0, 1] S1024x1
  slices_S1024x30_o0_2_S1024x1 : S1024x30.Slices ![0, 2] S1024x1
  slices_S1024x30_o0_3_S1024x1 : S1024x30.Slices ![0, 3] S1024x1
  slices_S1024x30_o0_4_S1024x1 : S1024x30.Slices ![0, 4] S1024x1
  slices_S1024x30_o0_5_S1024x1 : S1024x30.Slices ![0, 5] S1024x1
  slices_S1024x30_o0_6_S1024x1 : S1024x30.Slices ![0, 6] S1024x1
  slices_S1024x30_o0_7_S1024x1 : S1024x30.Slices ![0, 7] S1024x1
  slices_S1024x30_o0_8_S1024x1 : S1024x30.Slices ![0, 8] S1024x1
  slices_S1024x30_o0_9_S1024x1 : S1024x30.Slices ![0, 9] S1024x1
  slices_S1024x30_o0_10_S1024x1 : S1024x30.Slices ![0, 10] S1024x1
  slices_S1024x30_o0_11_S1024x1 : S1024x30.Slices ![0, 11] S1024x1
  slices_S1024x30_o0_12_S1024x1 : S1024x30.Slices ![0, 12] S1024x1
  slices_S1024x30_o0_13_S1024x1 : S1024x30.Slices ![0, 13] S1024x1
  slices_S1024x30_o0_14_S1024x1 : S1024x30.Slices ![0, 14] S1024x1
  slices_S1024x30_o0_15_S1024x1 : S1024x30.Slices ![0, 15] S1024x1
  slices_S1024x30_o0_16_S1024x1 : S1024x30.Slices ![0, 16] S1024x1
  slices_S1024x30_o0_17_S1024x1 : S1024x30.Slices ![0, 17] S1024x1
  slices_S1024x30_o0_18_S1024x1 : S1024x30.Slices ![0, 18] S1024x1
  slices_S1024x30_o0_19_S1024x1 : S1024x30.Slices ![0, 19] S1024x1
  slices_S1024x30_o0_20_S1024x1 : S1024x30.Slices ![0, 20] S1024x1
  slices_S1024x30_o0_21_S1024x1 : S1024x30.Slices ![0, 21] S1024x1
  slices_S1024x30_o0_22_S1024x1 : S1024x30.Slices ![0, 22] S1024x1
  slices_S1024x30_o0_23_S1024x1 : S1024x30.Slices ![0, 23] S1024x1
  slices_S1024x30_o0_24_S1024x1 : S1024x30.Slices ![0, 24] S1024x1
  slices_S1024x30_o0_25_S1024x1 : S1024x30.Slices ![0, 25] S1024x1
  slices_S1024x30_o0_26_S1024x1 : S1024x30.Slices ![0, 26] S1024x1
  slices_S1024x30_o0_27_S1024x1 : S1024x30.Slices ![0, 27] S1024x1
  slices_S1024x30_o0_28_S1024x1 : S1024x30.Slices ![0, 28] S1024x1
  slices_S1024x30_o0_29_S1024x1 : S1024x30.Slices ![0, 29] S1024x1
  inb_S2x640x256_S1x640x256_1_0_0 : ∀ a, (![1, 0, 0] : Fin 3 → Nat) a + S1x640x256.size a ≤ S2x640x256.size a
  concatenates_S1024x256_S1024x256_S1024x512_d1 : Shape.Concatenates [S1024x256, S1024x256] S1024x512 1
  inb_S512x32_S512x32_0_0 : ∀ a, (![0, 0] : Fin 2 → Nat) a + S512x32.size a ≤ S512x32.size a
  h_S512x32 : 0 < S512x32.numel
  shapeCasts_S512x32_S512x32 : S512x32.ShapeCasts S512x32
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S1024x32 : S1x32.Broadcasts S1024x32
  inb_S32x32_S32x32_0_0 : ∀ a, (![0, 0] : Fin 2 → Nat) a + S32x32.size a ≤ S32x32.size a
  h_S32x32 : 0 < S32x32.numel
  shapeCasts_S32x32_S32x32 : S32x32.ShapeCasts S32x32
  inb_S32x1_S32x1_0_0 : ∀ a, (![0, 0] : Fin 2 → Nat) a + S32x1.size a ≤ S32x1.size a
  h_S32x1 : 0 < S32x1.numel
  shapeCasts_S32x1_S32x1 : S32x1.ShapeCasts S32x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S1024x1 : S1x1.Broadcasts S1024x1
  shapeCasts_S1024x1_S1024x1 : S1024x1.ShapeCasts S1024x1
  broadcasts_S1024x1_S1024x128 : S1024x1.Broadcasts S1024x128
  inb_S1024x128_S1024x128_0_0 : ∀ a, (![0, 0] : Fin 2 → Nat) a + S1024x128.size a ≤ S1024x128.size a
  h_S1024x128 : 0 < S1024x128.numel
  slices_S8192x128_S8192x1_0_0 : S8192x128.Slices ![0, 0] S8192x1
  shapeCasts_S8192x1_S8192 : S8192x1.ShapeCasts S8192
  dot_S1024x640_S640x256_S1024x256_1_0_0_1_n_n_wf : DotDims.WF S1024x640 S640x256 S1024x256 [1] [0] [0] [1] [] []
  dot_S1024x512_S512x32_S1024x32_1_0_0_1_n_n_wf : DotDims.WF S1024x512 S512x32 S1024x32 [1] [0] [0] [1] [] []
  dot_S1024x32_S32x32_S1024x32_1_0_0_1_n_n_wf : DotDims.WF S1024x32 S32x32 S1024x32 [1] [0] [0] [1] [] []
  dot_S1024x32_S32x1_S1024x1_1_0_0_1_n_n_wf : DotDims.WF S1024x32 S32x1 S1024x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x30.size a ≤ S8192x30.size a
  hwx0_0 : ∀ i : grid0.Coords, EltTy.bits .i32 = 32 ∨ (Rect.block (s := S8192x30) S1024x30.size (cc0_transform_0 i) (hinb0_0 i)).WholeWords (EltTy.packing .i32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x30.size a ≤ S8192x30.size a
  hwx0_1 : ∀ i : grid0.Coords, EltTy.bits .i32 = 32 ∨ (Rect.block (s := S8192x30) S1024x30.size (cc0_transform_1 i) (hinb0_1 i)).WholeWords (EltTy.packing .i32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S2x640x256.size a ≤ S2x640x256.size a
  hwx0_2 : ∀ i : grid0.Coords, EltTy.bits .bf16 = 32 ∨ (Rect.block (s := S2x640x256) S2x640x256.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S512x32.size a ≤ S512x32.size a
  hwx0_3 : ∀ i : grid0.Coords, EltTy.bits .bf16 = 32 ∨ (Rect.block (s := S512x32) S512x32.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x32.size a ≤ S1x32.size a
  hwx0_4 : ∀ i : grid0.Coords, EltTy.bits .f32 = 32 ∨ (Rect.block (s := S1x32) S1x32.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S32x32.size a ≤ S32x32.size a
  hwx0_5 : ∀ i : grid0.Coords, EltTy.bits .bf16 = 32 ∨ (Rect.block (s := S32x32) S32x32.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x32.size a ≤ S1x32.size a
  hwx0_6 : ∀ i : grid0.Coords, EltTy.bits .f32 = 32 ∨ (Rect.block (s := S1x32) S1x32.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S32x1.size a ≤ S32x1.size a
  hwx0_7 : ∀ i : grid0.Coords, EltTy.bits .bf16 = 32 ∨ (Rect.block (s := S32x1) S32x1.size (cc0_transform_7 i) (hinb0_7 i)).WholeWords (EltTy.packing .bf16)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x1.size a ≤ S1x1.size a
  hwx0_8 : ∀ i : grid0.Coords, EltTy.bits .f32 = 32 ∨ (Rect.block (s := S1x1) S1x1.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S1024x128.size a ≤ S8192x128.size a
  hwx0_9 : ∀ i : grid0.Coords, EltTy.bits .f32 = 32 ∨ (Rect.block (s := S8192x128) S1024x128.size (cc0_transform_9 i) (hinb0_9 i)).WholeWords (EltTy.packing .f32)

variable [Facts₀]

def dot_S1024x640_S640x256_S1024x256_1_0_0_1_n_n : DotDims S1024x640 S640x256 S1024x256 where
  lhsContracting := [1]
  rhsContracting := [0]
  lhsNonContracting := [0]
  rhsNonContracting := [1]
  lhsBatch := []
  rhsBatch := []
  wf := dot_S1024x640_S640x256_S1024x256_1_0_0_1_n_n_wf
def dot_S1024x512_S512x32_S1024x32_1_0_0_1_n_n : DotDims S1024x512 S512x32 S1024x32 where
  lhsContracting := [1]
  rhsContracting := [0]
  lhsNonContracting := [0]
  rhsNonContracting := [1]
  lhsBatch := []
  rhsBatch := []
  wf := dot_S1024x512_S512x32_S1024x32_1_0_0_1_n_n_wf
def dot_S1024x32_S32x32_S1024x32_1_0_0_1_n_n : DotDims S1024x32 S32x32 S1024x32 where
  lhsContracting := [1]
  rhsContracting := [0]
  lhsNonContracting := [0]
  rhsNonContracting := [1]
  lhsBatch := []
  rhsBatch := []
  wf := dot_S1024x32_S32x32_S1024x32_1_0_0_1_n_n_wf
def dot_S1024x32_S32x1_S1024x1_1_0_0_1_n_n : DotDims S1024x32 S32x1 S1024x1 where
  lhsContracting := [1]
  rhsContracting := [0]
  lhsNonContracting := [0]
  rhsNonContracting := [1]
  lhsBatch := []
  rhsBatch := []
  wf := dot_S1024x32_S32x1_S1024x1_1_0_0_1_n_n_wf

abbrev win0_0 : Pipeline.Window sig grid0 :=
  Pipeline.Window.ofSpec (Memref.whole main_v0) S1024x30.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1024x30.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S2x640x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v4) S512x32.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v9) S1x32.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v6) S32x32.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v10) S1x32.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v8) S32x1.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v11) S1x1.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v12) S1024x128.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

class Facts : Prop extends Facts₀ where

variable [Facts]
-- ==== ReferenceIdeal.lean ====
abbrev S8192x30 : Shape := ⟨2, ![8192, 30]⟩
abbrev S2x640x256 : Shape := ⟨3, ![2, 640, 256]⟩
abbrev S32x512 : Shape := ⟨2, ![32, 512]⟩
abbrev S32 : Shape := ⟨1, ![32]⟩
abbrev S32x32 : Shape := ⟨2, ![32, 32]⟩
abbrev S1x32 : Shape := ⟨2, ![1, 32]⟩
abbrev S1 : Shape := ⟨1, ![1]⟩
abbrev S1x640x256 : Shape := ⟨3, ![1, 640, 256]⟩
abbrev S640x256 : Shape := ⟨2, ![640, 256]⟩
abbrev S_ : Shape := ⟨0, ![]⟩
abbrev S8192x30x1 : Shape := ⟨3, ![8192, 30, 1]⟩
abbrev S1x1x1 : Shape := ⟨3, ![1, 1, 1]⟩
abbrev S8192x30x256 : Shape := ⟨3, ![8192, 30, 256]⟩
abbrev S8192x256 : Shape := ⟨2, ![8192, 256]⟩
abbrev S8192x512 : Shape := ⟨2, ![8192, 512]⟩
abbrev S512x32 : Shape := ⟨2, ![512, 32]⟩
abbrev S8192x32 : Shape := ⟨2, ![8192, 32]⟩
abbrev S32x1 : Shape := ⟨2, ![32, 1]⟩
abbrev S8192x1 : Shape := ⟨2, ![8192, 1]⟩
abbrev S1x1 : Shape := ⟨2, ![1, 1]⟩
abbrev S8192 : Shape := ⟨1, ![8192]⟩

abbrev nBuf : Space → Nat
  | .hbm => 92
  | .vmem => 0
  | .smem => 0
  | _ => 0

abbrev bufTy : (tb : Table) → Fin (tcTables nBuf tb) → BufTy
  | .hbm, ⟨0, _⟩ => ⟨S8192x30, .i32⟩
  | .hbm, ⟨1, _⟩ => ⟨S8192x30, .i32⟩
  | .hbm, ⟨2, _⟩ => ⟨S2x640x256, .f32⟩
  | .hbm, ⟨3, _⟩ => ⟨S32x512, .f32⟩
  | .hbm, ⟨4, _⟩ => ⟨S32, .f32⟩
  | .hbm, ⟨5, _⟩ => ⟨S32x32, .f32⟩
  | .hbm, ⟨6, _⟩ => ⟨S32, .f32⟩
  | .hbm, ⟨7, _⟩ => ⟨S1x32, .f32⟩
  | .hbm, ⟨8, _⟩ => ⟨S1, .f32⟩
  | .hbm, ⟨9, _⟩ => ⟨S1x640x256, .f32⟩
  | .hbm, ⟨10, _⟩ => ⟨S640x256, .f32⟩
  | .hbm, ⟨11, _⟩ => ⟨S_, .i32⟩
  | .hbm, ⟨12, _⟩ => ⟨S8192x30, .i32⟩
  | .hbm, ⟨13, _⟩ => ⟨S8192x30, .i1⟩
  | .hbm, ⟨14, _⟩ => ⟨S_, .i32⟩
  | .hbm, ⟨15, _⟩ => ⟨S8192x30, .i32⟩
  | .hbm, ⟨16, _⟩ => ⟨S8192x30, .i32⟩
  | .hbm, ⟨17, _⟩ => ⟨S8192x30, .i32⟩
  | .hbm, ⟨18, _⟩ => ⟨S8192x30x1, .i32⟩
  | .hbm, ⟨19, _⟩ => ⟨S1, .i32⟩
  | .hbm, ⟨20, _⟩ => ⟨S_, .i32⟩
  | .hbm, ⟨21, _⟩ => ⟨S8192x30x1, .i32⟩
  | .hbm, ⟨22, _⟩ => ⟨S8192x30x1, .i1⟩
  | .hbm, ⟨23, _⟩ => ⟨S1x1x1, .i32⟩
  | .hbm, ⟨24, _⟩ => ⟨S8192x30x1, .i32⟩
  | .hbm, ⟨25, _⟩ => ⟨S8192x30x1, .i1⟩
  | .hbm, ⟨26, _⟩ => ⟨S8192x30x1, .i1⟩
  | .hbm, ⟨27, _⟩ => ⟨S_, .i1⟩
  | .hbm, ⟨28, _⟩ => ⟨S8192x30, .i1⟩
  | .hbm, ⟨29, _⟩ => ⟨S8192x30x256, .f32⟩
  | .hbm, ⟨30, _⟩ => ⟨S8192x30x256, .i1⟩
  | .hbm, ⟨31, _⟩ => ⟨S_, .f32⟩
  | .hbm, ⟨32, _⟩ => ⟨S8192x30x256, .f32⟩
  | .hbm, ⟨33, _⟩ => ⟨S8192x30x256, .f32⟩
  | .hbm, ⟨34, _⟩ => ⟨S_, .f32⟩
  | .hbm, ⟨35, _⟩ => ⟨S8192x256, .f32⟩
  | .hbm, ⟨36, _⟩ => ⟨S1x640x256, .f32⟩
  | .hbm, ⟨37, _⟩ => ⟨S640x256, .f32⟩
  | .hbm, ⟨38, _⟩ => ⟨S_, .i32⟩
  | .hbm, ⟨39, _⟩ => ⟨S8192x30, .i32⟩
  | .hbm, ⟨40, _⟩ => ⟨S8192x30, .i1⟩
  | .hbm, ⟨41, _⟩ => ⟨S_, .i32⟩
  | .hbm, ⟨42, _⟩ => ⟨S8192x30, .i32⟩
  | .hbm, ⟨43, _⟩ => ⟨S8192x30, .i32⟩
  | .hbm, ⟨44, _⟩ => ⟨S8192x30, .i32⟩
  | .hbm, ⟨45, _⟩ => ⟨S8192x30x1, .i32⟩
  | .hbm, ⟨46, _⟩ => ⟨S1, .i32⟩
  | .hbm, ⟨47, _⟩ => ⟨S_, .i32⟩
  | .hbm, ⟨48, _⟩ => ⟨S8192x30x1, .i32⟩
  | .hbm, ⟨49, _⟩ => ⟨S8192x30x1, .i1⟩
  | .hbm, ⟨50, _⟩ => ⟨S1x1x1, .i32⟩
  | .hbm, ⟨51, _⟩ => ⟨S8192x30x1, .i32⟩
  | .hbm, ⟨52, _⟩ => ⟨S8192x30x1, .i1⟩
  | .hbm, ⟨53, _⟩ => ⟨S8192x30x1, .i1⟩
  | .hbm, ⟨54, _⟩ => ⟨S_, .i1⟩
  | .hbm, ⟨55, _⟩ => ⟨S8192x30, .i1⟩
  | .hbm, ⟨56, _⟩ => ⟨S8192x30x256, .f32⟩
  | .hbm, ⟨57, _⟩ => ⟨S8192x30x256, .i1⟩
  | .hbm, ⟨58, _⟩ => ⟨S_, .f32⟩
  | .hbm, ⟨59, _⟩ => ⟨S8192x30x256, .f32⟩
  | .hbm, ⟨60, _⟩ => ⟨S8192x30x256, .f32⟩
  | .hbm, ⟨61, _⟩ => ⟨S_, .f32⟩
  | .hbm, ⟨62, _⟩ => ⟨S8192x256, .f32⟩
  | .hbm, ⟨63, _⟩ => ⟨S_, .f32⟩
  | .hbm, ⟨64, _⟩ => ⟨S8192x256, .f32⟩
  | .hbm, ⟨65, _⟩ => ⟨S8192x256, .f32⟩
  | .hbm, ⟨66, _⟩ => ⟨S_, .f32⟩
  | .hbm, ⟨67, _⟩ => ⟨S8192x256, .f32⟩
  | .hbm, ⟨68, _⟩ => ⟨S8192x256, .f32⟩
  | .hbm, ⟨69, _⟩ => ⟨S8192x512, .f32⟩
  | .hbm, ⟨70, _⟩ => ⟨S512x32, .f32⟩
  | .hbm, ⟨71, _⟩ => ⟨S8192x32, .f32⟩
  | .hbm, ⟨72, _⟩ => ⟨S1x32, .f32⟩
  | .hbm, ⟨73, _⟩ => ⟨S8192x32, .f32⟩
  | .hbm, ⟨74, _⟩ => ⟨S8192x32, .f32⟩
  | .hbm, ⟨75, _⟩ => ⟨S_, .f32⟩
  | .hbm, ⟨76, _⟩ => ⟨S8192x32, .f32⟩
  | .hbm, ⟨77, _⟩ => ⟨S8192x32, .f32⟩
  | .hbm, ⟨78, _⟩ => ⟨S32x32, .f32⟩
  | .hbm, ⟨79, _⟩ => ⟨S8192x32, .f32⟩
  | .hbm, ⟨80, _⟩ => ⟨S1x32, .f32⟩
  | .hbm, ⟨81, _⟩ => ⟨S8192x32, .f32⟩
  | .hbm, ⟨82, _⟩ => ⟨S8192x32, .f32⟩
  | .hbm, ⟨83, _⟩ => ⟨S_, .f32⟩
  | .hbm, ⟨84, _⟩ => ⟨S8192x32, .f32⟩
  | .hbm, ⟨85, _⟩ => ⟨S8192x32, .f32⟩
  | .hbm, ⟨86, _⟩ => ⟨S32x1, .f32⟩
  | .hbm, ⟨87, _⟩ => ⟨S8192x1, .f32⟩
  | .hbm, ⟨88, _⟩ => ⟨S1x1, .f32⟩
  | .hbm, ⟨89, _⟩ => ⟨S8192x1, .f32⟩
  | .hbm, ⟨90, _⟩ => ⟨S8192x1, .f32⟩
  | .hbm, ⟨91, _⟩ => ⟨S8192, .f32⟩
  | _, _ => ⟨S8192x30, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_call0_c : Ref sig .tc := ⟨.hbm, 11, rfl⟩
abbrev main_call0_v0 : Ref sig .tc := ⟨.hbm, 12, rfl⟩
abbrev main_call0_v1 : Ref sig .tc := ⟨.hbm, 13, rfl⟩
abbrev main_call0_c_0 : Ref sig .tc := ⟨.hbm, 14, rfl⟩
abbrev main_call0_v2 : Ref sig .tc := ⟨.hbm, 15, rfl⟩
abbrev main_call0_v3 : Ref sig .tc := ⟨.hbm, 16, rfl⟩
abbrev main_call0_v4 : Ref sig .tc := ⟨.hbm, 17, rfl⟩
abbrev main_call0_v5 : Ref sig .tc := ⟨.hbm, 18, rfl⟩
abbrev main_call0_c_1 : Ref sig .tc := ⟨.hbm, 19, rfl⟩
abbrev main_call0_c_2 : Ref sig .tc := ⟨.hbm, 20, rfl⟩
abbrev main_call0_v6 : Ref sig .tc := ⟨.hbm, 21, rfl⟩
abbrev main_call0_v7 : Ref sig .tc := ⟨.hbm, 22, rfl⟩
abbrev main_call0_v8 : Ref sig .tc := ⟨.hbm, 23, rfl⟩
abbrev main_call0_v9 : Ref sig .tc := ⟨.hbm, 24, rfl⟩
abbrev main_call0_v10 : Ref sig .tc := ⟨.hbm, 25, rfl⟩
abbrev main_call0_v11 : Ref sig .tc := ⟨.hbm, 26, rfl⟩
abbrev main_call0_c_3 : Ref sig .tc := ⟨.hbm, 27, rfl⟩
abbrev main_call0_v12 : Ref sig .tc := ⟨.hbm, 28, rfl⟩
abbrev main_call0_v13 : Ref sig .tc := ⟨.hbm, 29, rfl⟩
abbrev main_call0_v14 : Ref sig .tc := ⟨.hbm, 30, rfl⟩
abbrev main_call0_cst : Ref sig .tc := ⟨.hbm, 31, rfl⟩
abbrev main_call0_v15 : Ref sig .tc := ⟨.hbm, 32, rfl⟩
abbrev main_v2 : Ref sig .tc := ⟨.hbm, 33, rfl⟩
abbrev main_cst : Ref sig .tc := ⟨.hbm, 34, rfl⟩
abbrev main_v3 : Ref sig .tc := ⟨.hbm, 35, rfl⟩
abbrev main_v4 : Ref sig .tc := ⟨.hbm, 36, rfl⟩
abbrev main_v5 : Ref sig .tc := ⟨.hbm, 37, rfl⟩
abbrev main_call1_c : Ref sig .tc := ⟨.hbm, 38, rfl⟩
abbrev main_call1_v0 : Ref sig .tc := ⟨.hbm, 39, rfl⟩
abbrev main_call1_v1 : Ref sig .tc := ⟨.hbm, 40, rfl⟩
abbrev main_call1_c_0 : Ref sig .tc := ⟨.hbm, 41, rfl⟩
abbrev main_call1_v2 : Ref sig .tc := ⟨.hbm, 42, rfl⟩
abbrev main_call1_v3 : Ref sig .tc := ⟨.hbm, 43, rfl⟩
abbrev main_call1_v4 : Ref sig .tc := ⟨.hbm, 44, rfl⟩
abbrev main_call1_v5 : Ref sig .tc := ⟨.hbm, 45, rfl⟩
abbrev main_call1_c_1 : Ref sig .tc := ⟨.hbm, 46, rfl⟩
abbrev main_call1_c_2 : Ref sig .tc := ⟨.hbm, 47, rfl⟩
abbrev main_call1_v6 : Ref sig .tc := ⟨.hbm, 48, rfl⟩
abbrev main_call1_v7 : Ref sig .tc := ⟨.hbm, 49, rfl⟩
abbrev main_call1_v8 : Ref sig .tc := ⟨.hbm, 50, rfl⟩
abbrev main_call1_v9 : Ref sig .tc := ⟨.hbm, 51, rfl⟩
abbrev main_call1_v10 : Ref sig .tc := ⟨.hbm, 52, rfl⟩
abbrev main_call1_v11 : Ref sig .tc := ⟨.hbm, 53, rfl⟩
abbrev main_call1_c_3 : Ref sig .tc := ⟨.hbm, 54, rfl⟩
abbrev main_call1_v12 : Ref sig .tc := ⟨.hbm, 55, rfl⟩
abbrev main_call1_v13 : Ref sig .tc := ⟨.hbm, 56, rfl⟩
abbrev main_call1_v14 : Ref sig .tc := ⟨.hbm, 57, rfl⟩
abbrev main_call1_cst : Ref sig .tc := ⟨.hbm, 58, rfl⟩
abbrev main_call1_v15 : Ref sig .tc := ⟨.hbm, 59, rfl⟩
abbrev main_v6 : Ref sig .tc := ⟨.hbm, 60, rfl⟩
abbrev main_cst_0 : Ref sig .tc := ⟨.hbm, 61, rfl⟩
abbrev main_v7 : Ref sig .tc := ⟨.hbm, 62, rfl⟩
abbrev main_call2_cst : Ref sig .tc := ⟨.hbm, 63, rfl⟩
abbrev main_call2_v0 : Ref sig .tc := ⟨.hbm, 64, rfl⟩
abbrev main_v8 : Ref sig .tc := ⟨.hbm, 65, rfl⟩
abbrev main_call3_cst : Ref sig .tc := ⟨.hbm, 66, rfl⟩
abbrev main_call3_v0 : Ref sig .tc := ⟨.hbm, 67, rfl⟩
abbrev main_v9 : Ref sig .tc := ⟨.hbm, 68, rfl⟩
abbrev main_v10 : Ref sig .tc := ⟨.hbm, 69, rfl⟩
abbrev main_v11 : Ref sig .tc := ⟨.hbm, 70, rfl⟩
abbrev main_v12 : Ref sig .tc := ⟨.hbm, 71, rfl⟩
abbrev main_v13 : Ref sig .tc := ⟨.hbm, 72, rfl⟩
abbrev main_v14 : Ref sig .tc := ⟨.hbm, 73, rfl⟩
abbrev main_v15 : Ref sig .tc := ⟨.hbm, 74, rfl⟩
abbrev main_call4_cst : Ref sig .tc := ⟨.hbm, 75, rfl⟩
abbrev main_call4_v0 : Ref sig .tc := ⟨.hbm, 76, rfl⟩
abbrev main_v16 : Ref sig .tc := ⟨.hbm, 77, rfl⟩
abbrev main_v17 : Ref sig .tc := ⟨.hbm, 78, rfl⟩
abbrev main_v18 : Ref sig .tc := ⟨.hbm, 79, rfl⟩
abbrev main_v19 : Ref sig .tc := ⟨.hbm, 80, rfl⟩
abbrev main_v20 : Ref sig .tc := ⟨.hbm, 81, rfl⟩
abbrev main_v21 : Ref sig .tc := ⟨.hbm, 82, rfl⟩
abbrev main_call5_cst : Ref sig .tc := ⟨.hbm, 83, rfl⟩
abbrev main_call5_v0 : Ref sig .tc := ⟨.hbm, 84, rfl⟩
abbrev main_v22 : Ref sig .tc := ⟨.hbm, 85, rfl⟩
abbrev main_v23 : Ref sig .tc := ⟨.hbm, 86, rfl⟩
abbrev main_v24 : Ref sig .tc := ⟨.hbm, 87, rfl⟩
abbrev main_v25 : Ref sig .tc := ⟨.hbm, 88, rfl⟩
abbrev main_v26 : Ref sig .tc := ⟨.hbm, 89, rfl⟩
abbrev main_v27 : Ref sig .tc := ⟨.hbm, 90, rfl⟩
abbrev main_v28 : Ref sig .tc := ⟨.hbm, 91, rfl⟩

abbrev nD : Nat := 1
abbrev τ : Topo := Topo.v7x

variable {F : FTy → Type} [FloatOps F]

class Facts₀ : Prop where
  slices_S2x640x256_S1x640x256_0_0_0 : S2x640x256.Slices ![0, 0, 0] S1x640x256
  shapeCasts_S1x640x256_S640x256 : S1x640x256.ShapeCasts S640x256
  bcast_S_S8192x30 : S_.BroadcastsInDim S8192x30 (![] : Fin 0 → Fin S8192x30.rank)
  bcast_S8192x30_S8192x30x1_0_1 : S8192x30.BroadcastsInDim S8192x30x1 (![0, 1] : Fin 2 → Fin S8192x30x1.rank)
  bcast_S_S8192x30x1 : S_.BroadcastsInDim S8192x30x1 (![] : Fin 0 → Fin S8192x30x1.rank)
  bcast_S1_S1x1x1_2 : S1.BroadcastsInDim S1x1x1 (![2] : Fin 1 → Fin S1x1x1.rank)
  bcast_S1x1x1_S8192x30x1_0_1_2 : S1x1x1.BroadcastsInDim S8192x30x1 (![0, 1, 2] : Fin 3 → Fin S8192x30x1.rank)
  reducesTo_S8192x30x1_S8192x30_d2 : S8192x30x1.ReducesTo [2] S8192x30
  h_S_ : 0 < S_.numel
  bcast_S8192x30_S8192x30x256_0_1 : S8192x30.BroadcastsInDim S8192x30x256 (![0, 1] : Fin 2 → Fin S8192x30x256.rank)
  bcast_S_S8192x30x256 : S_.BroadcastsInDim S8192x30x256 (![] : Fin 0 → Fin S8192x30x256.rank)
  reducesTo_S8192x30x256_S8192x256_d1 : S8192x30x256.ReducesTo [1] S8192x256
  slices_S2x640x256_S1x640x256_1_0_0 : S2x640x256.Slices ![1, 0, 0] S1x640x256
  bcast_S_S8192x256 : S_.BroadcastsInDim S8192x256 (![] : Fin 0 → Fin S8192x256.rank)
  concatenates_S8192x256_S8192x256_S8192x512_d1 : Shape.Concatenates [S8192x256, S8192x256] S8192x512 1
  transposes_S32x512_S512x32_1_0 : S32x512.Transposes [1, 0] S512x32
  bcast_S32_S1x32_1 : S32.BroadcastsInDim S1x32 (![1] : Fin 1 → Fin S1x32.rank)
  bcast_S1x32_S8192x32_0_1 : S1x32.BroadcastsInDim S8192x32 (![0, 1] : Fin 2 → Fin S8192x32.rank)
  bcast_S_S8192x32 : S_.BroadcastsInDim S8192x32 (![] : Fin 0 → Fin S8192x32.rank)
  transposes_S32x32_S32x32_1_0 : S32x32.Transposes [1, 0] S32x32
  transposes_S1x32_S32x1_1_0 : S1x32.Transposes [1, 0] S32x1
  bcast_S1_S1x1_1 : S1.BroadcastsInDim S1x1 (![1] : Fin 1 → Fin S1x1.rank)
  bcast_S1x1_S8192x1_0_1 : S1x1.BroadcastsInDim S8192x1 (![0, 1] : Fin 2 → Fin S8192x1.rank)
  shapeCasts_S8192x1_S8192 : S8192x1.ShapeCasts S8192
  gather_S640x256_S8192x30x1_S8192x30x256_2_0_n_n_0_2_1256_wf : GatherDims.WF S640x256 S8192x30x1 S8192x30x256 [2] [0] [] [0] [] 2 ![1, 256]
  dot_S8192x512_S512x32_S8192x32_1_0_0_1_n_n_wf : DotDims.WF S8192x512 S512x32 S8192x32 [1] [0] [0] [1] [] []
  dot_S8192x32_S32x32_S8192x32_1_0_0_1_n_n_wf : DotDims.WF S8192x32 S32x32 S8192x32 [1] [0] [0] [1] [] []
  dot_S8192x32_S32x1_S8192x1_1_0_0_1_n_n_wf : DotDims.WF S8192x32 S32x1 S8192x1 [1] [0] [0] [1] [] []

variable [Facts₀]

def gather_S640x256_S8192x30x1_S8192x30x256_2_0_n_n_0_2_1256 : GatherDims S640x256 S8192x30x1 S8192x30x256 where
  offsetDims := [2]
  collapsedSliceDims := [0]
  operandBatchingDims := []
  startIndicesBatchingDims := []
  startIndexMap := [0]
  indexVectorDim := 2
  sliceSizes := ![1, 256]
  wf := gather_S640x256_S8192x30x1_S8192x30x256_2_0_n_n_0_2_1256_wf
def dot_S8192x512_S512x32_S8192x32_1_0_0_1_n_n : DotDims S8192x512 S512x32 S8192x32 where
  lhsContracting := [1]
  rhsContracting := [0]
  lhsNonContracting := [0]
  rhsNonContracting := [1]
  lhsBatch := []
  rhsBatch := []
  wf := dot_S8192x512_S512x32_S8192x32_1_0_0_1_n_n_wf
def dot_S8192x32_S32x32_S8192x32_1_0_0_1_n_n : DotDims S8192x32 S32x32 S8192x32 where
  lhsContracting := [1]
  rhsContracting := [0]
  lhsNonContracting := [0]
  rhsNonContracting := [1]
  lhsBatch := []
  rhsBatch := []
  wf := dot_S8192x32_S32x32_S8192x32_1_0_0_1_n_n_wf
def dot_S8192x32_S32x1_S8192x1_1_0_0_1_n_n : DotDims S8192x32 S32x1 S8192x1 where
  lhsContracting := [1]
  rhsContracting := [0]
  lhsNonContracting := [0]
  rhsNonContracting := [1]
  lhsBatch := []
  rhsBatch := []
  wf := dot_S8192x32_S32x1_S8192x1_1_0_0_1_n_n_wf

class Facts : Prop extends Facts₀ where

variable [Facts]
-- ==== Proof.Spec.lean ====
/-
  The mathematics both programs compute, stated once over plain index types.

  For one batch row with index words x k (k < 30) and one column of a table w j (j < 640):
  * the kernel forms the count matrix  c j = #{k | x k = j}  (a sum of thirty indicator values) and then the
    product  Σ j, c j * w j  (`bagCount`);
  * the reference gathers the rows and adds them up,  Σ k, w (x k)  (`bagGather`).
  The two agree whenever every word names a row of the table (`bagCount_eq_bagGather`): an indicator is 0 or 1,
  so multiplication distributes over the thirty-term sum of indicators on the extended reals (the summands are
  nonnegative), and  Σ j, [x k = j] * w j  collapses to  w (x k).

  After the two bags (one per feature set) both programs apply the same three-layer perceptron, `mlp`:
  relu of both bags side by side (512 entries), an affine layer 512 → 32 and relu, an affine layer 32 → 32 and
  relu, an affine layer 32 → 1.  `out` is the whole result, one number per batch row.
-/
import Idealize.ShloMosaic.PureOps.Ideal
import Idealize.ShloMosaic.Lib.ValueIdx
import Idealize.ShloMosaic.Lib.StableHlo.Predicate

noncomputable section

namespace Cert.Bag

open Idealize.ShloMosaic Idealize.ShloMosaic.ValueIdx

/-- The indicator of "the word v names row j", as an extended real. -/
def hot (v : BitVec 32) (j : Fin 640) : EReal := if BitVec.ofNat 32 j.val = v then 1 else 0

/-- The kernel's form: the count matrix times the table column. -/
def bagCount (x : Fin 30 → BitVec 32) (w : Fin 640 → EReal) : EReal :=
  ∑ j : Fin 640, (∑ k : Fin 30, hot (x k) j) * w j

/-- The table entry a word names (zero for a word that names none). -/
def rowAt (w : Fin 640 → EReal) (v : BitVec 32) : EReal := if h : v.toNat < 640 then w ⟨v.toNat, h⟩ else 0

/-- The reference's form: the named entries added up. -/
def bagGather (x : Fin 30 → BitVec 32) (w : Fin 640 → EReal) : EReal := ∑ k : Fin 30, rowAt w (x k)

theorem hot_nonneg (v : BitVec 32) (j : Fin 640) : 0 ≤ hot v j := by
  unfold hot; split <;> norm_num

/-- One indicator row against the column: only the named entry survives. -/
theorem sum_hot_mul (w : Fin 640 → EReal) (v : BitVec 32) (hv : v.toNat < 640) :
    ∑ j : Fin 640, hot v j * w j = rowAt w v := by
  unfold rowAt; rw [dif_pos hv]
  rw [Finset.sum_eq_single (⟨v.toNat, hv⟩ : Fin 640)]
  · unfold hot; rw [if_pos (by simp)]; exact one_mul _
  · intro j _ hj
    unfold hot
    rw [if_neg, zero_mul]
    intro h
    apply hj
    apply Fin.ext
    have := congrArg BitVec.toNat h
    simp only [BitVec.toNat_ofNat] at this
    have hj' : j.val < 2 ^ 32 := lt_trans j.isLt (by norm_num)
    rw [Nat.mod_eq_of_lt hj'] at this
    exact this
  · intro h; exact absurd (Finset.mem_univ _) h

/-- THE LAW: count matrix times column = gathered entries added up, when every word names a row. -/
theorem bagCount_eq_bagGather (x : Fin 30 → BitVec 32) (w : Fin 640 → EReal) (hx : ∀ k, (x k).toNat < 640) :
    bagCount x w = bagGather x w := by
  unfold bagCount bagGather
  have key : ∀ s : Finset (Fin 30), ∑ j : Fin 640, (∑ k ∈ s, hot (x k) j) * w j = ∑ k ∈ s, rowAt w (x k) := by
    intro s
    induction s using Finset.induction_on with
    | empty => simp
    | insert a s ha ih =>
      rw [Finset.sum_insert ha, ← ih, ← sum_hot_mul w (x a) (hx a), ← Finset.sum_add_distrib]
      refine Finset.sum_congr rfl fun j _ => ?_
      rw [Finset.sum_insert ha]
      exact EReal.right_distrib_of_nonneg (hot_nonneg _ _) (Finset.sum_nonneg fun k _ => hot_nonneg _ _)
  exact key Finset.univ

/-- The kernel's clamp of an index word into 0 … 639 (signed). -/
def clampW (v : BitVec 32) : BitVec 32 := IntOp.minsi 639#32 (IntOp.maxsi 0#32 v)

/-- A word that names a row is its own clamp. -/
theorem clampW_of_lt (v : BitVec 32) (hv : v.toNat < 640) : clampW v = v := by
  unfold clampW IntOp.minsi IntOp.maxsi
  have h31 : v.toNat < 2 ^ 31 := lt_trans hv (by norm_num)
  have hvI : v.toInt = v.toNat := StableHlo.Predicate.toInt_eq_toNat_of_lt h31
  have h0I : (0#32 : BitVec 32).toInt = 0 := by decide
  have h639 : (639#32 : BitVec 32).toInt = 639 := by decide
  have h1 : v.slt 0#32 = false := by
    rw [BitVec.slt, hvI, h0I]; exact decide_eq_false (by omega)
  rw [h1]
  simp only [Bool.false_eq_true, if_false]
  have h2 : (639#32 : BitVec 32).slt v = false := by
    rw [BitVec.slt, hvI, h639]; exact decide_eq_false (by omega)
  rw [h2]; simp

/-- relu. -/
def relu (x : EReal) : EReal := max x 0

/-- The 512 hidden entries: relu of the first bag's 256 columns, then relu of the second's. -/
def hcat (s0 s1 : Fin 256 → EReal) (k : Fin 512) : EReal :=
  if h : k.val < 256 then relu (s0 ⟨k.val, h⟩) else relu (s1 ⟨k.val - 256, by omega⟩)

/-- The three affine layers over the 512 hidden entries; weights indexed contraction index first. -/
def mlpT (hid : Fin 512 → EReal) (W2 : Fin 512 → Fin 32 → EReal) (b2 : Fin 32 → EReal)
    (W3 : Fin 32 → Fin 32 → EReal) (b3 : Fin 32 → EReal) (W4 : Fin 32 → EReal) (b4 : EReal) : EReal :=
  (∑ k : Fin 32, relu ((∑ k' : Fin 32, relu ((∑ k'' : Fin 512, hid k'' * W2 k'' k') + b2 k') * W3 k' k) + b3 k) * W4 k) + b4

/-- The perceptron after the bags. -/
def mlp (s0 s1 : Fin 256 → EReal) (W2 : Fin 512 → Fin 32 → EReal) (b2 : Fin 32 → EReal)
    (W3 : Fin 32 → Fin 32 → EReal) (b3 : Fin 32 → EReal) (W4 : Fin 32 → EReal) (b4 : EReal) : EReal :=
  mlpT (hcat s0 s1) W2 b2 W3 b3 W4 b4

abbrev SIdx : Shape := ⟨2, ![8192, 30]⟩
abbrev STab : Shape := ⟨3, ![2, 640, 256]⟩
abbrev SW2 : Shape := ⟨2, ![32, 512]⟩
abbrev SB : Shape := ⟨1, ![32]⟩
abbrev SW3 : Shape := ⟨2, ![32, 32]⟩
abbrev SW4 : Shape := ⟨2, ![1, 32]⟩
abbrev SB4 : Shape := ⟨1, ![1]⟩
abbrev SOut : Shape := ⟨1, ![8192]⟩

/-- The whole result, one number per batch row, over the argument arrays; `bag` is the form of the bag sum and
    `pre` what is done to an index word first. -/
def out (bag : (Fin 30 → BitVec 32) → (Fin 640 → EReal) → EReal) (pre : BitVec 32 → BitVec 32)
    (idx0 idx1 : SIdx.Idx → BitVec 32) (w1 : STab.Idx → EReal) (w2 : SW2.Idx → EReal) (b2 : SB.Idx → EReal)
    (w3 : SW3.Idx → EReal) (b3 : SB.Idx → EReal) (w4 : SW4.Idx → EReal) (b4 : SB4.Idx → EReal) : SOut.Idx → EReal :=
  fun i =>
    let b : Fin 8192 := i 0
    mlp (fun h => bag (fun k => pre (idx0 (ix2 b k))) (fun j => w1 (ix3 (0 : Fin 2) j h)))
        (fun h => bag (fun k => pre (idx1 (ix2 b k))) (fun j => w1 (ix3 (1 : Fin 2) j h)))
        (fun k n => w2 (ix2 n k)) (fun n => b2 (ix1 n)) (fun k n => w3 (ix2 n k)) (fun n => b3 (ix1 n))
        (fun k => w4 (ix2 (0 : Fin 1) k)) (b4 (ix1 (0 : Fin 1)))

/-- Where every index word names a row of the table, the kernel's form of the result (clamp, count matrix) is the
    reference's (gather). -/
theorem out_count_eq_gather (idx0 idx1 : SIdx.Idx → BitVec 32) (w1 : STab.Idx → EReal) (w2 : SW2.Idx → EReal)
    (b2 : SB.Idx → EReal) (w3 : SW3.Idx → EReal) (b3 : SB.Idx → EReal) (w4 : SW4.Idx → EReal) (b4 : SB4.Idx → EReal)
    (h0 : ∀ i, (idx0 i).toNat < 640) (h1 : ∀ i, (idx1 i).toNat < 640) :
    out bagCount clampW idx0 idx1 w1 w2 b2 w3 b3 w4 b4 = out bagGather id idx0 idx1 w1 w2 b2 w3 b3 w4 b4 := by
  funext i
  unfold out mlp
  dsimp only
  congr 2
  · funext h
    rw [bagCount_eq_bagGather _ _ (fun k => by rw [clampW_of_lt _ (h0 _)]; exact h0 _)]
    congr 1; funext k; exact clampW_of_lt _ (h0 _)
  · funext h
    rw [bagCount_eq_bagGather _ _ (fun k => by rw [clampW_of_lt _ (h1 _)]; exact h1 _)]
    congr 1; funext k; exact clampW_of_lt _ (h1 _)

end Cert.Bag

end
-- ==== Proof.KTerm.lean ====
/-
  The kernel body's hidden layer, named: the 1024 × 512 array the body holds before its three matrix products —
  relu of the first feature set's bag sums beside relu of the second's — as the function of the two index blocks
  and the table block that the body's stores are stated over.  The output window's buffer after the body is the
  perceptron tail applied to it.
-/
import proofs.«402669_j2774548873840_3_alg».proof.Proof.Gen.KernelIdeal.Frame

set_option maxRecDepth 16384

noncomputable section

namespace Cert.KernelIdeal.Body

open Idealize.ShloMosaic Cert.KernelIdeal Cert.KernelIdeal.Gen

variable {F : FTy → Type} [FloatOps F]

/-- Feature set 0's bag sums for the block's 1024 rows (1024 × 256): the count matrix of the index block x0 times
    table 0 of the table block x2. -/
abbrev sum0Term (x0 : Vec F S1024x30 .i32) (x2 : Vec F S2x640x256 .bf16) : FVec F S1024x256 .f32 :=
  k0_pay18 (iota .tc S1024x640 32 [1] iota_S1024x640_d1_w32) (k0_pay2 (View.ld x2 r0_0)) (k0_pay3 (View.ld x0 r0_1)) (k0_pay14 (iota .tc S1024x640 32 [1] iota_S1024x640_d1_w32) (k0_pay3 (View.ld x0 r0_1)) (k0_pay10 (iota .tc S1024x640 32 [1] iota_S1024x640_d1_w32) (k0_pay3 (View.ld x0 r0_1)) (k0_pay6 (View.ld x0 r0_1)))) (k0_pay15 (iota .tc S1024x640 32 [1] iota_S1024x640_d1_w32) (k0_pay3 (View.ld x0 r0_1)) (k0_pay11 (iota .tc S1024x640 32 [1] iota_S1024x640_d1_w32) (k0_pay3 (View.ld x0 r0_1)) (k0_pay7 (View.ld x0 r0_1)))) (k0_pay16 (iota .tc S1024x640 32 [1] iota_S1024x640_d1_w32) (k0_pay3 (View.ld x0 r0_1)) (k0_pay12 (iota .tc S1024x640 32 [1] iota_S1024x640_d1_w32) (k0_pay3 (View.ld x0 r0_1)) (k0_pay4 (View.ld x0 r0_1)) (k0_pay8 (View.ld x0 r0_1)))) (k0_pay17 (iota .tc S1024x640 32 [1] iota_S1024x640_d1_w32) (k0_pay3 (View.ld x0 r0_1)) (k0_pay9 (iota .tc S1024x640 32 [1] iota_S1024x640_d1_w32) (k0_pay3 (View.ld x0 r0_1)) (k0_pay5 (View.ld x0 r0_1))) (k0_pay13 (iota .tc S1024x640 32 [1] iota_S1024x640_d1_w32) (k0_pay3 (View.ld x0 r0_1))))

/-- The hidden layer given feature set 0's bag sums s0: relu s0 beside relu of feature set 1's bag sums (the count
    matrix of the index block x1 times table 1 of x2). -/
abbrev hiddenOf (s0 : FVec F S1024x256 .f32) (x1 : Vec F S1024x30 .i32) (x2 : Vec F S2x640x256 .bf16) : FVec F S1024x512 .bf16 :=
  k0_pay35 (iota .tc S1024x640 32 [1] iota_S1024x640_d1_w32) s0 (k0_pay19 (View.ld x2 r0_2)) (k0_pay20 (View.ld x1 r0_1)) (k0_pay30 (iota .tc S1024x640 32 [1] iota_S1024x640_d1_w32) (k0_pay20 (View.ld x1 r0_1)) (k0_pay26 (iota .tc S1024x640 32 [1] iota_S1024x640_d1_w32) (k0_pay20 (View.ld x1 r0_1)) (k0_pay22 (iota .tc S1024x640 32 [1] iota_S1024x640_d1_w32) (View.ld x1 r0_1)))) (k0_pay31 (iota .tc S1024x640 32 [1] iota_S1024x640_d1_w32) (k0_pay20 (View.ld x1 r0_1)) (k0_pay27 (iota .tc S1024x640 32 [1] iota_S1024x640_d1_w32) (k0_pay20 (View.ld x1 r0_1)) (k0_pay23 (iota .tc S1024x640 32 [1] iota_S1024x640_d1_w32) (View.ld x1 r0_1)))) (k0_pay32 (iota .tc S1024x640 32 [1] iota_S1024x640_d1_w32) (k0_pay20 (View.ld x1 r0_1)) (k0_pay28 (iota .tc S1024x640 32 [1] iota_S1024x640_d1_w32) (k0_pay20 (View.ld x1 r0_1)) (k0_pay24 (iota .tc S1024x640 32 [1] iota_S1024x640_d1_w32) (View.ld x1 r0_1)))) (k0_pay33 (iota .tc S1024x640 32 [1] iota_S1024x640_d1_w32) (k0_pay20 (View.ld x1 r0_1)) (k0_pay25 (iota .tc S1024x640 32 [1] iota_S1024x640_d1_w32) (k0_pay20 (View.ld x1 r0_1)) (k0_pay21 (iota .tc S1024x640 32 [1] iota_S1024x640_d1_w32) (View.ld x1 r0_1))) (k0_pay29 (iota .tc S1024x640 32 [1] iota_S1024x640_d1_w32) (k0_pay20 (View.ld x1 r0_1)))) (k0_pay34 (k0_pay20 (View.ld x1 r0_1)))

/-- The hidden layer over the index blocks x0, x1 and the table block x2. -/
abbrev hiddenTerm (x0 x1 : Vec F S1024x30 .i32) (x2 : Vec F S2x640x256 .bf16) : FVec F S1024x512 .bf16 :=
  hiddenOf (sum0Term x0 x2) x1 x2

/-- The output window's buffer after the body: one store of the tail over the hidden layer. -/
theorem out0_9_eq (x0 x1 : Vec F S1024x30 .i32) (x2 : Vec F S2x640x256 .bf16) (x3 : Vec F S512x32 .bf16) (x4 : Vec F S1x32 .f32)
    (x5 : Vec F S32x32 .bf16) (x6 : Vec F S1x32 .f32) (x7 : Vec F S32x1 .bf16) (x8 : Vec F S1x1 .f32) :
    out0_9 x0 x1 x2 x3 x4 x5 x6 x7 x8 = View.canon [⟨r0_8, k0_pay1 (hiddenTerm x0 x1 x2) (k0_pay36 (View.ld x3 r0_3)) (View.ld x4 r0_4) (View.ld x5 r0_5) (View.ld x6 r0_4) (View.ld x7 r0_6) (View.ld x8 r0_7)⟩] := rfl

end Cert.KernelIdeal.Body

end
-- ==== Proof.KSum0.lean ====
/-
  Feature set 0's bag sums in the kernel body read at an entry: thirty indicator arrays (the lane number compared
  with one index column each) added up in four partial sums give the count matrix, and its product with table 0
  at (r, h) is the count form of the bag for row r and column h.

  The proof reads every array at one entry.  One step's summand at (r, j) is the indicator of "word (r, c) names
  lane j": the compare bit, widened and converted, is the number 1 or 0, and the two format changes are the
  identity on the extended reals.  Each partial sum at (r, j) is then what it was handed plus its columns'
  indicators; the four chains (columns congruent to 0, 1, 2, 3 modulo 4, each from zero) joined two and two are a
  regrouping of the thirty indicators, and addition on the extended reals is associative and commutative, so the
  count matrix at (r, j) is the sum over the thirty columns.  The product into the zero accumulator at (r, h) is the
  sum over the 640 lanes of count (r, j) times table (j, h), and the table factor is table 0 of the block, the
  leading unit axis of its slab dropped.
-/
import proofs.«402669_j2774548873840_3_alg».proof.Proof.KTerm
import proofs.«402669_j2774548873840_3_alg».proof.Proof.Spec
import Idealize.ShloMosaic.Lib.ValueIdx
import Idealize.ShloMosaic.Lib.Pipeline.Value
import Idealize.ShloMosaic.Lib.ValueLayout
import Idealize.ShloMosaic.Lib.IdealHost
import Idealize.ShloMosaic.PureOps.Ideal.Laws

noncomputable section

namespace Cert.KernelIdeal.Body

open Idealize.ShloMosaic Idealize.ShloMosaic.ValueIdx Idealize.SL.Sem Cert.KernelIdeal Cert.KernelIdeal.Gen

namespace Sum0

/-! ## The pieces: the compare bit as a number, one indicator array at an entry -/

/-- The compare bit widened to a word and read as a signed integer is 1 where the words agree and 0 elsewhere. -/
theorem ind_val (a b : BitVec 32) :
    ((((IntOp.cmpi .eq a b).setWidth 32 : BitVec 32).toInt : ℝ) : EReal) = if a = b then 1 else 0 := by
  have hc : IntOp.cmpi .eq a b = BitVec.ofBool (a == b) := rfl
  rw [hc]
  by_cases h : a = b
  · rw [if_pos h, beq_iff_eq.mpr h]
    have h1 : ((BitVec.ofBool true).setWidth 32 : BitVec 32).toInt = 1 := by decide
    rw [h1]; norm_num
  · rw [if_neg h, beq_eq_false_iff_ne.mpr h]
    have h0 : ((BitVec.ofBool false).setWidth 32 : BitVec 32).toInt = 0 := by decide
    rw [h0]; norm_num

/-- Column c's indicator for row r and lane j (zero for a column number past the block's thirty). -/
def colHot (x : IVec S1024x30 32) (r : Fin 1024) (j : Fin 640) (c : ℕ) : EReal :=
  if hc : c < 30 then Cert.Bag.hot (x (ix2 r ⟨c, hc⟩)) j else 0

/-- One accumulation step's summand: column c of the index block spread along the lanes, compared with the lane
    number v0, and the bit read as a number. -/
abbrev hotArr (v0 : IVec S1024x640 32) (x : IVec S1024x30 32) (c : ℕ) (hs : S1024x30.Slices ![0, c] S1024x1) :
    FVec Ideal S1024x640 .bf16 :=
  truncf .bf16 (sitofp .f32 (extui 32 (cmpi .eq v0 (broadcastTo S1024x640 (extractStridedSlice S1024x1 ![0, c] x hs)
    broadcasts_S1024x1_S1024x640)) natLt_1_32) : FVec Ideal S1024x640 .f32) bitsLt_bf16_f32

/-- At (r, j) the summand is the indicator of "word (r, c) names lane j". -/
theorem hotArr_apply (v0 : IVec S1024x640 32) (hv0 : ∀ (r : Fin 1024) (j : Fin 640), v0 (ix2 r j) = BitVec.ofNat 32 j.val)
    (x : IVec S1024x30 32) (c : ℕ) (hc : c < 30) (hs : S1024x30.Slices ![0, c] S1024x1) (r : Fin 1024) (j : Fin 640) :
    hotArr v0 x c hs (ix2 r j) = colHot x r j c := by
  unfold colHot
  rw [dif_pos hc]
  show ((((IntOp.cmpi .eq (v0 (ix2 r j)) (broadcastTo S1024x640 (extractStridedSlice S1024x1 ![0, c] x hs)
    broadcasts_S1024x1_S1024x640 (ix2 r j))).setWidth 32 : BitVec 32).toInt : ℝ) : EReal) = _
  rw [ind_val, hv0 r j,
    broadcastTo_apply _ broadcasts_S1024x1_S1024x640 (ix2 r j) (ix2 r (0 : Fin 1))
      (fun a => match a with | ⟨0, _⟩ => rfl | ⟨1, _⟩ => rfl),
    extractStridedSlice_apply ![0, c] x hs (ix2 r (0 : Fin 1)) (ix2 r (⟨c, hc⟩ : Fin 30))
      (fun a => match a with
        | ⟨0, _⟩ => by show r.val = 0 + r.val; omega
        | ⟨1, _⟩ => by show c = c + 0; omega)]
  rfl

/-- The lane number: lane j's word is j, in every row. -/
abbrev lane : IVec S1024x640 32 := iota .tc S1024x640 32 [1] iota_S1024x640_d1_w32

theorem lane_apply (r : Fin 1024) (j : Fin 640) : lane (ix2 r j) = BitVec.ofNat 32 j.val :=
  iota_single_apply .tc S1024x640 32 1 iota_S1024x640_d1_w32 (ix2 r j)

/-- The accumulators start at zero. -/
theorem zero_apply (i : S1024x640.Idx) :
    (broadcast S1024x640 (Scalar.ofBits .bf16 0x0000#16 : Ideal .bf16) : FVec Ideal S1024x640 .bf16) i = 0 :=
  Ideal.ofBits_zero_bf16

/-- The index block as the body holds it is the block loaded. -/
theorem block0_eq (x0 : Vec Ideal S1024x30 .i32) : k0_pay3 (View.ld x0 r0_1) = x0 := by
  unfold k0_pay3
  rw [shapeCast_self]
  exact View.ld_unit_zero (S := S1024x30) (funext fun a => match a with | ⟨0, _⟩ => rfl | ⟨1, _⟩ => rfl) _ x0

/-- The table factor: table 0 of the table block, its leading unit axis dropped. -/
theorem table0_apply (x2 : Vec Ideal S2x640x256 .bf16) (j : Fin 640) (h : Fin 256) :
    k0_pay2 (View.ld x2 r0_0) (ix2 j h) = x2 (ix3 (0 : Fin 2) j h) := by
  unfold k0_pay2
  refine (shapeCast_1ab_ab_apply (View.ld x2 r0_0) shapeCasts_S1x640x256_S640x256 j h).trans ?_
  show x2 (r0_0.idx (ix3 (0 : Fin 1) j h)) = x2 (ix3 (0 : Fin 2) j h)
  refine congrArg x2 (funext fun a => Fin.ext ?_)
  match a with
  | ⟨0, _⟩ => rfl
  | ⟨1, _⟩ => show 0 + 1 * j.val = j.val; omega
  | ⟨2, _⟩ => show 0 + 1 * h.val = h.val; omega

/-! ## The partial sums at an entry: each is what it was handed plus its columns' indicators -/

theorem pay4_apply (v3 : Vec Ideal S1024x30 .i32) (r : Fin 1024) (j : Fin 640) :
    k0_pay4 v3 (ix2 r j) = 0 + colHot (k0_pay3 v3) r j 1 := by
  show (broadcast S1024x640 (Scalar.ofBits .bf16 0x0000#16 : Ideal .bf16) : FVec Ideal S1024x640 .bf16) (ix2 r j) + hotArr lane (k0_pay3 v3) 1 slices_S1024x30_o0_1_S1024x1 (ix2 r j) = _
  rw [zero_apply, hotArr_apply lane lane_apply (k0_pay3 v3) 1 (by omega) slices_S1024x30_o0_1_S1024x1 r j]

theorem pay5_apply (v3 : Vec Ideal S1024x30 .i32) (r : Fin 1024) (j : Fin 640) :
    k0_pay5 v3 (ix2 r j) = 0 + colHot (k0_pay3 v3) r j 2 := by
  show (broadcast S1024x640 (Scalar.ofBits .bf16 0x0000#16 : Ideal .bf16) : FVec Ideal S1024x640 .bf16) (ix2 r j) + hotArr lane (k0_pay3 v3) 2 slices_S1024x30_o0_2_S1024x1 (ix2 r j) = _
  rw [zero_apply, hotArr_apply lane lane_apply (k0_pay3 v3) 2 (by omega) slices_S1024x30_o0_2_S1024x1 r j]

theorem pay6_apply (v3 : Vec Ideal S1024x30 .i32) (r : Fin 1024) (j : Fin 640) :
    k0_pay6 v3 (ix2 r j) = 0 + colHot (k0_pay3 v3) r j 3 := by
  show (broadcast S1024x640 (Scalar.ofBits .bf16 0x0000#16 : Ideal .bf16) : FVec Ideal S1024x640 .bf16) (ix2 r j) + hotArr lane (k0_pay3 v3) 3 slices_S1024x30_o0_3_S1024x1 (ix2 r j) = _
  rw [zero_apply, hotArr_apply lane lane_apply (k0_pay3 v3) 3 (by omega) slices_S1024x30_o0_3_S1024x1 r j]

theorem pay7_apply (v3 : Vec Ideal S1024x30 .i32) (r : Fin 1024) (j : Fin 640) :
    k0_pay7 v3 (ix2 r j) = 0 + colHot (k0_pay3 v3) r j 0 + colHot (k0_pay3 v3) r j 4 := by
  show (broadcast S1024x640 (Scalar.ofBits .bf16 0x0000#16 : Ideal .bf16) : FVec Ideal S1024x640 .bf16) (ix2 r j) + hotArr lane (k0_pay3 v3) 0 slices_S1024x30_o0_0_S1024x1 (ix2 r j) + hotArr lane (k0_pay3 v3) 4 slices_S1024x30_o0_4_S1024x1 (ix2 r j) = _
  rw [zero_apply, hotArr_apply lane lane_apply (k0_pay3 v3) 0 (by omega) slices_S1024x30_o0_0_S1024x1 r j,
    hotArr_apply lane lane_apply (k0_pay3 v3) 4 (by omega) slices_S1024x30_o0_4_S1024x1 r j]

theorem pay8_apply (v3 : Vec Ideal S1024x30 .i32) (r : Fin 1024) (j : Fin 640) :
    k0_pay8 v3 (ix2 r j) = colHot (k0_pay3 v3) r j 5 :=
  hotArr_apply lane lane_apply (k0_pay3 v3) 5 (by omega) slices_S1024x30_o0_5_S1024x1 r j

theorem pay9_apply (v0 : IVec S1024x640 32) (hv0 : ∀ (r : Fin 1024) (j : Fin 640), v0 (ix2 r j) = BitVec.ofNat 32 j.val)
    (v4 : IVec S1024x30 32) (v29 : FVec Ideal S1024x640 .bf16) (r : Fin 1024) (j : Fin 640) :
    k0_pay9 v0 v4 v29 (ix2 r j) = v29 (ix2 r j) + colHot v4 r j 6 + colHot v4 r j 10 := by
  show v29 (ix2 r j) + hotArr v0 v4 6 slices_S1024x30_o0_6_S1024x1 (ix2 r j) + hotArr v0 v4 10 slices_S1024x30_o0_10_S1024x1 (ix2 r j) = _
  rw [hotArr_apply v0 hv0 v4 6 (by omega) slices_S1024x30_o0_6_S1024x1 r j, hotArr_apply v0 hv0 v4 10 (by omega) slices_S1024x30_o0_10_S1024x1 r j]

theorem pay10_apply (v0 : IVec S1024x640 32) (hv0 : ∀ (r : Fin 1024) (j : Fin 640), v0 (ix2 r j) = BitVec.ofNat 32 j.val)
    (v4 : IVec S1024x30 32) (v36 : FVec Ideal S1024x640 .bf16) (r : Fin 1024) (j : Fin 640) :
    k0_pay10 v0 v4 v36 (ix2 r j) = v36 (ix2 r j) + colHot v4 r j 7 + colHot v4 r j 11 := by
  show v36 (ix2 r j) + hotArr v0 v4 7 slices_S1024x30_o0_7_S1024x1 (ix2 r j) + hotArr v0 v4 11 slices_S1024x30_o0_11_S1024x1 (ix2 r j) = _
  rw [hotArr_apply v0 hv0 v4 7 (by omega) slices_S1024x30_o0_7_S1024x1 r j, hotArr_apply v0 hv0 v4 11 (by omega) slices_S1024x30_o0_11_S1024x1 r j]

theorem pay11_apply (v0 : IVec S1024x640 32) (hv0 : ∀ (r : Fin 1024) (j : Fin 640), v0 (ix2 r j) = BitVec.ofNat 32 j.val)
    (v4 : IVec S1024x30 32) (v43 : FVec Ideal S1024x640 .bf16) (r : Fin 1024) (j : Fin 640) :
    k0_pay11 v0 v4 v43 (ix2 r j) = v43 (ix2 r j) + colHot v4 r j 8 + colHot v4 r j 12 := by
  show v43 (ix2 r j) + hotArr v0 v4 8 slices_S1024x30_o0_8_S1024x1 (ix2 r j) + hotArr v0 v4 12 slices_S1024x30_o0_12_S1024x1 (ix2 r j) = _
  rw [hotArr_apply v0 hv0 v4 8 (by omega) slices_S1024x30_o0_8_S1024x1 r j, hotArr_apply v0 hv0 v4 12 (by omega) slices_S1024x30_o0_12_S1024x1 r j]

theorem pay12_apply (v0 : IVec S1024x640 32) (hv0 : ∀ (r : Fin 1024) (j : Fin 640), v0 (ix2 r j) = BitVec.ofNat 32 j.val)
    (v4 : IVec S1024x30 32) (v22 v49 : FVec Ideal S1024x640 .bf16) (r : Fin 1024) (j : Fin 640) :
    k0_pay12 v0 v4 v22 v49 (ix2 r j) = v22 (ix2 r j) + v49 (ix2 r j) + colHot v4 r j 9 + colHot v4 r j 13 := by
  show v22 (ix2 r j) + v49 (ix2 r j) + hotArr v0 v4 9 slices_S1024x30_o0_9_S1024x1 (ix2 r j) + hotArr v0 v4 13 slices_S1024x30_o0_13_S1024x1 (ix2 r j) = _
  rw [hotArr_apply v0 hv0 v4 9 (by omega) slices_S1024x30_o0_9_S1024x1 r j, hotArr_apply v0 hv0 v4 13 (by omega) slices_S1024x30_o0_13_S1024x1 r j]

theorem pay14_apply (v0 : IVec S1024x640 32) (hv0 : ∀ (r : Fin 1024) (j : Fin 640), v0 (ix2 r j) = BitVec.ofNat 32 j.val)
    (v4 : IVec S1024x30 32) (v92 : FVec Ideal S1024x640 .bf16) (r : Fin 1024) (j : Fin 640) :
    k0_pay14 v0 v4 v92 (ix2 r j) = v92 (ix2 r j) + colHot v4 r j 15 + colHot v4 r j 19 := by
  show v92 (ix2 r j) + hotArr v0 v4 15 slices_S1024x30_o0_15_S1024x1 (ix2 r j) + hotArr v0 v4 19 slices_S1024x30_o0_19_S1024x1 (ix2 r j) = _
  rw [hotArr_apply v0 hv0 v4 15 (by omega) slices_S1024x30_o0_15_S1024x1 r j, hotArr_apply v0 hv0 v4 19 (by omega) slices_S1024x30_o0_19_S1024x1 r j]

theorem pay15_apply (v0 : IVec S1024x640 32) (hv0 : ∀ (r : Fin 1024) (j : Fin 640), v0 (ix2 r j) = BitVec.ofNat 32 j.val)
    (v4 : IVec S1024x30 32) (v99 : FVec Ideal S1024x640 .bf16) (r : Fin 1024) (j : Fin 640) :
    k0_pay15 v0 v4 v99 (ix2 r j) = v99 (ix2 r j) + colHot v4 r j 16 + colHot v4 r j 20 := by
  show v99 (ix2 r j) + hotArr v0 v4 16 slices_S1024x30_o0_16_S1024x1 (ix2 r j) + hotArr v0 v4 20 slices_S1024x30_o0_20_S1024x1 (ix2 r j) = _
  rw [hotArr_apply v0 hv0 v4 16 (by omega) slices_S1024x30_o0_16_S1024x1 r j, hotArr_apply v0 hv0 v4 20 (by omega) slices_S1024x30_o0_20_S1024x1 r j]

theorem pay16_apply (v0 : IVec S1024x640 32) (hv0 : ∀ (r : Fin 1024) (j : Fin 640), v0 (ix2 r j) = BitVec.ofNat 32 j.val)
    (v4 : IVec S1024x30 32) (v106 : FVec Ideal S1024x640 .bf16) (r : Fin 1024) (j : Fin 640) :
    k0_pay16 v0 v4 v106 (ix2 r j) = v106 (ix2 r j) + colHot v4 r j 17 + colHot v4 r j 21 := by
  show v106 (ix2 r j) + hotArr v0 v4 17 slices_S1024x30_o0_17_S1024x1 (ix2 r j) + hotArr v0 v4 21 slices_S1024x30_o0_21_S1024x1 (ix2 r j) = _
  rw [hotArr_apply v0 hv0 v4 17 (by omega) slices_S1024x30_o0_17_S1024x1 r j, hotArr_apply v0 hv0 v4 21 (by omega) slices_S1024x30_o0_21_S1024x1 r j]

/-- The partial sum that is handed column 14's compare bits still as bits. -/
theorem pay17_apply (v0 : IVec S1024x640 32) (hv0 : ∀ (r : Fin 1024) (j : Fin 640), v0 (ix2 r j) = BitVec.ofNat 32 j.val)
    (v4 : IVec S1024x30 32) (v85 : FVec Ideal S1024x640 .bf16) (r : Fin 1024) (j : Fin 640) :
    k0_pay17 v0 v4 v85 (k0_pay13 v0 v4) (ix2 r j)
      = v85 (ix2 r j) + colHot v4 r j 14 + colHot v4 r j 18 + colHot v4 r j 22 := by
  show v85 (ix2 r j) + hotArr v0 v4 14 slices_S1024x30_o0_14_S1024x1 (ix2 r j) + hotArr v0 v4 18 slices_S1024x30_o0_18_S1024x1 (ix2 r j) + hotArr v0 v4 22 slices_S1024x30_o0_22_S1024x1 (ix2 r j) = _
  rw [hotArr_apply v0 hv0 v4 14 (by omega) slices_S1024x30_o0_14_S1024x1 r j, hotArr_apply v0 hv0 v4 18 (by omega) slices_S1024x30_o0_18_S1024x1 r j,
    hotArr_apply v0 hv0 v4 22 (by omega) slices_S1024x30_o0_22_S1024x1 r j]

/-! ## The product at an entry -/

theorem lhs_dot_0 (j : S1024x256.Idx) (k : dot_S1024x640_S640x256_S1024x256_1_0_0_1_n_n.contr.Idx) :
    (dot_S1024x640_S640x256_S1024x256_1_0_0_1_n_n.lhsIdx j k 0).val = (j 0).val := rfl
theorem lhs_dot_1 (j : S1024x256.Idx) (k : dot_S1024x640_S640x256_S1024x256_1_0_0_1_n_n.contr.Idx) :
    (dot_S1024x640_S640x256_S1024x256_1_0_0_1_n_n.lhsIdx j k 1).val = (k ⟨0, by decide⟩).val := rfl
theorem rhs_dot_0 (j : S1024x256.Idx) (k : dot_S1024x640_S640x256_S1024x256_1_0_0_1_n_n.contr.Idx) :
    (dot_S1024x640_S640x256_S1024x256_1_0_0_1_n_n.rhsIdx j k 0).val = (k ⟨0, by decide⟩).val := rfl
theorem rhs_dot_1 (j : S1024x256.Idx) (k : dot_S1024x640_S640x256_S1024x256_1_0_0_1_n_n.contr.Idx) :
    (dot_S1024x640_S640x256_S1024x256_1_0_0_1_n_n.rhsIdx j k 1).val = (j 1).val := rfl

/-- The matrix product into the zero accumulator at (r, h): the sum over the 640 lanes of row r of the left factor
    times column h of the right. -/
theorem matmul_entry (A : FVec Ideal S1024x640 .bf16) (T : FVec Ideal S640x256 .bf16) (r : Fin 1024) (h : Fin 256) :
    FloatOps.matmul dot_S1024x640_S640x256_S1024x256_1_0_0_1_n_n none A T (constant (F := Ideal) S1024x256 .f32 0x00000000#32) (ix2 r h)
      = ∑ i : Fin 640, A (ix2 r i) * T (ix2 i h) := by
  refine (Ideal.matmul_constant_zero_apply dot_S1024x640_S640x256_S1024x256_1_0_0_1_n_n none A T (ix2 r h)).trans ?_
  rw [← Equiv.sum_comp (contrEquiv1 dot_S1024x640_S640x256_S1024x256_1_0_0_1_n_n 640 rfl rfl).symm]
  refine Finset.sum_congr rfl fun i _ => ?_
  have hk := contrEquiv1_symm_val dot_S1024x640_S640x256_S1024x256_1_0_0_1_n_n 640 rfl rfl i
  have e1 : dot_S1024x640_S640x256_S1024x256_1_0_0_1_n_n.lhsIdx (ix2 r h) ((contrEquiv1 dot_S1024x640_S640x256_S1024x256_1_0_0_1_n_n 640 rfl rfl).symm i) = ix2 r i :=
    Shape.idx_ext₂ (lhs_dot_0 _ _) ((lhs_dot_1 _ _).trans hk)
  have e2 : dot_S1024x640_S640x256_S1024x256_1_0_0_1_n_n.rhsIdx (ix2 r h) ((contrEquiv1 dot_S1024x640_S640x256_S1024x256_1_0_0_1_n_n 640 rfl rfl).symm i) = ix2 i h :=
    Shape.idx_ext₂ ((rhs_dot_0 _ _).trans hk) (rhs_dot_1 _ _)
  rw [e1, e2]

/-- The last payload: the four partial sums take their last columns, are added two and two, and the count matrix
    so formed multiplies the table. -/
theorem pay18_apply (v0 : IVec S1024x640 32) (hv0 : ∀ (r : Fin 1024) (j : Fin 640), v0 (ix2 r j) = BitVec.ofNat 32 j.val)
    (v2 : FVec Ideal S640x256 .bf16) (v4 : IVec S1024x30 32) (v148 v155 v162 v169 : FVec Ideal S1024x640 .bf16)
    (r : Fin 1024) (h : Fin 256) :
    k0_pay18 v0 v2 v4 v148 v155 v162 v169 (ix2 r h)
      = ∑ j : Fin 640, ((v155 (ix2 r j) + colHot v4 r j 24 + colHot v4 r j 28 + (v162 (ix2 r j) + colHot v4 r j 25 + colHot v4 r j 29))
          + (v169 (ix2 r j) + colHot v4 r j 26 + (v148 (ix2 r j) + colHot v4 r j 23 + colHot v4 r j 27))) * v2 (ix2 j h) := by
  show FloatOps.matmul dot_S1024x640_S640x256_S1024x256_1_0_0_1_n_n none
      (addf (addf (addf (addf v155 (hotArr v0 v4 24 slices_S1024x30_o0_24_S1024x1)) (hotArr v0 v4 28 slices_S1024x30_o0_28_S1024x1))
                  (addf (addf v162 (hotArr v0 v4 25 slices_S1024x30_o0_25_S1024x1)) (hotArr v0 v4 29 slices_S1024x30_o0_29_S1024x1)))
            (addf (addf v169 (hotArr v0 v4 26 slices_S1024x30_o0_26_S1024x1))
                  (addf (addf v148 (hotArr v0 v4 23 slices_S1024x30_o0_23_S1024x1)) (hotArr v0 v4 27 slices_S1024x30_o0_27_S1024x1))))
      v2 (constant (F := Ideal) S1024x256 .f32 0x00000000#32) (ix2 r h) = _
  rw [matmul_entry]
  refine Finset.sum_congr rfl fun j _ => ?_
  simp only [addf_apply]
  rw [hotArr_apply v0 hv0 v4 24 (by omega) slices_S1024x30_o0_24_S1024x1 r j, hotArr_apply v0 hv0 v4 28 (by omega) slices_S1024x30_o0_28_S1024x1 r j,
    hotArr_apply v0 hv0 v4 25 (by omega) slices_S1024x30_o0_25_S1024x1 r j, hotArr_apply v0 hv0 v4 29 (by omega) slices_S1024x30_o0_29_S1024x1 r j,
    hotArr_apply v0 hv0 v4 26 (by omega) slices_S1024x30_o0_26_S1024x1 r j, hotArr_apply v0 hv0 v4 23 (by omega) slices_S1024x30_o0_23_S1024x1 r j,
    hotArr_apply v0 hv0 v4 27 (by omega) slices_S1024x30_o0_27_S1024x1 r j]

/-! ## The thirty summands regrouped -/

/-- The kernel's grouping of the thirty summands — four interleaved chains from zero, joined two and two — is their
    sum in order (addition on the extended reals is associative and commutative). -/
theorem regroup30 (c : ℕ → EReal) :
    ((0 + c 0 + c 4 + c 8 + c 12 + c 16 + c 20) + c 24 + c 28 + ((0 + c 1 + c 5 + c 9 + c 13 + c 17 + c 21) + c 25 + c 29))
      + ((0 + c 2 + c 6 + c 10 + c 14 + c 18 + c 22) + c 26 + ((0 + c 3 + c 7 + c 11 + c 15 + c 19) + c 23 + c 27)) = ∑ i ∈ Finset.range 30, c i := by
  simp only [Finset.sum_range_succ, Finset.sum_range_zero, zero_add]
  ac_rfl

/-- The thirty columns' indicators, counted by column number. -/
theorem sum_hot_eq_range (x : IVec S1024x30 32) (r : Fin 1024) (j : Fin 640) :
    ∑ k : Fin 30, Cert.Bag.hot (x (ix2 r k)) j = ∑ i ∈ Finset.range 30, colHot x r j i := by
  rw [Finset.sum_range]
  refine Finset.sum_congr rfl fun k _ => ?_
  unfold colHot
  rw [dif_pos k.isLt]

end Sum0

/-! ## Assembly -/

open Sum0 in
theorem sum0Term_apply (x0 : Vec Ideal S1024x30 .i32) (x2 : Vec Ideal S2x640x256 .bf16) (r : Fin 1024) (h : Fin 256) :
    sum0Term x0 x2 (ix2 r h) = Cert.Bag.bagCount (fun k' => x0 (ix2 r k')) (fun j => x2 (ix3 (0 : Fin 2) j h)) := by
  unfold Cert.Bag.bagCount
  refine (pay18_apply lane lane_apply _ _ _ _ _ _ r h).trans ?_
  refine Finset.sum_congr rfl fun j _ => ?_
  rw [table0_apply x2 j h]
  refine congrArg (· * x2 (ix3 (0 : Fin 2) j h)) ?_
  rw [pay14_apply lane lane_apply, pay10_apply lane lane_apply, pay6_apply,
    pay15_apply lane lane_apply, pay11_apply lane lane_apply, pay7_apply,
    pay16_apply lane lane_apply, pay12_apply lane lane_apply, pay4_apply, pay8_apply,
    pay17_apply lane lane_apply, pay9_apply lane lane_apply, pay5_apply, block0_eq x0,
    sum_hot_eq_range x0 r j]
  exact regroup30 (colHot x0 r j)

end Cert.KernelIdeal.Body

end
-- ==== Proof.KHid1.lean ====
/-
  The hidden layer of the kernel body read at an entry, given feature set 0's bag sums s0: column k < 256 of row r
  is relu of s0 (r, k); column k ≥ 256 is relu of the count form of feature set 1's bag for row r and column k − 256
  (the count matrix of the second index block times table 1).

  The count matrix is built column by column: for column c of the index block the array with entry (r, j) equal to
  1 when the word at (r, c) is the lane number j and 0 otherwise, added into one of four partial sums that start at
  zero (column c into partial sum c mod 4); the four are then added up. At an entry this is a rearrangement of the
  thirty indicator values of row r at lane j, so it is their sum over the thirty columns; the matrix product then
  sums, over the 640 lanes, that count times table 1's entry, which is the count form of the bag.
-/
import proofs.«402669_j2774548873840_3_alg».proof.Proof.KTerm
import proofs.«402669_j2774548873840_3_alg».proof.Proof.Spec
import Idealize.ShloMosaic.Lib.Pipeline.Value
import Idealize.ShloMosaic.Lib.IdealHost
import Idealize.ShloMosaic.PureOps.Ideal.Laws
import Mathlib.Algebra.BigOperators.Fin

noncomputable section

namespace Cert.KernelIdeal.Body

open Idealize.ShloMosaic Idealize.ShloMosaic.ValueIdx Idealize.SL.Sem Cert.KernelIdeal Cert.KernelIdeal.Gen

namespace Hid1

/-! ## One indicator array at an entry -/

/-- The lane-number array: entry (r, j) is the word j. -/
abbrev laneNo : IVec S1024x640 32 := iota .tc S1024x640 32 [1] iota_S1024x640_d1_w32

theorem laneNo_apply (r : Fin 1024) (j : Fin 640) : laneNo (ix2 r j) = BitVec.ofNat 32 j.val :=
  iota_single_apply .tc S1024x640 32 1 iota_S1024x640_d1_w32 (ix2 r j)

/-- Column c of the index block spread along the 640 lanes: entry (r, j) is the word at (r, c). -/
theorem colSpread_apply (x : IVec S1024x30 32) (c : Nat) (hc : c < 30) (hs : S1024x30.Slices ![0, c] S1024x1)
    (r : Fin 1024) (j : Fin 640) :
    broadcastTo S1024x640 (extractStridedSlice S1024x1 ![0, c] x hs) broadcasts_S1024x1_S1024x640 (ix2 r j)
      = x (ix2 r ⟨c, hc⟩) := by
  refine (broadcastTo_apply _ broadcasts_S1024x1_S1024x640 (ix2 r j) (ix2 r (0 : Fin 1)) ?_).trans ?_
  · intro a
    match a with
    | ⟨0, _⟩ => rfl
    | ⟨1, _⟩ => rfl
  · refine extractStridedSlice_apply _ x hs (ix2 r (0 : Fin 1)) (ix2 r ⟨c, hc⟩) ?_
    intro a
    match a with
    | ⟨0, _⟩ => exact (Nat.zero_add _).symm
    | ⟨1, _⟩ => rfl

/-- The indicator array of column c at an entry: the comparison bit of the lane number with the word at (r, c),
    widened and read as a number, is 1 where they are equal and 0 elsewhere. -/
theorem ind_apply (x : IVec S1024x30 32) (c : Nat) (hc : c < 30) (hs : S1024x30.Slices ![0, c] S1024x1)
    (r : Fin 1024) (j : Fin 640) :
    (truncf .bf16 (sitofp .f32 (extui 32 (cmpi .eq laneNo
        (broadcastTo S1024x640 (extractStridedSlice S1024x1 ![0, c] x hs) broadcasts_S1024x1_S1024x640)) natLt_1_32))
      bitsLt_bf16_f32 : FVec Ideal S1024x640 .bf16) (ix2 r j) = Cert.Bag.hot (x (ix2 r ⟨c, hc⟩)) j := by
  show (((((IntOp.cmpi .eq (laneNo (ix2 r j))
      (broadcastTo S1024x640 (extractStridedSlice S1024x1 ![0, c] x hs) broadcasts_S1024x1_S1024x640 (ix2 r j))).setWidth 32).toInt : ℝ)) : EReal) = _
  rw [laneNo_apply, colSpread_apply x c hc hs r j]
  unfold Cert.Bag.hot IntOp.cmpi
  by_cases h : BitVec.ofNat 32 j.val = x (ix2 r ⟨c, hc⟩)
  · rw [if_pos h, h]; simp
  · rw [if_neg h]
    have hb : (BitVec.ofNat 32 j.val == x (ix2 r ⟨c, hc⟩)) = false := by simpa using h
    rw [hb]; simp

/-- A slice fact for column c of the index block bounds the column number. -/
theorem col_lt {c : Nat} (hs : S1024x30.Slices ![0, c] S1024x1) : c < 30 := by
  obtain ⟨h, hh⟩ := hs
  have h1 : c + 1 ≤ 30 := hh 1
  omega

/-- The indicator value of column c (a natural number) of row r at lane j; zero past the thirty columns. -/
def colHot (X : IVec S1024x30 32) (r : Fin 1024) (j : Fin 640) (c : ℕ) : EReal :=
  if h : c < 30 then Cert.Bag.hot (X (ix2 r ⟨c, h⟩)) j else 0

/-- The indicator array of column c: lane number against the spread column, as 0 or 1. -/
def indA (X : IVec S1024x30 32) (c : Nat) (hs : S1024x30.Slices ![0, c] S1024x1) : FVec Ideal S1024x640 .bf16 :=
  truncf .bf16 (sitofp .f32 (extui 32 (cmpi .eq laneNo
    (broadcastTo S1024x640 (extractStridedSlice S1024x1 ![0, c] X hs) broadcasts_S1024x1_S1024x640)) natLt_1_32)) bitsLt_bf16_f32

theorem indA_apply (X : IVec S1024x30 32) (c : Nat) (hs : S1024x30.Slices ![0, c] S1024x1) (r : Fin 1024) (j : Fin 640) :
    indA X c hs (ix2 r j) = colHot X r j c := by
  unfold colHot
  rw [dif_pos (col_lt hs)]
  exact ind_apply X c (col_lt hs) hs r j

/-! ## The two blocks as the kernel reads them -/

/-- Table 1 of the table block: entry (j, h) of the [640, 256] view is x2 (1, j, h). -/
theorem table1_apply (x2 : Vec Ideal S2x640x256 .bf16) (j : Fin 640) (h : Fin 256) :
    k0_pay19 (View.ld x2 r0_2) (ix2 j h) = x2 (ix3 (1 : Fin 2) j h) := by
  unfold k0_pay19
  refine (shapeCast_dropUnit_apply _ _ shapeCasts_S1x640x256_S640x256 (ix2 j h)).trans ?_
  show x2 (r0_2.idx _) = x2 _
  refine congrArg x2 (funext fun a => Fin.ext ?_)
  match a with
  | ⟨0, _⟩ => rfl
  | ⟨1, _⟩ => show 0 + 1 * (j : ℕ) = j; omega
  | ⟨2, _⟩ => show 0 + 1 * (h : ℕ) = h; omega

/-- The index block read whole and cast to its own shape is the block itself. -/
theorem idxBlock_eq (x1 : Vec Ideal S1024x30 .i32) : k0_pay20 (F := Ideal) (View.ld x1 r0_1) = x1 := by
  unfold k0_pay20
  rw [shapeCast_self]
  exact View.ld_unit_zero (funext fun a => by match a with | ⟨0, _⟩ => rfl | ⟨1, _⟩ => rfl) _ x1

/-! ## The matrix product at an entry

The product contracts axis 1 of the count matrix with axis 0 of the table: at output (r, h) and contraction
position k the two factors sit at (r, k) and (k, h). -/

theorem lhsD_0 (j : S1024x256.Idx) (k : dot_S1024x640_S640x256_S1024x256_1_0_0_1_n_n.contr.Idx) :
    (dot_S1024x640_S640x256_S1024x256_1_0_0_1_n_n.lhsIdx j k 0 : ℕ) = j 0 := by
  simp [DotDims.lhsIdx, dot_S1024x640_S640x256_S1024x256_1_0_0_1_n_n]; rfl
theorem lhsD_1 (j : S1024x256.Idx) (k : dot_S1024x640_S640x256_S1024x256_1_0_0_1_n_n.contr.Idx) :
    (dot_S1024x640_S640x256_S1024x256_1_0_0_1_n_n.lhsIdx j k 1 : ℕ) = k ⟨0, by decide⟩ := by
  simp [DotDims.lhsIdx, dot_S1024x640_S640x256_S1024x256_1_0_0_1_n_n]; rfl
theorem rhsD_0 (j : S1024x256.Idx) (k : dot_S1024x640_S640x256_S1024x256_1_0_0_1_n_n.contr.Idx) :
    (dot_S1024x640_S640x256_S1024x256_1_0_0_1_n_n.rhsIdx j k 0 : ℕ) = k ⟨0, by decide⟩ := by
  simp [DotDims.rhsIdx, dot_S1024x640_S640x256_S1024x256_1_0_0_1_n_n]; rfl
theorem rhsD_1 (j : S1024x256.Idx) (k : dot_S1024x640_S640x256_S1024x256_1_0_0_1_n_n.contr.Idx) :
    (dot_S1024x640_S640x256_S1024x256_1_0_0_1_n_n.rhsIdx j k 1 : ℕ) = j 1 := by
  simp [DotDims.rhsIdx, dot_S1024x640_S640x256_S1024x256_1_0_0_1_n_n]; rfl

/-- The contraction position of the product is the lane number. -/
def contrD : dot_S1024x640_S640x256_S1024x256_1_0_0_1_n_n.contr.Idx ≃ Fin 640 :=
  contrEquiv1 dot_S1024x640_S640x256_S1024x256_1_0_0_1_n_n 640 rfl rfl

/-- The count matrix times the table into a zero accumulator, at an entry: the sum over the 640 lanes. -/
theorem countTimesTable_apply (A : FVec Ideal S1024x640 .bf16) (B : FVec Ideal S640x256 .bf16) (r : Fin 1024) (h : Fin 256) :
    matmul dot_S1024x640_S640x256_S1024x256_1_0_0_1_n_n none A B (constant (F := Ideal) S1024x256 .f32 0x00000000#32) (ix2 r h)
      = ∑ j : Fin 640, A (ix2 r j) * B (ix2 j h) := by
  simp only [matmul]
  rw [Ideal.matmul_constant_zero_apply, ← Equiv.sum_comp contrD.symm]
  refine Finset.sum_congr rfl fun j _ => ?_
  have el : dot_S1024x640_S640x256_S1024x256_1_0_0_1_n_n.lhsIdx (ix2 r h) (contrD.symm j) = ix2 r j := by
    funext a
    apply Fin.ext
    match a with
    | ⟨0, _⟩ => exact lhsD_0 _ _
    | ⟨1, _⟩ => exact (lhsD_1 _ _).trans (contrEquiv1_symm_val _ 640 rfl rfl j)
  have er : dot_S1024x640_S640x256_S1024x256_1_0_0_1_n_n.rhsIdx (ix2 r h) (contrD.symm j) = ix2 j h := by
    funext a
    apply Fin.ext
    match a with
    | ⟨0, _⟩ => exact (rhsD_0 _ _).trans (contrEquiv1_symm_val _ 640 rfl rfl j)
    | ⟨1, _⟩ => exact rhsD_1 _ _
  rw [el, er]

/-! ## The accumulation steps at an entry

Each step adds the indicator values of its columns to the partial sum it receives; the first four start from the
zero pattern. -/

theorem pay21_apply (v : Vec Ideal S1024x30 .i32) (r : Fin 1024) (j : Fin 640) :
    k0_pay21 laneNo v (ix2 r j) = 0 + colHot (k0_pay20 v) r j 3 := by
  show Ideal.ofBits .bf16 0x0000#16 + indA (k0_pay20 v) 3 slices_S1024x30_o0_3_S1024x1 (ix2 r j) = _
  rw [Ideal.ofBits_zero_bf16, indA_apply]

theorem pay22_apply (v : Vec Ideal S1024x30 .i32) (r : Fin 1024) (j : Fin 640) :
    k0_pay22 laneNo v (ix2 r j) = (0 + colHot (k0_pay20 v) r j 0) + colHot (k0_pay20 v) r j 4 := by
  show (Ideal.ofBits .bf16 0x0000#16 + indA (k0_pay20 v) 0 slices_S1024x30_o0_0_S1024x1 (ix2 r j))
    + indA (k0_pay20 v) 4 slices_S1024x30_o0_4_S1024x1 (ix2 r j) = _
  rw [Ideal.ofBits_zero_bf16, indA_apply, indA_apply]

theorem pay23_apply (v : Vec Ideal S1024x30 .i32) (r : Fin 1024) (j : Fin 640) :
    k0_pay23 laneNo v (ix2 r j) = (0 + colHot (k0_pay20 v) r j 1) + colHot (k0_pay20 v) r j 5 := by
  show (Ideal.ofBits .bf16 0x0000#16 + indA (k0_pay20 v) 1 slices_S1024x30_o0_1_S1024x1 (ix2 r j))
    + indA (k0_pay20 v) 5 slices_S1024x30_o0_5_S1024x1 (ix2 r j) = _
  rw [Ideal.ofBits_zero_bf16, indA_apply, indA_apply]

theorem pay24_apply (v : Vec Ideal S1024x30 .i32) (r : Fin 1024) (j : Fin 640) :
    k0_pay24 laneNo v (ix2 r j) = (0 + colHot (k0_pay20 v) r j 2) + colHot (k0_pay20 v) r j 6 := by
  show (Ideal.ofBits .bf16 0x0000#16 + indA (k0_pay20 v) 2 slices_S1024x30_o0_2_S1024x1 (ix2 r j))
    + indA (k0_pay20 v) 6 slices_S1024x30_o0_6_S1024x1 (ix2 r j) = _
  rw [Ideal.ofBits_zero_bf16, indA_apply, indA_apply]

theorem pay25_apply (X : IVec S1024x30 32) (a : FVec Ideal S1024x640 .bf16) (r : Fin 1024) (j : Fin 640) :
    k0_pay25 laneNo X a (ix2 r j) = (a (ix2 r j) + colHot X r j 7) + colHot X r j 11 := by
  show (a (ix2 r j) + indA X 7 slices_S1024x30_o0_7_S1024x1 (ix2 r j))
    + indA X 11 slices_S1024x30_o0_11_S1024x1 (ix2 r j) = _
  rw [indA_apply, indA_apply]

theorem pay26_apply (X : IVec S1024x30 32) (a : FVec Ideal S1024x640 .bf16) (r : Fin 1024) (j : Fin 640) :
    k0_pay26 laneNo X a (ix2 r j) = (a (ix2 r j) + colHot X r j 8) + colHot X r j 12 := by
  show (a (ix2 r j) + indA X 8 slices_S1024x30_o0_8_S1024x1 (ix2 r j))
    + indA X 12 slices_S1024x30_o0_12_S1024x1 (ix2 r j) = _
  rw [indA_apply, indA_apply]

theorem pay27_apply (X : IVec S1024x30 32) (a : FVec Ideal S1024x640 .bf16) (r : Fin 1024) (j : Fin 640) :
    k0_pay27 laneNo X a (ix2 r j) = (a (ix2 r j) + colHot X r j 9) + colHot X r j 13 := by
  show (a (ix2 r j) + indA X 9 slices_S1024x30_o0_9_S1024x1 (ix2 r j))
    + indA X 13 slices_S1024x30_o0_13_S1024x1 (ix2 r j) = _
  rw [indA_apply, indA_apply]

theorem pay28_apply (X : IVec S1024x30 32) (a : FVec Ideal S1024x640 .bf16) (r : Fin 1024) (j : Fin 640) :
    k0_pay28 laneNo X a (ix2 r j) = (a (ix2 r j) + colHot X r j 10) + colHot X r j 14 := by
  show (a (ix2 r j) + indA X 10 slices_S1024x30_o0_10_S1024x1 (ix2 r j))
    + indA X 14 slices_S1024x30_o0_14_S1024x1 (ix2 r j) = _
  rw [indA_apply, indA_apply]

theorem pay30_apply (X : IVec S1024x30 32) (a : FVec Ideal S1024x640 .bf16) (r : Fin 1024) (j : Fin 640) :
    k0_pay30 laneNo X a (ix2 r j) = (a (ix2 r j) + colHot X r j 16) + colHot X r j 20 := by
  show (a (ix2 r j) + indA X 16 slices_S1024x30_o0_16_S1024x1 (ix2 r j))
    + indA X 20 slices_S1024x30_o0_20_S1024x1 (ix2 r j) = _
  rw [indA_apply, indA_apply]

theorem pay31_apply (X : IVec S1024x30 32) (a : FVec Ideal S1024x640 .bf16) (r : Fin 1024) (j : Fin 640) :
    k0_pay31 laneNo X a (ix2 r j) = (a (ix2 r j) + colHot X r j 17) + colHot X r j 21 := by
  show (a (ix2 r j) + indA X 17 slices_S1024x30_o0_17_S1024x1 (ix2 r j))
    + indA X 21 slices_S1024x30_o0_21_S1024x1 (ix2 r j) = _
  rw [indA_apply, indA_apply]

theorem pay32_apply (X : IVec S1024x30 32) (a : FVec Ideal S1024x640 .bf16) (r : Fin 1024) (j : Fin 640) :
    k0_pay32 laneNo X a (ix2 r j) = (a (ix2 r j) + colHot X r j 18) + colHot X r j 22 := by
  show (a (ix2 r j) + indA X 18 slices_S1024x30_o0_18_S1024x1 (ix2 r j))
    + indA X 22 slices_S1024x30_o0_22_S1024x1 (ix2 r j) = _
  rw [indA_apply, indA_apply]

/-- Column 15's comparison bit arrives already widened; its conversion and the two further columns are added. -/
theorem pay33_apply (X : IVec S1024x30 32) (a : FVec Ideal S1024x640 .bf16) (r : Fin 1024) (j : Fin 640) :
    k0_pay33 laneNo X a (k0_pay29 laneNo X) (ix2 r j)
      = ((a (ix2 r j) + colHot X r j 15) + colHot X r j 19) + colHot X r j 23 := by
  show ((a (ix2 r j) + indA X 15 slices_S1024x30_o0_15_S1024x1 (ix2 r j))
    + indA X 19 slices_S1024x30_o0_19_S1024x1 (ix2 r j)) + indA X 23 slices_S1024x30_o0_23_S1024x1 (ix2 r j) = _
  rw [indA_apply, indA_apply, indA_apply]

/-! ## The thirty terms in the kernel's order are their sum -/

/-- Four partial sums from zero (columns 0, 4, …, 28; 1, 5, …, 29; 2, 6, …, 26; 3, 7, …, 27), the first two added,
    the last two added, then both: the sum over the thirty columns. -/
theorem thirty_sum (f : ℕ → EReal) :
    (((((((((0 + f 0) + f 4) + f 8) + f 12) + f 16) + f 20) + f 24) + f 28)
        + ((((((((0 + f 1) + f 5) + f 9) + f 13) + f 17) + f 21) + f 25) + f 29))
      + ((((((((0 + f 2) + f 6) + f 10) + f 14) + f 18) + f 22) + f 26)
        + (((((((0 + f 3) + f 7) + f 11) + f 15) + f 19) + f 23) + f 27))
      = ∑ i ∈ Finset.range 30, f i := by
  simp only [Finset.sum_range_succ, Finset.sum_range_zero, zero_add]
  ac_rfl

theorem colHot_sum (X : IVec S1024x30 32) (r : Fin 1024) (j : Fin 640) :
    ∑ i ∈ Finset.range 30, colHot X r j i = ∑ k : Fin 30, Cert.Bag.hot (X (ix2 r k)) j := by
  rw [← Fin.sum_univ_eq_sum_range]
  refine Finset.sum_congr rfl fun k _ => ?_
  unfold colHot
  rw [dif_pos k.isLt]

/-! ## The last step -/

/-- The last step at an entry: the last six columns join the four partial sums, the count matrix multiplies the
    table, and relu of the given sums sits beside relu of the product (columns below 256 read the first piece, the
    others the second piece 256 columns back). -/
theorem pay35_apply (s0 : FVec Ideal S1024x256 .f32) (T : FVec Ideal S640x256 .bf16) (X : IVec S1024x30 32)
    (b0 b1 b2 b3 : FVec Ideal S1024x640 .bf16) (r : Fin 1024) (k : Fin 512) :
    k0_pay35 laneNo s0 T X b0 b1 b2 b3 (k0_pay34 X) (ix2 r k)
      = Cert.Bag.hcat (fun h => s0 (ix2 r h))
          (fun h => ∑ j : Fin 640,
            ((((b0 (ix2 r j) + colHot X r j 24) + colHot X r j 28) + ((b1 (ix2 r j) + colHot X r j 25) + colHot X r j 29))
              + ((b2 (ix2 r j) + colHot X r j 26) + (b3 (ix2 r j) + colHot X r j 27))) * T (ix2 j h)) k := by
  let A : FVec Ideal S1024x640 .bf16 :=
    addf (addf (addf (addf b0 (indA X 24 slices_S1024x30_o0_24_S1024x1)) (indA X 28 slices_S1024x30_o0_28_S1024x1))
        (addf (addf b1 (indA X 25 slices_S1024x30_o0_25_S1024x1)) (indA X 29 slices_S1024x30_o0_29_S1024x1)))
      (addf (addf b2 (indA X 26 slices_S1024x30_o0_26_S1024x1)) (addf b3 (indA X 27 slices_S1024x30_o0_27_S1024x1)))
  have hA : ∀ j : Fin 640, A (ix2 r j)
      = (((b0 (ix2 r j) + colHot X r j 24) + colHot X r j 28) + ((b1 (ix2 r j) + colHot X r j 25) + colHot X r j 29))
          + ((b2 (ix2 r j) + colHot X r j 26) + (b3 (ix2 r j) + colHot X r j 27)) := fun j => by
    show (((b0 (ix2 r j) + indA X 24 slices_S1024x30_o0_24_S1024x1 (ix2 r j)) + indA X 28 slices_S1024x30_o0_28_S1024x1 (ix2 r j))
        + ((b1 (ix2 r j) + indA X 25 slices_S1024x30_o0_25_S1024x1 (ix2 r j)) + indA X 29 slices_S1024x30_o0_29_S1024x1 (ix2 r j)))
      + ((b2 (ix2 r j) + indA X 26 slices_S1024x30_o0_26_S1024x1 (ix2 r j)) + (b3 (ix2 r j) + indA X 27 slices_S1024x30_o0_27_S1024x1 (ix2 r j))) = _
    rw [indA_apply, indA_apply, indA_apply, indA_apply, indA_apply, indA_apply]
  let P1 : FVec Ideal S1024x256 .f32 := maximumf s0 (broadcast S1024x256 (Scalar.ofBits .f32 0x00000000#32))
  let P2 : FVec Ideal S1024x256 .f32 :=
    maximumf (matmul dot_S1024x640_S640x256_S1024x256_1_0_0_1_n_n none A T (constant S1024x256 .f32 0x00000000#32))
      (broadcast S1024x256 (Scalar.ofBits .f32 0x00000000#32))
  have e : k0_pay35 laneNo s0 T X b0 b1 b2 b3 (k0_pay34 X) (ix2 r k)
      = concatenate S1024x512 1 [⟨S1024x256, P1⟩, ⟨S1024x256, P2⟩] concatenates_S1024x256_S1024x256_S1024x512_d1 (ix2 r k) := rfl
  refine e.trans ?_
  unfold Cert.Bag.hcat
  by_cases hk : k.val < 256
  · rw [dif_pos hk]
    refine (concatenate_pair_apply_left (t := S1024x512) (s₁ := S1024x256) (s₂ := S1024x256) (1 : Fin 2) P1 P2
      concatenates_S1024x256_S1024x256_S1024x512_d1 (ix2 r k) rfl (ix2 r ⟨k.val, hk⟩) ?_).trans ?_
    · intro b
      match b with
      | ⟨0, _⟩ => rfl
      | ⟨1, _⟩ => rfl
    · show max (s0 (ix2 r ⟨k.val, hk⟩)) (Ideal.ofBits .f32 0x00000000#32) = _
      rw [Ideal.ofBits_zero_f32]
      rfl
  · rw [dif_neg hk]
    have hk' : k.val - 256 < 256 := by have := k.isLt; omega
    refine (concatenate_pair_apply_right (t := S1024x512) (s₁ := S1024x256) (s₂ := S1024x256) (1 : Fin 2) P1 P2
      concatenates_S1024x256_S1024x256_S1024x512_d1 (ix2 r k) rfl rfl (ix2 r ⟨k.val - 256, hk'⟩) ?_ ?_).trans ?_
    · intro b hb
      match b with
      | ⟨0, _⟩ => rfl
      | ⟨1, _⟩ => exact absurd rfl hb
    · show (k.val - 256) + 256 = k.val
      omega
    · show max (matmul dot_S1024x640_S640x256_S1024x256_1_0_0_1_n_n none A T
          (constant (F := Ideal) S1024x256 .f32 0x00000000#32) (ix2 r ⟨k.val - 256, hk'⟩)) (Ideal.ofBits .f32 0x00000000#32) = _
      rw [Ideal.ofBits_zero_f32, countTimesTable_apply]
      simp only [hA]
      rfl

end Hid1

open Hid1 in
theorem hiddenOf_apply (s0 : FVec Ideal S1024x256 .f32) (x1 : Vec Ideal S1024x30 .i32) (x2 : Vec Ideal S2x640x256 .bf16) (r : Fin 1024) (k : Fin 512) :
    hiddenOf s0 x1 x2 (ix2 r k)
      = Cert.Bag.hcat (fun h => s0 (ix2 r h))
          (fun h => Cert.Bag.bagCount (fun k' => x1 (ix2 r k')) (fun j => x2 (ix3 (1 : Fin 2) j h))) k := by
  refine (pay35_apply _ _ _ _ _ _ _ r k).trans ?_
  refine congrArg (fun f => Cert.Bag.hcat (fun h => s0 (ix2 r h)) f k) (funext fun h => ?_)
  unfold Cert.Bag.bagCount
  refine Finset.sum_congr rfl fun j _ => ?_
  rw [table1_apply, pay30_apply, pay26_apply, pay22_apply, pay31_apply, pay27_apply, pay23_apply,
    pay32_apply, pay28_apply, pay24_apply, pay33_apply, pay25_apply, pay21_apply, idxBlock_eq]
  exact congrArg (· * x2 (ix3 (1 : Fin 2) j h)) ((thirty_sum (colHot x1 r j)).trans (colHot_sum x1 r j))

end Cert.KernelIdeal.Body

end
-- ==== Proof.KHidden.lean ====
/-
  The hidden layer of the kernel body read at an entry: row r, column k of the 1024 × 512 array is relu of the
  count-matrix bag sum of feature set 0 (k < 256) or of feature set 1 (k ≥ 256) for that row.
-/
import proofs.«402669_j2774548873840_3_alg».proof.Proof.KTerm
import proofs.«402669_j2774548873840_3_alg».proof.Proof.Spec
import proofs.«402669_j2774548873840_3_alg».proof.Proof.KSum0
import proofs.«402669_j2774548873840_3_alg».proof.Proof.KHid1

noncomputable section

namespace Cert.KernelIdeal.Body

open Idealize.ShloMosaic Idealize.ShloMosaic.ValueIdx Idealize.SL.Sem Cert.KernelIdeal Cert.KernelIdeal.Gen

theorem hiddenTerm_apply (x0 x1 : Vec Ideal S1024x30 .i32) (x2 : Vec Ideal S2x640x256 .bf16) (r : Fin 1024) (k : Fin 512) :
    hiddenTerm x0 x1 x2 (ix2 r k)
      = Cert.Bag.hcat (fun h => Cert.Bag.bagCount (fun k' => x0 (ix2 r k')) (fun j => x2 (ix3 (0 : Fin 2) j h)))
          (fun h => Cert.Bag.bagCount (fun k' => x1 (ix2 r k')) (fun j => x2 (ix3 (1 : Fin 2) j h))) k := by
  show hiddenOf (sum0Term x0 x2) x1 x2 (ix2 r k) = _
  rw [hiddenOf_apply]
  congr 1
  funext h
  exact sum0Term_apply x0 x2 r h

end Cert.KernelIdeal.Body

end
-- ==== Proof.KTail.lean ====
/-
  The perceptron tail of the kernel body read at an entry, and with it the whole output block: entry (r, l) of the
  1024 × 128 block is the perceptron of row r's two bag sums, the same in every lane l.

  Each of the three matrix products accumulates into a zero block, so at an entry it is the plain sum over the shared
  axis of the operands' products (the contraction index re-indexed by its one coordinate); the bias row is read at the
  entry's column, the maximum with the zero pattern is relu, a change of float format is the identity, and the final
  broadcast copies column 0 of the 1024 × 1 result into every lane.
-/
import proofs.«402669_j2774548873840_3_alg».proof.Proof.KTerm
import proofs.«402669_j2774548873840_3_alg».proof.Proof.KHidden
import proofs.«402669_j2774548873840_3_alg».proof.Proof.Spec
import Idealize.ShloMosaic.PureOps.Ideal.Laws
import Idealize.ShloMosaic.Lib.ValueIdx
import Idealize.ShloMosaic.Lib.ValueLayout
import Idealize.ShloMosaic.Lib.Pipeline.Value

noncomputable section

namespace Cert.KernelIdeal.Body

open Idealize.ShloMosaic Idealize.ShloMosaic.ValueIdx Idealize.SL.Sem Cert.KernelIdeal Cert.KernelIdeal.Gen

namespace Tail

/-! ## A rows-by-columns product read at an entry -/

/-- With no batch axes and one free axis on the left, the left operand's index on that axis is the result index's
    first coordinate. -/
theorem lhsIdx_val_free {sl sr so : Shape} (d : DotDims sl sr so) {a : Fin sl.rank} (hb : d.lhsBatch = [])
    (hn : d.lhsNonContracting = [a]) (j : so.Idx) (k : d.contr.Idx) (h0 : 0 < so.rank) :
    (d.lhsIdx j k a).val = (j ⟨0, h0⟩).val := by
  have hmem : a ∈ d.lhsNonContracting := by rw [hn]; exact List.mem_singleton.mpr rfl
  have hnb : a ∉ d.lhsBatch := by rw [hb]; exact List.not_mem_nil
  unfold DotDims.lhsIdx
  rw [dif_neg hnb, dif_pos hmem]
  simp only [Fin.val_cast]
  have key : ∀ (p q : Nat) (hp : p < so.rank) (hq : q < so.rank), p = q → (j ⟨p, hp⟩).val = (j ⟨q, hq⟩).val :=
    fun p q hp hq h => by subst h; rfl
  exact key _ _ _ _ (by simp [hb, hn])

/-- With no batch axes and one free axis on each side, the right operand's index on its free axis is the result
    index's second coordinate. -/
theorem rhsIdx_val_free {sl sr so : Shape} (d : DotDims sl sr so) {a : Fin sl.rank} {b : Fin sr.rank} (hlb : d.lhsBatch = [])
    (hrb : d.rhsBatch = []) (hln : d.lhsNonContracting = [a]) (hrn : d.rhsNonContracting = [b]) (j : so.Idx)
    (k : d.contr.Idx) (h1 : 1 < so.rank) : (d.rhsIdx j k b).val = (j ⟨1, h1⟩).val := by
  have hmem : b ∈ d.rhsNonContracting := by rw [hrn]; exact List.mem_singleton.mpr rfl
  have hnb : b ∉ d.rhsBatch := by rw [hrb]; exact List.not_mem_nil
  unfold DotDims.rhsIdx
  rw [dif_neg hnb, dif_pos hmem]
  simp only [Fin.val_cast]
  have key : ∀ (p q : Nat) (hp : p < so.rank) (hq : q < so.rank), p = q → (j ⟨p, hp⟩).val = (j ⟨q, hq⟩).val :=
    fun p q hp hq h => by subst h; rfl
  exact key _ _ _ _ (by simp [hlb, hln, hrn])

/-- An M × K by K × N product into a zero accumulator, read at entry (r, n): the sum over the shared axis. -/
theorem matmul_zero_ix2 {M K N : ℕ} {φ₁ φ₂ : FTy} (d : DotDims ⟨2, ![M, K]⟩ ⟨2, ![K, N]⟩ ⟨2, ![M, N]⟩)
    (hlc : d.lhsContracting = [1]) (hrc : d.rhsContracting = [0]) (hln : d.lhsNonContracting = [0])
    (hrn : d.rhsNonContracting = [1]) (hlb : d.lhsBatch = []) (hrb : d.rhsBatch = [])
    (hr : d.contr.rank = 1) (hs : d.contr.size ⟨0, by omega⟩ = K)
    (lhs : FVec Ideal ⟨2, ![M, K]⟩ φ₁) (rhs : FVec Ideal ⟨2, ![K, N]⟩ φ₂) (r : Fin M) (n : Fin N) :
    FloatOps.matmul d none lhs rhs (constant (F := Ideal) ⟨2, ![M, N]⟩ .f32 0x00000000#32) (ix2 r n)
      = ∑ k : Fin K, lhs (ix2 r k) * rhs (ix2 k n) := by
  rw [Ideal.matmul_constant_zero_apply, ← Equiv.sum_comp (contrEquiv1 d K hr hs).symm]
  refine Finset.sum_congr rfl fun k _ => ?_
  have hk := contrEquiv1_symm_val d K hr hs k
  have el : d.lhsIdx (ix2 r n) ((contrEquiv1 d K hr hs).symm k) = ix2 r k := funext fun a => Fin.ext (by
    match a with
    | ⟨0, _⟩ => exact lhsIdx_val_free d hlb hln _ _ Nat.zero_lt_two
    | ⟨1, _⟩ => exact (d.lhsIdx_val_of_single hlc _ _).trans hk)
  have er : d.rhsIdx (ix2 r n) ((contrEquiv1 d K hr hs).symm k) = ix2 k n := funext fun a => Fin.ext (by
    match a with
    | ⟨0, _⟩ => exact (d.rhsIdx_val_of_single hrc _ _).trans hk
    | ⟨1, _⟩ => exact rhsIdx_val_free d hlb hrb hln hrn _ _ Nat.one_lt_two)
  rw [el, er]

/-! ## One layer read at an entry -/

/-- An affine layer: the product into a zero accumulator plus the bias row broadcast down the rows. -/
theorem affine_apply {M K N : ℕ} {φ₁ φ₂ : FTy} (d : DotDims ⟨2, ![M, K]⟩ ⟨2, ![K, N]⟩ ⟨2, ![M, N]⟩)
    (hlc : d.lhsContracting = [1]) (hrc : d.rhsContracting = [0]) (hln : d.lhsNonContracting = [0])
    (hrn : d.rhsNonContracting = [1]) (hlb : d.lhsBatch = []) (hrb : d.rhsBatch = [])
    (hr : d.contr.rank = 1) (hs : d.contr.size ⟨0, by omega⟩ = K)
    (x : FVec Ideal ⟨2, ![M, K]⟩ φ₁) (w : FVec Ideal ⟨2, ![K, N]⟩ φ₂) (b : FVec Ideal ⟨2, ![1, N]⟩ .f32)
    (hb : (⟨2, ![1, N]⟩ : Shape).Broadcasts ⟨2, ![M, N]⟩) (r : Fin M) (n : Fin N) :
    addf (matmul d none x w (constant (F := Ideal) ⟨2, ![M, N]⟩ .f32 0x00000000#32)) (broadcastTo ⟨2, ![M, N]⟩ b hb) (ix2 r n)
      = (∑ k : Fin K, x (ix2 r k) * w (ix2 k n)) + b (ix2 (0 : Fin 1) n) := by
  rw [addf_apply, broadcastTo_1b_ab_apply]
  exact congrArg (· + b (ix2 (0 : Fin 1) n)) (matmul_zero_ix2 d hlc hrc hln hrn hlb hrb hr hs x w r n)

/-- The maximum with the zero pattern, then a narrowing of the float format: relu. -/
theorem relu_apply {s : Shape} (y : FVec Ideal s .f32) (h : FTy.bits .bf16 < FTy.bits .f32) (i : s.Idx) :
    (truncf .bf16 (maximumf y (broadcast s (Scalar.ofBits (F := Ideal) .f32 0x00000000#32))) h : FVec Ideal s .bf16) i
      = Cert.Bag.relu (y i) := by
  show max (y i) (Ideal.ofBits .f32 0x00000000#32) = max (y i) 0
  rw [Ideal.ofBits_zero_f32]

/-- An affine layer followed by relu. -/
theorem layer_apply {M K N : ℕ} {φ₁ φ₂ : FTy} (d : DotDims ⟨2, ![M, K]⟩ ⟨2, ![K, N]⟩ ⟨2, ![M, N]⟩)
    (hlc : d.lhsContracting = [1]) (hrc : d.rhsContracting = [0]) (hln : d.lhsNonContracting = [0])
    (hrn : d.rhsNonContracting = [1]) (hlb : d.lhsBatch = []) (hrb : d.rhsBatch = [])
    (hr : d.contr.rank = 1) (hs : d.contr.size ⟨0, by omega⟩ = K)
    (x : FVec Ideal ⟨2, ![M, K]⟩ φ₁) (w : FVec Ideal ⟨2, ![K, N]⟩ φ₂) (b : FVec Ideal ⟨2, ![1, N]⟩ .f32)
    (hb : (⟨2, ![1, N]⟩ : Shape).Broadcasts ⟨2, ![M, N]⟩) (h : FTy.bits .bf16 < FTy.bits .f32) (r : Fin M) (n : Fin N) :
    (truncf .bf16 (maximumf (addf (matmul d none x w (constant (F := Ideal) ⟨2, ![M, N]⟩ .f32 0x00000000#32))
        (broadcastTo ⟨2, ![M, N]⟩ b hb)) (broadcast ⟨2, ![M, N]⟩ (Scalar.ofBits (F := Ideal) .f32 0x00000000#32))) h
        : FVec Ideal ⟨2, ![M, N]⟩ .bf16) (ix2 r n)
      = Cert.Bag.relu ((∑ k : Fin K, x (ix2 r k) * w (ix2 k n)) + b (ix2 (0 : Fin 1) n)) :=
  (relu_apply _ h (ix2 r n)).trans (congrArg Cert.Bag.relu (affine_apply d hlc hrc hln hrn hlb hrb hr hs x w b hb r n))

/-- A column broadcast over the lanes reads, at (p, c), the column's entry of row p. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The whole-block rectangles' offsets are zero. -/
theorem offsets_zero : (![0, 0] : Fin 2 → Nat) = fun _ => 0 := funext fun a => by fin_cases a <;> rfl

end Tail

open Tail

/-! ## The tail -/

theorem pay1_apply (v450 : FVec Ideal S1024x512 .bf16) (v452 : FVec Ideal S512x32 .bf16) (v453 : Vec Ideal S1x32 .f32)
    (v461 : Vec Ideal S32x32 .bf16) (v463 : Vec Ideal S1x32 .f32) (v471 : Vec Ideal S32x1 .bf16) (v473 : Vec Ideal S1x1 .f32)
    (r : Fin 1024) (l : Fin 128) :
    k0_pay1 v450 v452 v453 v461 v463 v471 v473 (ix2 r l)
      = Cert.Bag.mlpT (fun k => v450 (ix2 r k)) (fun k n => v452 (ix2 k n)) (fun n => v453 (ix2 (0 : Fin 1) n))
          (fun k n => v461 (ix2 k n)) (fun n => v463 (ix2 (0 : Fin 1) n)) (fun k => v471 (ix2 k (0 : Fin 1)))
          (v473 (ix2 (0 : Fin 1) (0 : Fin 1))) := by
  unfold k0_pay1
  simp only [shapeCast_self]
  refine (broadcastTo_a1_ab_apply _ _ r l).trans ?_
  refine (affine_apply (φ₁ := .bf16) (φ₂ := .bf16) dot_S1024x32_S32x1_S1024x1_1_0_0_1_n_n rfl rfl rfl rfl rfl rfl rfl rfl _ _ _ _ r (0 : Fin 1)).trans ?_
  unfold Cert.Bag.mlpT
  refine congrArg₂ (· + ·) (Finset.sum_congr rfl fun k _ => congrArg₂ (· * ·) ?_ rfl) rfl
  refine (layer_apply (φ₁ := .bf16) (φ₂ := .bf16) dot_S1024x32_S32x32_S1024x32_1_0_0_1_n_n rfl rfl rfl rfl rfl rfl rfl rfl _ _ _ _ _ r k).trans ?_
  refine congrArg Cert.Bag.relu (congrArg₂ (· + ·) (Finset.sum_congr rfl fun k' _ => congrArg₂ (· * ·) ?_ rfl) rfl)
  exact layer_apply (φ₁ := .bf16) (φ₂ := .bf16) dot_S1024x512_S512x32_S1024x32_1_0_0_1_n_n rfl rfl rfl rfl rfl rfl rfl rfl _ _ _ _ _ r k'

/-! ## The output block -/

theorem out0_9_apply (x0 x1 : Vec Ideal S1024x30 .i32) (x2 : Vec Ideal S2x640x256 .bf16) (x3 : Vec Ideal S512x32 .bf16)
    (x4 : Vec Ideal S1x32 .f32) (x5 : Vec Ideal S32x32 .bf16) (x6 : Vec Ideal S1x32 .f32) (x7 : Vec Ideal S32x1 .bf16)
    (x8 : Vec Ideal S1x1 .f32) (r : Fin 1024) (l : Fin 128) :
    out0_9 x0 x1 x2 x3 x4 x5 x6 x7 x8 (ix2 r l)
      = Cert.Bag.mlp (fun h => Cert.Bag.bagCount (fun k' => x0 (ix2 r k')) (fun j => x2 (ix3 (0 : Fin 2) j h)))
          (fun h => Cert.Bag.bagCount (fun k' => x1 (ix2 r k')) (fun j => x2 (ix3 (1 : Fin 2) j h)))
          (fun k n => x3 (ix2 k n)) (fun n => x4 (ix2 (0 : Fin 1) n)) (fun k n => x5 (ix2 k n))
          (fun n => x6 (ix2 (0 : Fin 1) n)) (fun k => x7 (ix2 k (0 : Fin 1))) (x8 (ix2 (0 : Fin 1) (0 : Fin 1))) := by
  have e3 : k0_pay36 (View.ld x3 r0_3) = x3 := by
    unfold k0_pay36
    rw [shapeCast_self]
    exact View.ld_unit_zero (S := S512x32) offsets_zero _ x3
  have e4 : View.ld x4 r0_4 = x4 := View.ld_unit_zero (S := S1x32) offsets_zero _ x4
  have e5 : View.ld x5 r0_5 = x5 := View.ld_unit_zero (S := S32x32) offsets_zero _ x5
  have e6 : View.ld x6 r0_4 = x6 := View.ld_unit_zero (S := S1x32) offsets_zero _ x6
  have e7 : View.ld x7 r0_6 = x7 := View.ld_unit_zero (S := S32x1) offsets_zero _ x7
  have e8 : View.ld x8 r0_7 = x8 := View.ld_unit_zero (S := S1x1) offsets_zero _ x8
  have eh : (fun k : Fin 512 => hiddenTerm x0 x1 x2 (ix2 r k))
      = Cert.Bag.hcat (fun h => Cert.Bag.bagCount (fun k' => x0 (ix2 r k')) (fun j => x2 (ix3 (0 : Fin 2) j h)))
          (fun h => Cert.Bag.bagCount (fun k' => x1 (ix2 r k')) (fun j => x2 (ix3 (1 : Fin 2) j h))) :=
    funext fun k => hiddenTerm_apply x0 x1 x2 r k
  rw [out0_9_eq]
  refine (congrFun (View.canon_unit_zero (S := S1024x128) offsets_zero _ _) (ix2 r l)).trans ?_
  rw [e3, e4, e5, e6, e7, e8]
  refine (pay1_apply _ _ _ _ _ _ _ r l).trans ?_
  rw [eh]
  rfl

end Cert.KernelIdeal.Body

end
-- ==== Proof.KHost.lean ====
/-
  What the host operations before the kernel's region leave in the arrays its windows stage, at the ideal
  instance: the two index arrays clamped into 0 … 639, the table unchanged (a change of float format is the
  identity), the three weight matrices transposed, the three biases with a unit axis added.

  Each array is first written as the composition of the operations that produce it, applied to the launch
  contents; that composition is then read at an index.  The clamp is min(639, max(0, ·)) pointwise, the two
  bounds being scalars broadcast over the whole array; a transpose with permutation [1, 0] reads (k, n) at
  (n, k); a reshape [a] → [1, a] keeps the row-major position, so (0, n) reads n.
-/
import proofs.«402669_j2774548873840_3_alg».proof.Proof.Gen.KernelIdeal.Frame
import proofs.«402669_j2774548873840_3_alg».proof.Proof.Spec
import Idealize.ShloMosaic.Lib.StableHlo.Run
import Idealize.ShloMosaic.Lib.Pipeline.Value
import Idealize.ShloMosaic.Lib.ValueLayout

noncomputable section

namespace Cert.KernelIdeal.HostVal

open Idealize.ShloMosaic Idealize.ShloMosaic.ValueIdx Idealize.SL.Sem Cert.KernelIdeal Cert.KernelIdeal.Gen
open Idealize.ShloMosaic.StableHlo

variable (m : (ℓ : Loc nD τ sig) → Buf (Elt Ideal) ℓ)

theorem V_idx0 (c : Dev nD) (i : S8192x30.Idx) : V m c main_v0 i = Cert.Bag.clampW ((m ((c.tc : Thread nD τ).loc main_arg0)) i) := by
  have e : (V m c main_v0 : S8192x30.Idx → BitVec 32) =
      minsi (broadcastInDim S8192x30 ![] bcast_S_S8192x30 (constantI S_ 32 639#32))
        (maxsi (broadcastInDim S8192x30 ![] bcast_S_S8192x30 (constantI S_ 32 0#32)) (m ((c.tc : Thread nD τ).loc main_arg0))) := by
    dsimp only [Gen.V, Gen.V0]
    simp only [Gen.hostOps0, Gen.hostOps0_1, Gen.hostOps0_2, Gen.hostOps0_3, Gen.hostOps0_4, List.flatten_cons, List.flatten_nil, List.append_nil, List.cons_append, List.nil_append]
    after_results
    rfl
  rw [e]
  rfl

theorem V_idx1 (c : Dev nD) (i : S8192x30.Idx) : V m c main_v1 i = Cert.Bag.clampW ((m ((c.tc : Thread nD τ).loc main_arg1)) i) := by
  have e : (V m c main_v1 : S8192x30.Idx → BitVec 32) =
      minsi (broadcastInDim S8192x30 ![] bcast_S_S8192x30 (constantI S_ 32 639#32))
        (maxsi (broadcastInDim S8192x30 ![] bcast_S_S8192x30 (constantI S_ 32 0#32)) (m ((c.tc : Thread nD τ).loc main_arg1))) := by
    dsimp only [Gen.V, Gen.V0]
    simp only [Gen.hostOps0, Gen.hostOps0_1, Gen.hostOps0_2, Gen.hostOps0_3, Gen.hostOps0_4, List.flatten_cons, List.flatten_nil, List.append_nil, List.cons_append, List.nil_append]
    after_results
    rfl
  rw [e]
  rfl

theorem V_tab (c : Dev nD) (i : S2x640x256.Idx) : V m c main_v2 i = (m ((c.tc : Thread nD τ).loc main_arg2)) i := by
  have e : (V m c main_v2 : S2x640x256.Idx → EReal) =
      truncf (F := Ideal) .bf16 (m ((c.tc : Thread nD τ).loc main_arg2) : Vec Ideal S2x640x256 .f32) bitsLt_bf16_f32 := by
    dsimp only [Gen.V, Gen.V0]
    simp only [Gen.hostOps0, Gen.hostOps0_1, Gen.hostOps0_2, Gen.hostOps0_3, Gen.hostOps0_4, List.flatten_cons, List.flatten_nil, List.append_nil, List.cons_append, List.nil_append]
    after_results
  rw [e]
  rfl

theorem V_w2 (c : Dev nD) (k : Fin 512) (n : Fin 32) : V m c main_v4 (ix2 k n) = (m ((c.tc : Thread nD τ).loc main_arg3)) (ix2 n k) := by
  have e : (V m c main_v4 : S512x32.Idx → EReal) =
      truncf (F := Ideal) .bf16 (transpose S512x32 [1, 0] (m ((c.tc : Thread nD τ).loc main_arg3) : Vec Ideal S32x512 .f32) transposes_S32x512_S512x32_1_0) bitsLt_bf16_f32 := by
    dsimp only [Gen.V, Gen.V0]
    simp only [Gen.hostOps0, Gen.hostOps0_1, Gen.hostOps0_2, Gen.hostOps0_3, Gen.hostOps0_4, List.flatten_cons, List.flatten_nil, List.append_nil, List.cons_append, List.nil_append]
    after_results
  rw [e]
  exact transpose_ix2_apply _ _ k n

theorem V_b2 (c : Dev nD) (n : Fin 32) : V m c main_v9 (ix2 (0 : Fin 1) n) = (m ((c.tc : Thread nD τ).loc main_arg4)) (ix1 n) := by
  have e : (V m c main_v9 : S1x32.Idx → EReal) =
      shapeCast S1x32 (m ((c.tc : Thread nD τ).loc main_arg4) : S32.Idx → EReal) shapeCasts_S32_S1x32 := by
    dsimp only [Gen.V, Gen.V0]
    simp only [Gen.hostOps0, Gen.hostOps0_1, Gen.hostOps0_2, Gen.hostOps0_3, Gen.hostOps0_4, List.flatten_cons, List.flatten_nil, List.append_nil, List.cons_append, List.nil_append]
    after_results
    rfl
  rw [e]
  exact shapeCast_a_1a_apply _ _ (0 : Fin 1) n

theorem V_w3 (c : Dev nD) (k : Fin 32) (n : Fin 32) : V m c main_v6 (ix2 k n) = (m ((c.tc : Thread nD τ).loc main_arg5)) (ix2 n k) := by
  have e : (V m c main_v6 : S32x32.Idx → EReal) =
      truncf (F := Ideal) .bf16 (transpose S32x32 [1, 0] (m ((c.tc : Thread nD τ).loc main_arg5) : Vec Ideal S32x32 .f32) transposes_S32x32_S32x32_1_0) bitsLt_bf16_f32 := by
    dsimp only [Gen.V, Gen.V0]
    simp only [Gen.hostOps0, Gen.hostOps0_1, Gen.hostOps0_2, Gen.hostOps0_3, Gen.hostOps0_4, List.flatten_cons, List.flatten_nil, List.append_nil, List.cons_append, List.nil_append]
    after_results
  rw [e]
  exact transpose_ix2_apply _ _ k n

theorem V_b3 (c : Dev nD) (n : Fin 32) : V m c main_v10 (ix2 (0 : Fin 1) n) = (m ((c.tc : Thread nD τ).loc main_arg6)) (ix1 n) := by
  have e : (V m c main_v10 : S1x32.Idx → EReal) =
      shapeCast S1x32 (m ((c.tc : Thread nD τ).loc main_arg6) : S32.Idx → EReal) shapeCasts_S32_S1x32 := by
    dsimp only [Gen.V, Gen.V0]
    simp only [Gen.hostOps0, Gen.hostOps0_1, Gen.hostOps0_2, Gen.hostOps0_3, Gen.hostOps0_4, List.flatten_cons, List.flatten_nil, List.append_nil, List.cons_append, List.nil_append]
    after_results
    rfl
  rw [e]
  exact shapeCast_a_1a_apply _ _ (0 : Fin 1) n

theorem V_w4 (c : Dev nD) (k : Fin 32) : V m c main_v8 (ix2 k (0 : Fin 1)) = (m ((c.tc : Thread nD τ).loc main_arg7)) (ix2 (0 : Fin 1) k) := by
  have e : (V m c main_v8 : S32x1.Idx → EReal) =
      truncf (F := Ideal) .bf16 (transpose S32x1 [1, 0] (m ((c.tc : Thread nD τ).loc main_arg7) : Vec Ideal S1x32 .f32) transposes_S1x32_S32x1_1_0) bitsLt_bf16_f32 := by
    dsimp only [Gen.V, Gen.V0]
    simp only [Gen.hostOps0, Gen.hostOps0_1, Gen.hostOps0_2, Gen.hostOps0_3, Gen.hostOps0_4, List.flatten_cons, List.flatten_nil, List.append_nil, List.cons_append, List.nil_append]
    after_results
  rw [e]
  exact transpose_ix2_apply _ _ k (0 : Fin 1)

theorem V_b4 (c : Dev nD) : V m c main_v11 (ix2 (0 : Fin 1) (0 : Fin 1)) = (m ((c.tc : Thread nD τ).loc main_arg8)) (ix1 (0 : Fin 1)) := by
  have e : (V m c main_v11 : S1x1.Idx → EReal) =
      shapeCast S1x1 (m ((c.tc : Thread nD τ).loc main_arg8) : S1.Idx → EReal) shapeCasts_S1_S1x1 := by
    dsimp only [Gen.V, Gen.V0]
    simp only [Gen.hostOps0, Gen.hostOps0_1, Gen.hostOps0_2, Gen.hostOps0_3, Gen.hostOps0_4, List.flatten_cons, List.flatten_nil, List.append_nil, List.cons_append, List.nil_append]
    after_results
    rfl
  rw [e]
  exact shapeCast_a_1a_apply _ _ (0 : Fin 1) (0 : Fin 1)

end Cert.KernelIdeal.HostVal

end
-- ==== Proof.KFinal.lean ====
/-
  The idealized kernel's run with its result named.  Each grid point t leaves in the output window the perceptron of
  the rows of its blocks, the same in all 128 lanes; the block reads put row r of point t at row 1024 t + r of the
  staged arrays, so what point t writes back is block t of ONE function of the whole arrays, row q ↦ the perceptron
  of row q's two bag sums.  The eight row blocks cover the 8192 × 128 array (row q lies in block q / 1024), so the
  array ends as that function; the host's slice of lane 0 and reshape then leave one number per batch row, and the
  host operations before the region (clamp, transposes, unit axes) turn the staged arrays into the arguments.
-/
import proofs.«402669_j2774548873840_3_alg».proof.Proof.Gen.KernelIdeal.Frame
import proofs.«402669_j2774548873840_3_alg».proof.Proof.Spec
import proofs.«402669_j2774548873840_3_alg».proof.Proof.KTail
import proofs.«402669_j2774548873840_3_alg».proof.Proof.KHost
import Idealize.ShloMosaic.Lib.Pipeline.Value

noncomputable section

namespace Cert.KernelIdeal.Final

open Idealize.ShloMosaic Idealize.ShloMosaic.ValueIdx Idealize.SL.Sem Cert.KernelIdeal Cert.KernelIdeal.Gen

section Blocks

variable (m : (ℓ : Loc nD τ sig) → Buf (Elt Ideal) ℓ)

/-- The printed index maps over the eight grid points: the two index windows and the output window sit at row block t,
    column block 0. -/
theorem grid_rows : ∀ t : Fin cfg0.N,
    win0_0.index t (0 : Fin 2) = t.val ∧ win0_0.index t (1 : Fin 2) = 0
    ∧ win0_1.index t (0 : Fin 2) = t.val ∧ win0_1.index t (1 : Fin 2) = 0
    ∧ win0_9.index t (0 : Fin 2) = t.val ∧ win0_9.index t (1 : Fin 2) = 0
    ∧ t.val < 8 :=
  (by decide +kernel : ∀ t : Fin grid0.N, _)

/-- The seven whole-array windows sit at block 0 on every axis. -/
theorem grid_whole : ∀ t : Fin cfg0.N,
    (win0_2.index t (0 : Fin 3) = 0 ∧ win0_2.index t (1 : Fin 3) = 0 ∧ win0_2.index t (2 : Fin 3) = 0)
    ∧ (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0)
    ∧ (win0_6.index t (0 : Fin 2) = 0 ∧ win0_6.index t (1 : Fin 2) = 0)
    ∧ (win0_7.index t (0 : Fin 2) = 0 ∧ win0_7.index t (1 : Fin 2) = 0)
    ∧ (win0_8.index t (0 : Fin 2) = 0 ∧ win0_8.index t (1 : Fin 2) = 0) :=
  (by decide +kernel : ∀ t : Fin grid0.N, _)

/-- Row r of the first index window's block at point t is row 1024 t + r of its array. -/
theorem idx0_block (c : Dev nD) (t : Fin cfg0.N) (y : S1024x30.Idx) (i : S8192x30.Idx)
    (h0 : (i 0).val = t.val * 1024 + (y 0).val) (h1 : (i 1).val = (y 1).val) :
    (iblk m c 0 t : Vec Ideal S1024x30 .i32) y = (V m c main_v0 : Vec Ideal S8192x30 .i32) i := by
  obtain ⟨e0, e1, -⟩ := grid_rows t
  unfold iblk
  rw [View.read_apply]
  show V m c main_v0 (((cfg0.win 0).blk t).view.emb y) = V m c main_v0 i
  refine congrArg _ (funext fun a => Fin.ext ?_)
  match a with
  | ⟨0, _⟩ => show win0_0.index t (0 : Fin 2) * 1024 + 1 * (y 0).val = (i 0).val; omega
  | ⟨1, _⟩ => show win0_0.index t (1 : Fin 2) * 30 + 1 * (y 1).val = (i 1).val; omega

/-- The same for the second index window. -/
theorem idx1_block (c : Dev nD) (t : Fin cfg0.N) (y : S1024x30.Idx) (i : S8192x30.Idx)
    (h0 : (i 0).val = t.val * 1024 + (y 0).val) (h1 : (i 1).val = (y 1).val) :
    (iblk m c 1 t : Vec Ideal S1024x30 .i32) y = (V m c main_v1 : Vec Ideal S8192x30 .i32) i := by
  obtain ⟨-, -, e0, e1, -⟩ := grid_rows t
  unfold iblk
  rw [View.read_apply]
  show V m c main_v1 (((cfg0.win 1).blk t).view.emb y) = V m c main_v1 i
  refine congrArg _ (funext fun a => Fin.ext ?_)
  match a with
  | ⟨0, _⟩ => show win0_1.index t (0 : Fin 2) * 1024 + 1 * (y 0).val = (i 0).val; omega
  | ⟨1, _⟩ => show win0_1.index t (1 : Fin 2) * 30 + 1 * (y 1).val = (i 1).val; omega

/-- Row r of the first index block, as a function of the column, is row 1024 t + r of the array. -/
theorem idx0_row (c : Dev nD) (t : Fin cfg0.N) (r : Fin 1024) (q : Fin 8192) (h : q.val = t.val * 1024 + r.val) :
    (fun k : Fin 30 => (iblk m c 0 t : Vec Ideal S1024x30 .i32) (ix2 r k))
      = fun k : Fin 30 => (V m c main_v0 : Vec Ideal S8192x30 .i32) (ix2 q k) :=
  funext fun k => idx0_block m c t (ix2 r k) (ix2 q k) h rfl

/-- Row r of the second index block, as a function of the column, is row 1024 t + r of the array. -/
theorem idx1_row (c : Dev nD) (t : Fin cfg0.N) (r : Fin 1024) (q : Fin 8192) (h : q.val = t.val * 1024 + r.val) :
    (fun k : Fin 30 => (iblk m c 1 t : Vec Ideal S1024x30 .i32) (ix2 r k))
      = fun k : Fin 30 => (V m c main_v1 : Vec Ideal S8192x30 .i32) (ix2 q k) :=
  funext fun k => idx1_block m c t (ix2 r k) (ix2 q k) h rfl

/-- The table window's block at every point is the whole table. -/
theorem whole2 (c : Dev nD) (t : Fin cfg0.N) :
    (iblk m c 2 t : Vec Ideal S2x640x256 .bf16) = (V m c main_v2 : Vec Ideal S2x640x256 .bf16) := by
  obtain ⟨⟨e0, e1, e2⟩, -⟩ := grid_whole t
  funext y
  unfold iblk
  rw [View.read_apply]
  show V m c main_v2 (((cfg0.win 2).blk t).view.emb y) = V m c main_v2 y
  refine congrArg _ (funext fun a => Fin.ext ?_)
  match a with
  | ⟨0, _⟩ => show win0_2.index t (0 : Fin 3) * 2 + 1 * (y 0).val = (y 0).val; omega
  | ⟨1, _⟩ => show win0_2.index t (1 : Fin 3) * 640 + 1 * (y 1).val = (y 1).val; omega
  | ⟨2, _⟩ => show win0_2.index t (2 : Fin 3) * 256 + 1 * (y 2).val = (y 2).val; omega

/-- The first weight window's block is the whole 512 × 32 matrix. -/
theorem whole3 (c : Dev nD) (t : Fin cfg0.N) :
    (iblk m c 3 t : Vec Ideal S512x32 .bf16) = (V m c main_v4 : Vec Ideal S512x32 .bf16) := by
  obtain ⟨-, ⟨e0, e1⟩, -⟩ := grid_whole t
  funext y
  unfold iblk
  rw [View.read_apply]
  show V m c main_v4 (((cfg0.win 3).blk t).view.emb y) = V m c main_v4 y
  refine congrArg _ (funext fun a => Fin.ext ?_)
  match a with
  | ⟨0, _⟩ => show win0_3.index t (0 : Fin 2) * 512 + 1 * (y 0).val = (y 0).val; omega
  | ⟨1, _⟩ => show win0_3.index t (1 : Fin 2) * 32 + 1 * (y 1).val = (y 1).val; omega

/-- The first bias window's block is the whole 1 × 32 row. -/
theorem whole4 (c : Dev nD) (t : Fin cfg0.N) :
    (iblk m c 4 t : Vec Ideal S1x32 .f32) = (V m c main_v9 : Vec Ideal S1x32 .f32) := by
  obtain ⟨-, -, ⟨e0, e1⟩, -⟩ := grid_whole t
  funext y
  unfold iblk
  rw [View.read_apply]
  show V m c main_v9 (((cfg0.win 4).blk t).view.emb y) = V m c main_v9 y
  refine congrArg _ (funext fun a => Fin.ext ?_)
  match a with
  | ⟨0, _⟩ => show win0_4.index t (0 : Fin 2) * 1 + 1 * (y 0).val = (y 0).val; omega
  | ⟨1, _⟩ => show win0_4.index t (1 : Fin 2) * 32 + 1 * (y 1).val = (y 1).val; omega

/-- The second weight window's block is the whole 32 × 32 matrix. -/
theorem whole5 (c : Dev nD) (t : Fin cfg0.N) :
    (iblk m c 5 t : Vec Ideal S32x32 .bf16) = (V m c main_v6 : Vec Ideal S32x32 .bf16) := by
  obtain ⟨-, -, -, ⟨e0, e1⟩, -⟩ := grid_whole t
  funext y
  unfold iblk
  rw [View.read_apply]
  show V m c main_v6 (((cfg0.win 5).blk t).view.emb y) = V m c main_v6 y
  refine congrArg _ (funext fun a => Fin.ext ?_)
  match a with
  | ⟨0, _⟩ => show win0_5.index t (0 : Fin 2) * 32 + 1 * (y 0).val = (y 0).val; omega
  | ⟨1, _⟩ => show win0_5.index t (1 : Fin 2) * 32 + 1 * (y 1).val = (y 1).val; omega

/-- The second bias window's block is the whole 1 × 32 row. -/
theorem whole6 (c : Dev nD) (t : Fin cfg0.N) :
    (iblk m c 6 t : Vec Ideal S1x32 .f32) = (V m c main_v10 : Vec Ideal S1x32 .f32) := by
  obtain ⟨-, -, -, -, ⟨e0, e1⟩, -⟩ := grid_whole t
  funext y
  unfold iblk
  rw [View.read_apply]
  show V m c main_v10 (((cfg0.win 6).blk t).view.emb y) = V m c main_v10 y
  refine congrArg _ (funext fun a => Fin.ext ?_)
  match a with
  | ⟨0, _⟩ => show win0_6.index t (0 : Fin 2) * 1 + 1 * (y 0).val = (y 0).val; omega
  | ⟨1, _⟩ => show win0_6.index t (1 : Fin 2) * 32 + 1 * (y 1).val = (y 1).val; omega

/-- The last weight window's block is the whole 32 × 1 column. -/
theorem whole7 (c : Dev nD) (t : Fin cfg0.N) :
    (iblk m c 7 t : Vec Ideal S32x1 .bf16) = (V m c main_v8 : Vec Ideal S32x1 .bf16) := by
  obtain ⟨-, -, -, -, -, ⟨e0, e1⟩, -⟩ := grid_whole t
  funext y
  unfold iblk
  rw [View.read_apply]
  show V m c main_v8 (((cfg0.win 7).blk t).view.emb y) = V m c main_v8 y
  refine congrArg _ (funext fun a => Fin.ext ?_)
  match a with
  | ⟨0, _⟩ => show win0_7.index t (0 : Fin 2) * 32 + 1 * (y 0).val = (y 0).val; omega
  | ⟨1, _⟩ => show win0_7.index t (1 : Fin 2) * 1 + 1 * (y 1).val = (y 1).val; omega

/-- The last bias window's block is the whole 1 × 1 entry. -/
theorem whole8 (c : Dev nD) (t : Fin cfg0.N) :
    (iblk m c 8 t : Vec Ideal S1x1 .f32) = (V m c main_v11 : Vec Ideal S1x1 .f32) := by
  obtain ⟨-, -, -, -, -, -, ⟨e0, e1⟩⟩ := grid_whole t
  funext y
  unfold iblk
  rw [View.read_apply]
  show V m c main_v11 (((cfg0.win 8).blk t).view.emb y) = V m c main_v11 y
  refine congrArg _ (funext fun a => Fin.ext ?_)
  match a with
  | ⟨0, _⟩ => show win0_8.index t (0 : Fin 2) * 1 + 1 * (y 0).val = (y 0).val; omega
  | ⟨1, _⟩ => show win0_8.index t (1 : Fin 2) * 1 + 1 * (y 1).val = (y 1).val; omega

/-- Row q of the result, the same in every lane: the perceptron of row q's two bag sums, over the arrays the windows stage. -/
def rowVal (c : Dev nD) (q : Fin 8192) : EReal :=
  Cert.Bag.mlp
    (fun h => Cert.Bag.bagCount (fun k : Fin 30 => (V m c main_v0 : Vec Ideal S8192x30 .i32) (ix2 q k))
      (fun j => (V m c main_v2 : Vec Ideal S2x640x256 .bf16) (ix3 (0 : Fin 2) j h)))
    (fun h => Cert.Bag.bagCount (fun k : Fin 30 => (V m c main_v1 : Vec Ideal S8192x30 .i32) (ix2 q k))
      (fun j => (V m c main_v2 : Vec Ideal S2x640x256 .bf16) (ix3 (1 : Fin 2) j h)))
    (fun k n => (V m c main_v4 : Vec Ideal S512x32 .bf16) (ix2 k n))
    (fun n => (V m c main_v9 : Vec Ideal S1x32 .f32) (ix2 (0 : Fin 1) n))
    (fun k n => (V m c main_v6 : Vec Ideal S32x32 .bf16) (ix2 k n))
    (fun n => (V m c main_v10 : Vec Ideal S1x32 .f32) (ix2 (0 : Fin 1) n))
    (fun k => (V m c main_v8 : Vec Ideal S32x1 .bf16) (ix2 k (0 : Fin 1)))
    ((V m c main_v11 : Vec Ideal S1x1 .f32) (ix2 (0 : Fin 1) (0 : Fin 1)))

/-- The output array: row q's value in each of its 128 lanes. -/
def G9 (c : Dev nD) : Vec Ideal S8192x128 .f32 := fun i => rowVal m c (i 0)

/-- Entry y of what point t leaves in the output window is the array function at any index of row 1024 t + y 0. -/
theorem block_entry (c : Dev nD) (t : Fin cfg0.N) (y : S1024x128.Idx) (i : S8192x128.Idx)
    (h0 : (i 0).val = t.val * 1024 + (y 0).val) :
    out0_9 (iblk m c 0 t) (iblk m c 1 t) (iblk m c 2 t) (iblk m c 3 t) (iblk m c 4 t) (iblk m c 5 t) (iblk m c 6 t) (iblk m c 7 t) (iblk m c 8 t) y = G9 m c i := by
  refine (congrArg (out0_9 (iblk m c 0 t) (iblk m c 1 t) (iblk m c 2 t) (iblk m c 3 t) (iblk m c 4 t) (iblk m c 5 t) (iblk m c 6 t) (iblk m c 7 t) (iblk m c 8 t)) (eq_ix2 y)).trans ?_
  refine (Cert.KernelIdeal.Body.out0_9_apply (iblk m c 0 t) (iblk m c 1 t) (iblk m c 2 t) (iblk m c 3 t) (iblk m c 4 t) (iblk m c 5 t) (iblk m c 6 t) (iblk m c 7 t) (iblk m c 8 t) (y 0) (y 1)).trans ?_
  show _ = rowVal m c (i 0)
  unfold rowVal
  rw [whole2 m c t, whole3 m c t, whole4 m c t, whole5 m c t, whole6 m c t, whole7 m c t, whole8 m c t,
    idx0_row m c t (y 0) (i 0) h0, idx1_row m c t (y 0) (i 0) h0]

end Blocks

section Array

variable (m : (ℓ : Loc nD τ sig) → Buf (Elt Ideal) ℓ)

/-- What point t writes back is block t of the array function. -/
theorem flushed_eq (c : Dev nD) (t : Fin cfg0.N) :
    (dats m 0 c).flushed 9 t = ((cfg0.win 9).blk t).view.read (Elt Ideal) (G9 m c) := by
  obtain ⟨-, -, -, -, e0, e1, -⟩ := grid_rows t
  show (cfg0.win 9).cut (grid0.coords t) ((dats m 0 c).after 9 t) = _
  rw [after0_9]
  funext j
  rw [View.read_apply]
  show out0_9 (iblk m c 0 t) (iblk m c 1 t) (iblk m c 2 t) (iblk m c 3 t) (iblk m c 4 t) (iblk m c 5 t) (iblk m c 6 t) (iblk m c 7 t) (iblk m c 8 t) j = G9 m c (((cfg0.win 9).blk t).view.emb j)
  refine block_entry m c t j _ ?_
  show win0_9.index t (0 : Fin 2) * 1024 + 1 * (j 0).val = t.val * 1024 + (j 0).val
  omega

/-- An index of the output array is in point t's block iff each coordinate is in the block's range on its axis. -/
theorem mem_blk (t : Fin cfg0.N) (i : S8192x128.Idx) :
    i ∈ ((cfg0.win 9).blk t).view.set ↔ ∀ a : Fin 2, win0_9.index t a * S1024x128.size a ≤ (i a).val ∧ (i a).val < win0_9.index t a * S1024x128.size a + S1024x128.size a := by
  show i ∈ ((View.whole main_v12).slice (win0_9.rect t)).set ↔ _
  rw [View.set_slice_whole, Rect.mem_set_unit]
  exact Iff.rfl

/-- The eight row blocks cover the array: row q lies in the block of point q / 1024. -/
theorem cover (i : S8192x128.Idx) :
    ∃ t : Fin cfg0.N, (cfg0.win 9).flush t = true ∧ i ∈ ((cfg0.win 9).blk t).view.set := by
  have hi0 : (i 0).val < 8192 := (i 0).isLt
  have hi1 : (i 1).val < 128 := (i 1).isLt
  have hN : cfg0.N = 8 := N_0
  have hlt : (i 0).val / 1024 < cfg0.N := by rw [hN]; omega
  obtain ⟨-, -, -, -, e0, e1, -⟩ := grid_rows ⟨(i 0).val / 1024, hlt⟩
  refine ⟨⟨(i 0).val / 1024, hlt⟩, flush0_9 _, ?_⟩
  rw [mem_blk]
  intro a
  match a with
  | ⟨0, _⟩ =>
    show win0_9.index ⟨(i 0).val / 1024, hlt⟩ (0 : Fin 2) * 1024 ≤ (i 0).val ∧ (i 0).val < win0_9.index ⟨(i 0).val / 1024, hlt⟩ (0 : Fin 2) * 1024 + 1024
    rw [e0]
    show (i 0).val / 1024 * 1024 ≤ (i 0).val ∧ (i 0).val < (i 0).val / 1024 * 1024 + 1024
    omega
  | ⟨1, _⟩ =>
    show win0_9.index ⟨(i 0).val / 1024, hlt⟩ (1 : Fin 2) * 128 ≤ (i 1).val ∧ (i 1).val < win0_9.index ⟨(i 0).val / 1024, hlt⟩ (1 : Fin 2) * 128 + 128
    rw [e1]
    omega

/-- The output array after the region is the array function. -/
theorem final (c : Dev nD) : (dats m 0 c).arrAt 9 cfg0.N = G9 m c :=
  (dats m 0 c).arrAt_eq_of_cover 9 (G9 m c) (fun t _ => flushed_eq m c t) cover

/-- The output array as the lines after the region find it. -/
theorem out_arr (c : Dev nD) :
    Pipeline.withArrays spec0 c (V0 m c) (fun w => (dats m 0 c).arrAt w cfg0.N) (Proc.devRef .tc main_v12) = G9 m c :=
  (Pipeline.withArrays_arr spec0 launch0.win.arr_inj c (V0 m c) (fun w => (dats m 0 c).arrAt w cfg0.N) 9).trans (final m c)

/-- Lane 0 of an 8192 × 128 array, sliced out and reshaped to 8192 entries, read at b. -/
theorem lane0 (A : Vec Ideal S8192x128 .f32) (b : S8192.Idx) :
    shapeCast S8192 (extractStridedSlice S8192x1 ![0, 0] A slices_S8192x128_S8192x1_0_0) shapeCasts_S8192x1_S8192 b
      = A (ix2 (b 0 : Fin 8192) (0 : Fin 128)) := by
  refine (shapeCast_apply _ shapeCasts_S8192x1_S8192 b (ix2 (b 0 : Fin 8192) (0 : Fin 1) : S8192x1.Idx) ?_).trans ?_
  · rw [Shape.rowMajor_val_two, Shape.rowMajor_val_one]
    show (b 0).val * 1 + 0 = (b 0).val
    omega
  refine extractStridedSlice_apply ![0, 0] A slices_S8192x128_S8192x1_0_0 (ix2 (b 0 : Fin 8192) (0 : Fin 1) : S8192x1.Idx)
    (ix2 (b 0 : Fin 8192) (0 : Fin 128) : S8192x128.Idx) ?_
  intro a
  match a with
  | ⟨0, _⟩ => show (b 0).val = 0 + (b 0).val; omega
  | ⟨1, _⟩ => rfl

/-- The host's slice of lane 0 and reshape leave row b's value at b. -/
theorem tail_val (c : Dev nD) :
    Pipeline.afterTail₀ cfgs (dats m) 0 (V0 m) [hostOps1] c main_v14 = fun b : S8192.Idx => rowVal m c (b 0) := by
  unfold Pipeline.afterTail₀
  show StableHlo.after hostOps1 _ (Proc.devRef .tc main_v14) = _
  after_results
  rw [out_arr m c]
  funext b
  exact lane0 (G9 m c) b

/-- Row q's value over the arguments: the host operations before the region clamp the index words, leave the table,
    transpose the weight matrices and add a unit axis to the biases. -/
theorem rowVal_eq (c : Dev nD) (q : Fin 8192) :
    rowVal m c q = Cert.Bag.mlp
      (fun h => Cert.Bag.bagCount (fun k : Fin 30 => Cert.Bag.clampW ((m ((c.tc : Thread nD τ).loc main_arg0)) (ix2 q k))) (fun j => (m ((c.tc : Thread nD τ).loc main_arg2)) (ix3 (0 : Fin 2) j h)))
      (fun h => Cert.Bag.bagCount (fun k : Fin 30 => Cert.Bag.clampW ((m ((c.tc : Thread nD τ).loc main_arg1)) (ix2 q k))) (fun j => (m ((c.tc : Thread nD τ).loc main_arg2)) (ix3 (1 : Fin 2) j h)))
      (fun k n => (m ((c.tc : Thread nD τ).loc main_arg3)) (ix2 n k)) (fun n => (m ((c.tc : Thread nD τ).loc main_arg4)) (ix1 n))
      (fun k n => (m ((c.tc : Thread nD τ).loc main_arg5)) (ix2 n k)) (fun n => (m ((c.tc : Thread nD τ).loc main_arg6)) (ix1 n))
      (fun k => (m ((c.tc : Thread nD τ).loc main_arg7)) (ix2 (0 : Fin 1) k)) ((m ((c.tc : Thread nD τ).loc main_arg8)) (ix1 (0 : Fin 1))) := by
  unfold rowVal
  have e0 : (fun k : Fin 30 => (V m c main_v0 : Vec Ideal S8192x30 .i32) (ix2 q k)) = fun k : Fin 30 => Cert.Bag.clampW ((m ((c.tc : Thread nD τ).loc main_arg0)) (ix2 q k)) :=
    funext fun k => Cert.KernelIdeal.HostVal.V_idx0 m c (ix2 q k)
  have e1 : (fun k : Fin 30 => (V m c main_v1 : Vec Ideal S8192x30 .i32) (ix2 q k)) = fun k : Fin 30 => Cert.Bag.clampW ((m ((c.tc : Thread nD τ).loc main_arg1)) (ix2 q k)) :=
    funext fun k => Cert.KernelIdeal.HostVal.V_idx1 m c (ix2 q k)
  have et : (V m c main_v2 : Vec Ideal S2x640x256 .bf16) = (m ((c.tc : Thread nD τ).loc main_arg2)) := funext fun i => Cert.KernelIdeal.HostVal.V_tab m c i
  have e2 : (fun (k : Fin 512) (n : Fin 32) => (V m c main_v4 : Vec Ideal S512x32 .bf16) (ix2 k n)) = fun (k : Fin 512) (n : Fin 32) => (m ((c.tc : Thread nD τ).loc main_arg3)) (ix2 n k) :=
    funext fun k => funext fun n => Cert.KernelIdeal.HostVal.V_w2 m c k n
  have eb2 : (fun n : Fin 32 => (V m c main_v9 : Vec Ideal S1x32 .f32) (ix2 (0 : Fin 1) n)) = fun n : Fin 32 => (m ((c.tc : Thread nD τ).loc main_arg4)) (ix1 n) :=
    funext fun n => Cert.KernelIdeal.HostVal.V_b2 m c n
  have e3 : (fun (k : Fin 32) (n : Fin 32) => (V m c main_v6 : Vec Ideal S32x32 .bf16) (ix2 k n)) = fun (k : Fin 32) (n : Fin 32) => (m ((c.tc : Thread nD τ).loc main_arg5)) (ix2 n k) :=
    funext fun k => funext fun n => Cert.KernelIdeal.HostVal.V_w3 m c k n
  have eb3 : (fun n : Fin 32 => (V m c main_v10 : Vec Ideal S1x32 .f32) (ix2 (0 : Fin 1) n)) = fun n : Fin 32 => (m ((c.tc : Thread nD τ).loc main_arg6)) (ix1 n) :=
    funext fun n => Cert.KernelIdeal.HostVal.V_b3 m c n
  have e4 : (fun k : Fin 32 => (V m c main_v8 : Vec Ideal S32x1 .bf16) (ix2 k (0 : Fin 1))) = fun k : Fin 32 => (m ((c.tc : Thread nD τ).loc main_arg7)) (ix2 (0 : Fin 1) k) :=
    funext fun k => Cert.KernelIdeal.HostVal.V_w4 m c k
  rw [e0, e1, et, e2, eb2, e3, eb3, e4, Cert.KernelIdeal.HostVal.V_b4 m c]

end Array

theorem run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread Cert.KernelIdeal.nD Cert.KernelIdeal.τ).loc Cert.KernelIdeal.main_v14) = Cert.Bag.out Cert.Bag.bagCount Cert.Bag.clampW (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))
      ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)) :=
  (θ_run defs _ _).mono (fun r h c =>
    ⟨((h c).2 main_v14 (Pipeline.mem_restRefs_of main_v14 (by decide) (by decide))).trans
        ((tail_val m c).trans (funext fun i => rowVal_eq m c (i 0))),
     ((h c).2 main_arg0 (Pipeline.mem_restRefs_of main_arg0 (by decide) (by decide))).trans (W_main_arg0 m (dats m) c),
     ((h c).2 main_arg1 (Pipeline.mem_restRefs_of main_arg1 (by decide) (by decide))).trans (W_main_arg1 m (dats m) c),
     ((h c).2 main_arg2 (Pipeline.mem_restRefs_of main_arg2 (by decide) (by decide))).trans (W_main_arg2 m (dats m) c),
     ((h c).2 main_arg3 (Pipeline.mem_restRefs_of main_arg3 (by decide) (by decide))).trans (W_main_arg3 m (dats m) c),
     ((h c).2 main_arg4 (Pipeline.mem_restRefs_of main_arg4 (by decide) (by decide))).trans (W_main_arg4 m (dats m) c),
     ((h c).2 main_arg5 (Pipeline.mem_restRefs_of main_arg5 (by decide) (by decide))).trans (W_main_arg5 m (dats m) c),
     ((h c).2 main_arg6 (Pipeline.mem_restRefs_of main_arg6 (by decide) (by decide))).trans (W_main_arg6 m (dats m) c),
     ((h c).2 main_arg7 (Pipeline.mem_restRefs_of main_arg7 (by decide) (by decide))).trans (W_main_arg7 m (dats m) c),
     ((h c).2 main_arg8 (Pipeline.mem_restRefs_of main_arg8 (by decide) (by decide))).trans (W_main_arg8 m (dats m) c)⟩)
    (run_main m ρ)

end Cert.KernelIdeal.Final

end
-- ==== Proof.RefVal.lean ====
/-
  The reference's result as one function of its nine argument arrays: the operations of its @main composed in
  program order.  `takeVal` is jnp.take along the table's rows (a negative word wrapped by +640, then the row
  gathered, the NaN pattern where the wrapped word is outside 0 … 639); `bagVal` adds the thirty gathered rows;
  `tailVal` is relu of both bags side by side, three affine layers with relu after the first two, and the final
  reshape to one number per batch row.
-/
import proofs.«402669_j2774548873840_3_alg».proof.ReferenceIdeal
import proofs.«402669_j2774548873840_3_alg».proof.Proof.Gen.ReferenceIdeal

noncomputable section

namespace Cert.ReferenceIdeal.RefVal

open Idealize.ShloMosaic Cert.ReferenceIdeal Cert.ReferenceIdeal.Facts₀

variable {F : FTy → Type} [FloatOps F]

/-- jnp.take of the table's rows at the index words. -/
def takeVal (tab : FVec F S640x256 .f32) (idx : IVec S8192x30 32) : FVec F S8192x30x256 .f32 :=
  let zero2 : IVec S8192x30 32 := broadcastInDim S8192x30 ![] bcast_S_S8192x30 (constantI S_ 32 0#32)
  let neg : IVec S8192x30 1 := cmpi .slt idx zero2
  let n640 : IVec S8192x30 32 := broadcastInDim S8192x30 ![] bcast_S_S8192x30 (constantI S_ 32 640#32)
  let wrapped : IVec S8192x30 32 := select neg (addi idx n640) idx
  let i3 : IVec S8192x30x1 32 := broadcastInDim S8192x30x1 ![0, 1] bcast_S8192x30_S8192x30x1_0_1 wrapped
  let lo : IVec S8192x30x1 32 := broadcastInDim S8192x30x1 ![] bcast_S_S8192x30x1 (constantI S_ 32 0#32)
  let ge : IVec S8192x30x1 1 := cmpi .sge i3 lo
  let hi : IVec S8192x30x1 32 := broadcastInDim S8192x30x1 ![0, 1, 2] bcast_S1x1x1_S8192x30x1_0_1_2
    (broadcastInDim S1x1x1 ![2] bcast_S1_S1x1x1_2 (constantI S1 32 639#32))
  let le : IVec S8192x30x1 1 := cmpi .sle i3 hi
  let ok3 : IVec S8192x30x1 1 := andi ge le
  let ok : IVec S8192x30 1 := Host.reduce IntOp.andi ok3 (constantI S_ 1 1#1) reducesTo_S8192x30x1_S8192x30_d2 h_S_
  let g : FVec F S8192x30x256 .f32 := Host.gather gather_S640x256_S8192x30x1_S8192x30x256_2_0_n_n_0_2_1256 tab i3
  let okb : IVec S8192x30x256 1 := broadcastInDim S8192x30x256 ![0, 1] bcast_S8192x30_S8192x30x256_0_1 ok
  let nan : FVec F S8192x30x256 .f32 := broadcastInDim S8192x30x256 ![] bcast_S_S8192x30x256 (constant S_ .f32 0x7FC00000#32)
  select okb g nan

/-- The thirty gathered rows of a batch row added up (from zero). -/
def bagVal (tab : FVec F S640x256 .f32) (idx : IVec S8192x30 32) : FVec F S8192x256 .f32 :=
  Host.reduceAdd (takeVal tab idx) (constant S_ .f32 0x00000000#32) reducesTo_S8192x30x256_S8192x256_d1 h_S_

/-- Table 0 / table 1 of the stacked table. -/
def tab0 (a2 : FVec F S2x640x256 .f32) : FVec F S640x256 .f32 :=
  shapeCast S640x256 (extractStridedSlice S1x640x256 ![0, 0, 0] a2 slices_S2x640x256_S1x640x256_0_0_0) shapeCasts_S1x640x256_S640x256
def tab1 (a2 : FVec F S2x640x256 .f32) : FVec F S640x256 .f32 :=
  shapeCast S640x256 (extractStridedSlice S1x640x256 ![1, 0, 0] a2 slices_S2x640x256_S1x640x256_1_0_0) shapeCasts_S1x640x256_S640x256

def relu256 (x : FVec F S8192x256 .f32) : FVec F S8192x256 .f32 :=
  maximumf x (broadcastInDim S8192x256 ![] bcast_S_S8192x256 (constant S_ .f32 0x00000000#32))
def relu32 (x : FVec F S8192x32 .f32) : FVec F S8192x32 .f32 :=
  maximumf x (broadcastInDim S8192x32 ![] bcast_S_S8192x32 (constant S_ .f32 0x00000000#32))

/-- Everything after the two bags. -/
def tailVal (s0 s1 : FVec F S8192x256 .f32) (a3 : FVec F S32x512 .f32) (a4 : FVec F S32 .f32) (a5 : FVec F S32x32 .f32)
    (a6 : FVec F S32 .f32) (a7 : FVec F S1x32 .f32) (a8 : FVec F S1 .f32) : FVec F S8192 .f32 :=
  let hid : FVec F S8192x512 .f32 := concatenate S8192x512 1 [⟨S8192x256, relu256 s0⟩, ⟨S8192x256, relu256 s1⟩] concatenates_S8192x256_S8192x256_S8192x512_d1
  let h2 : FVec F S8192x32 .f32 := relu32 (addf
    (Host.dotGeneral dot_S8192x512_S512x32_S8192x32_1_0_0_1_n_n none hid (transpose S512x32 [1, 0] a3 transposes_S32x512_S512x32_1_0))
    (broadcastInDim S8192x32 ![0, 1] bcast_S1x32_S8192x32_0_1 (broadcastInDim S1x32 ![1] bcast_S32_S1x32_1 a4)))
  let h3 : FVec F S8192x32 .f32 := relu32 (addf
    (Host.dotGeneral dot_S8192x32_S32x32_S8192x32_1_0_0_1_n_n none h2 (transpose S32x32 [1, 0] a5 transposes_S32x32_S32x32_1_0))
    (broadcastInDim S8192x32 ![0, 1] bcast_S1x32_S8192x32_0_1 (broadcastInDim S1x32 ![1] bcast_S32_S1x32_1 a6)))
  let o : FVec F S8192x1 .f32 := addf
    (Host.dotGeneral dot_S8192x32_S32x1_S8192x1_1_0_0_1_n_n none h3 (transpose S32x1 [1, 0] a7 transposes_S1x32_S32x1_1_0))
    (broadcastInDim S8192x1 ![0, 1] bcast_S1x1_S8192x1_0_1 (broadcastInDim S1x1 ![1] bcast_S1_S1x1_1 a8))
  shapeCast S8192 o shapeCasts_S8192x1_S8192

/-- The reference's result. -/
def val (a0 a1 : IVec S8192x30 32) (a2 : FVec F S2x640x256 .f32) (a3 : FVec F S32x512 .f32) (a4 : FVec F S32 .f32)
    (a5 : FVec F S32x32 .f32) (a6 : FVec F S32 .f32) (a7 : FVec F S1x32 .f32) (a8 : FVec F S1 .f32) : FVec F S8192 .f32 :=
  tailVal (bagVal (tab0 a2) a0) (bagVal (tab1 a2) a1) a3 a4 a5 a6 a7 a8

end Cert.ReferenceIdeal.RefVal

end
-- ==== Proof.RefRun.lean ====
/-
  The reference's run: its @main (with the functions it calls written out at their call sites) is a straight line
  of host operations, so every weakly fair execution terminates with the result buffer at the operations'
  composed value of the argument arrays and the arguments unchanged.

  The eighty-three operations are read in three stretches, each from ANY contents of the buffers: the first bag
  (table 0 sliced out, its rows taken at the first index array, the thirty taken rows added up), the second bag
  (the same over table 1 and the second index array), and everything after the bags. A stretch's result is a
  function of the few buffers it reads, and a stretch leaves alone every buffer it does not write, so the three
  compose to the one function of the nine argument arrays.
-/
import proofs.«402669_j2774548873840_3_alg».proof.Proof.Gen.ReferenceIdeal
import proofs.«402669_j2774548873840_3_alg».proof.Proof.RefVal
import Idealize.ShloMosaic.Lib.StableHlo.Run

noncomputable section

namespace Cert.ReferenceIdeal.RefRun

open Idealize.ShloMosaic Idealize.ShloMosaic.TcCoe Idealize.SL.Sem Cert.ReferenceIdeal Cert.ReferenceIdeal.Gen Idealize.ShloMosaic.StableHlo

variable {F : FTy → Type} [FloatOps F]

/-! ## The operations -/

/-- The first bag, twenty-seven operations: table 0 out of the stacked table (slice, reshape); @_take over the
    record `main_call0` (the zero and the comparison with it, 640 and the sum with it, @_where's select between
    them, the index column, the bounds 0 and 639 and the two comparisons, their conjunction reduced over the unit
    axis, the gather, the mask broadcast along the row, the NaN pattern, the select); the zero and the sum over the
    thirty positions. -/
abbrev ops_a : List (HloOp τ sig (Elt F)) :=
  [ unary main_arg2 main_v0 ((extractStridedSlice S1x640x256 ![0, 0, 0] · slices_S2x640x256_S1x640x256_0_0_0) : (⟨S2x640x256, .f32⟩ : BufTy).Contents (Elt F) → (⟨S1x640x256, .f32⟩ : BufTy).Contents (Elt F)),
    reshape main_v0 main_v1 rfl shapeCasts_S1x640x256_S640x256,
    TRef.nullary main_call0.c (constantI S_ 32 0#32),
    TRef.unary main_call0.c main_call0.v0 (broadcastInDim S8192x30 ![] bcast_S_S8192x30),
    TRef.binary (.of main_arg0 : TRef sig ⟨S8192x30, .i32⟩) main_call0.v0 main_call0.v1 (cmpi .slt),
    TRef.nullary main_call0.c_0 (constantI S_ 32 640#32),
    TRef.unary main_call0.c_0 main_call0.v2 (broadcastInDim S8192x30 ![] bcast_S_S8192x30),
    TRef.binary (.of main_arg0 : TRef sig ⟨S8192x30, .i32⟩) main_call0.v2 main_call0.v3 addi,
    TRef.ternary main_call0.v1 main_call0.v3 (.of main_arg0 : TRef sig ⟨S8192x30, .i32⟩) main_call0.call0.v0 select,
    TRef.unary main_call0.call0.v0 main_call0.v5 (broadcastInDim S8192x30x1 ![0, 1] bcast_S8192x30_S8192x30x1_0_1),
    TRef.nullary main_call0.c_1 (constantI S1 32 639#32),
    TRef.nullary main_call0.c_2 (constantI S_ 32 0#32),
    TRef.unary main_call0.c_2 main_call0.v6 (broadcastInDim S8192x30x1 ![] bcast_S_S8192x30x1),
    TRef.binary main_call0.v5 main_call0.v6 main_call0.v7 (cmpi .sge),
    TRef.unary main_call0.c_1 main_call0.v8 (broadcastInDim S1x1x1 ![2] bcast_S1_S1x1x1_2),
    TRef.unary main_call0.v8 main_call0.v9 (broadcastInDim S8192x30x1 ![0, 1, 2] bcast_S1x1x1_S8192x30x1_0_1_2),
    TRef.binary main_call0.v5 main_call0.v9 main_call0.v10 (cmpi .sle),
    TRef.binary main_call0.v7 main_call0.v10 main_call0.v11 andi,
    TRef.nullary main_call0.c_3 (constantI S_ 1 1#1),
    TRef.binary main_call0.v11 main_call0.c_3 main_call0.v12 (fun x v => Host.reduce IntOp.andi x v reducesTo_S8192x30x1_S8192x30_d2 h_S_),
    TRef.binary (.of main_v1 : TRef sig ⟨S640x256, .f32⟩) main_call0.v5 main_call0.v13 (fun x i => Host.gather gather_S640x256_S8192x30x1_S8192x30x256_2_0_n_n_0_2_1256 x i),
    TRef.unary main_call0.v12 main_call0.v14 (broadcastInDim S8192x30x256 ![0, 1] bcast_S8192x30_S8192x30x256_0_1),
    TRef.nullary main_call0.cst (constant S_ .f32 0x7FC00000#32),
    TRef.unary main_call0.cst main_call0.v15 (broadcastInDim S8192x30x256 ![] bcast_S_S8192x30x256),
    TRef.ternary main_call0.v14 main_call0.v13 main_call0.v15 main_call0.v16 select,
    nullary main_cst (constant S_ .f32 0x00000000#32),
    binary main_v2 main_cst main_v3 ((fun x v => Host.reduceAdd x v reducesTo_S8192x30x256_S8192x256_d1 h_S_) : (⟨S8192x30x256, .f32⟩ : BufTy).Contents (Elt F) → (⟨S_, .f32⟩ : BufTy).Contents (Elt F) → (⟨S8192x256, .f32⟩ : BufTy).Contents (Elt F)) ]

/-- The second bag, twenty-seven operations: the same over table 1, the second index array and the record
    `main_call1`. -/
abbrev ops_b : List (HloOp τ sig (Elt F)) :=
  [ unary main_arg2 main_v4 ((extractStridedSlice S1x640x256 ![1, 0, 0] · slices_S2x640x256_S1x640x256_1_0_0) : (⟨S2x640x256, .f32⟩ : BufTy).Contents (Elt F) → (⟨S1x640x256, .f32⟩ : BufTy).Contents (Elt F)),
    reshape main_v4 main_v5 rfl shapeCasts_S1x640x256_S640x256,
    TRef.nullary main_call1.c (constantI S_ 32 0#32),
    TRef.unary main_call1.c main_call1.v0 (broadcastInDim S8192x30 ![] bcast_S_S8192x30),
    TRef.binary (.of main_arg1 : TRef sig ⟨S8192x30, .i32⟩) main_call1.v0 main_call1.v1 (cmpi .slt),
    TRef.nullary main_call1.c_0 (constantI S_ 32 640#32),
    TRef.unary main_call1.c_0 main_call1.v2 (broadcastInDim S8192x30 ![] bcast_S_S8192x30),
    TRef.binary (.of main_arg1 : TRef sig ⟨S8192x30, .i32⟩) main_call1.v2 main_call1.v3 addi,
    TRef.ternary main_call1.v1 main_call1.v3 (.of main_arg1 : TRef sig ⟨S8192x30, .i32⟩) main_call1.call0.v0 select,
    TRef.unary main_call1.call0.v0 main_call1.v5 (broadcastInDim S8192x30x1 ![0, 1] bcast_S8192x30_S8192x30x1_0_1),
    TRef.nullary main_call1.c_1 (constantI S1 32 639#32),
    TRef.nullary main_call1.c_2 (constantI S_ 32 0#32),
    TRef.unary main_call1.c_2 main_call1.v6 (broadcastInDim S8192x30x1 ![] bcast_S_S8192x30x1),
    TRef.binary main_call1.v5 main_call1.v6 main_call1.v7 (cmpi .sge),
    TRef.unary main_call1.c_1 main_call1.v8 (broadcastInDim S1x1x1 ![2] bcast_S1_S1x1x1_2),
    TRef.unary main_call1.v8 main_call1.v9 (broadcastInDim S8192x30x1 ![0, 1, 2] bcast_S1x1x1_S8192x30x1_0_1_2),
    TRef.binary main_call1.v5 main_call1.v9 main_call1.v10 (cmpi .sle),
    TRef.binary main_call1.v7 main_call1.v10 main_call1.v11 andi,
    TRef.nullary main_call1.c_3 (constantI S_ 1 1#1),
    TRef.binary main_call1.v11 main_call1.c_3 main_call1.v12 (fun x v => Host.reduce IntOp.andi x v reducesTo_S8192x30x1_S8192x30_d2 h_S_),
    TRef.binary (.of main_v5 : TRef sig ⟨S640x256, .f32⟩) main_call1.v5 main_call1.v13 (fun x i => Host.gather gather_S640x256_S8192x30x1_S8192x30x256_2_0_n_n_0_2_1256 x i),
    TRef.unary main_call1.v12 main_call1.v14 (broadcastInDim S8192x30x256 ![0, 1] bcast_S8192x30_S8192x30x256_0_1),
    TRef.nullary main_call1.cst (constant S_ .f32 0x7FC00000#32),
    TRef.unary main_call1.cst main_call1.v15 (broadcastInDim S8192x30x256 ![] bcast_S_S8192x30x256),
    TRef.ternary main_call1.v14 main_call1.v13 main_call1.v15 main_call1.v16 select,
    nullary main_cst_0 (constant S_ .f32 0x00000000#32),
    binary main_v6 main_cst_0 main_v7 ((fun x v => Host.reduceAdd x v reducesTo_S8192x30x256_S8192x256_d1 h_S_) : (⟨S8192x30x256, .f32⟩ : BufTy).Contents (Elt F) → (⟨S_, .f32⟩ : BufTy).Contents (Elt F) → (⟨S8192x256, .f32⟩ : BufTy).Contents (Elt F)) ]

/-- After the bags, twenty-nine operations: @relu of each bag (the zero, its broadcast, the maximum), the two side
    by side; three times a transposed weight, the product, the bias as a row and then along the batch, the sum —
    @relu_0 after the first two —; the reshape to one number per batch row. -/
abbrev ops_c : List (HloOp τ sig (Elt F)) :=
  [ TRef.nullary main_call2.cst (constant S_ .f32 0x00000000#32),
    TRef.unary main_call2.cst main_call2.v0 (broadcastInDim S8192x256 ![] bcast_S_S8192x256),
    TRef.binary (.of main_v3 : TRef sig ⟨S8192x256, .f32⟩) main_call2.v0 main_call2.v1 maximumf,
    TRef.nullary main_call3.cst (constant S_ .f32 0x00000000#32),
    TRef.unary main_call3.cst main_call3.v0 (broadcastInDim S8192x256 ![] bcast_S_S8192x256),
    TRef.binary (.of main_v7 : TRef sig ⟨S8192x256, .f32⟩) main_call3.v0 main_call3.v1 maximumf,
    binary main_v8 main_v9 main_v10 ((fun a b => concatenate S8192x512 1 [⟨S8192x256, a⟩, ⟨S8192x256, b⟩] concatenates_S8192x256_S8192x256_S8192x512_d1) : (⟨S8192x256, .f32⟩ : BufTy).Contents (Elt F) → (⟨S8192x256, .f32⟩ : BufTy).Contents (Elt F) → (⟨S8192x512, .f32⟩ : BufTy).Contents (Elt F)),
    unary main_arg3 main_v11 ((transpose S512x32 [1, 0] · transposes_S32x512_S512x32_1_0) : (⟨S32x512, .f32⟩ : BufTy).Contents (Elt F) → (⟨S512x32, .f32⟩ : BufTy).Contents (Elt F)),
    binary main_v10 main_v11 main_v12 ((fun l r => Host.dotGeneral dot_S8192x512_S512x32_S8192x32_1_0_0_1_n_n none l r) : (⟨S8192x512, .f32⟩ : BufTy).Contents (Elt F) → (⟨S512x32, .f32⟩ : BufTy).Contents (Elt F) → (⟨S8192x32, .f32⟩ : BufTy).Contents (Elt F)),
    unary main_arg4 main_v13 (broadcastInDim S1x32 ![1] bcast_S32_S1x32_1 : (⟨S32, .f32⟩ : BufTy).Contents (Elt F) → (⟨S1x32, .f32⟩ : BufTy).Contents (Elt F)),
    unary main_v13 main_v14 (broadcastInDim S8192x32 ![0, 1] bcast_S1x32_S8192x32_0_1 : (⟨S1x32, .f32⟩ : BufTy).Contents (Elt F) → (⟨S8192x32, .f32⟩ : BufTy).Contents (Elt F)),
    binary main_v12 main_v14 main_v15 (addf : (⟨S8192x32, .f32⟩ : BufTy).Contents (Elt F) → (⟨S8192x32, .f32⟩ : BufTy).Contents (Elt F) → (⟨S8192x32, .f32⟩ : BufTy).Contents (Elt F)),
    TRef.nullary main_call4.cst (constant S_ .f32 0x00000000#32),
    TRef.unary main_call4.cst main_call4.v0 (broadcastInDim S8192x32 ![] bcast_S_S8192x32),
    TRef.binary (.of main_v15 : TRef sig ⟨S8192x32, .f32⟩) main_call4.v0 main_call4.v1 maximumf,
    unary main_arg5 main_v17 ((transpose S32x32 [1, 0] · transposes_S32x32_S32x32_1_0) : (⟨S32x32, .f32⟩ : BufTy).Contents (Elt F) → (⟨S32x32, .f32⟩ : BufTy).Contents (Elt F)),
    binary main_v16 main_v17 main_v18 ((fun l r => Host.dotGeneral dot_S8192x32_S32x32_S8192x32_1_0_0_1_n_n none l r) : (⟨S8192x32, .f32⟩ : BufTy).Contents (Elt F) → (⟨S32x32, .f32⟩ : BufTy).Contents (Elt F) → (⟨S8192x32, .f32⟩ : BufTy).Contents (Elt F)),
    unary main_arg6 main_v19 (broadcastInDim S1x32 ![1] bcast_S32_S1x32_1 : (⟨S32, .f32⟩ : BufTy).Contents (Elt F) → (⟨S1x32, .f32⟩ : BufTy).Contents (Elt F)),
    unary main_v19 main_v20 (broadcastInDim S8192x32 ![0, 1] bcast_S1x32_S8192x32_0_1 : (⟨S1x32, .f32⟩ : BufTy).Contents (Elt F) → (⟨S8192x32, .f32⟩ : BufTy).Contents (Elt F)),
    binary main_v18 main_v20 main_v21 (addf : (⟨S8192x32, .f32⟩ : BufTy).Contents (Elt F) → (⟨S8192x32, .f32⟩ : BufTy).Contents (Elt F) → (⟨S8192x32, .f32⟩ : BufTy).Contents (Elt F)),
    TRef.nullary main_call5.cst (constant S_ .f32 0x00000000#32),
    TRef.unary main_call5.cst main_call5.v0 (broadcastInDim S8192x32 ![] bcast_S_S8192x32),
    TRef.binary (.of main_v21 : TRef sig ⟨S8192x32, .f32⟩) main_call5.v0 main_call5.v1 maximumf,
    unary main_arg7 main_v23 ((transpose S32x1 [1, 0] · transposes_S1x32_S32x1_1_0) : (⟨S1x32, .f32⟩ : BufTy).Contents (Elt F) → (⟨S32x1, .f32⟩ : BufTy).Contents (Elt F)),
    binary main_v22 main_v23 main_v24 ((fun l r => Host.dotGeneral dot_S8192x32_S32x1_S8192x1_1_0_0_1_n_n none l r) : (⟨S8192x32, .f32⟩ : BufTy).Contents (Elt F) → (⟨S32x1, .f32⟩ : BufTy).Contents (Elt F) → (⟨S8192x1, .f32⟩ : BufTy).Contents (Elt F)),
    unary main_arg8 main_v25 (broadcastInDim S1x1 ![1] bcast_S1_S1x1_1 : (⟨S1, .f32⟩ : BufTy).Contents (Elt F) → (⟨S1x1, .f32⟩ : BufTy).Contents (Elt F)),
    unary main_v25 main_v26 (broadcastInDim S8192x1 ![0, 1] bcast_S1x1_S8192x1_0_1 : (⟨S1x1, .f32⟩ : BufTy).Contents (Elt F) → (⟨S8192x1, .f32⟩ : BufTy).Contents (Elt F)),
    binary main_v24 main_v26 main_v27 (addf : (⟨S8192x1, .f32⟩ : BufTy).Contents (Elt F) → (⟨S8192x1, .f32⟩ : BufTy).Contents (Elt F) → (⟨S8192x1, .f32⟩ : BufTy).Contents (Elt F)),
    reshape main_v27 main_v28 rfl shapeCasts_S8192x1_S8192 ]

/-- @main's eighty-three operations, in order. -/
abbrev ops : List (HloOp τ sig (Elt F)) := ops_a ++ (ops_b ++ ops_c)

set_option maxRecDepth 8192 in
set_option maxHeartbeats 2000000 in
/-- @main is that straight line: with the called functions unfolded at their calls, both sides are the same chain
    of steps (sequencing after a call re-associates by computation). -/
theorem main_eq (c : Dev nD) : main (F := F) c = seq ops := rfl

theorem scopedRefs_eq : (Finset.univ.filter fun b : Ref sig .tc => b.isScoped) = ∅ := by decide
theorem scopedSems_eq : (Finset.univ.filter fun sm : SemLoc sig => sm.isScoped .tc) = ∅ := by decide

/-! ## Every operation touches TensorCore references only -/

theorem ops_a_sub : (ops_a : List (HloOp τ sig (Elt F))).Forall fun op => op.bufs ⊆ tcRefs τ sig :=
  ⟨unary_bufs_sub .., reshape_bufs_sub .., nullary_bufs_sub .., unary_bufs_sub .., binary_bufs_sub .., nullary_bufs_sub ..,
    unary_bufs_sub .., binary_bufs_sub .., ternary_bufs_sub .., unary_bufs_sub .., nullary_bufs_sub .., nullary_bufs_sub ..,
    unary_bufs_sub .., binary_bufs_sub .., unary_bufs_sub .., unary_bufs_sub .., binary_bufs_sub .., binary_bufs_sub ..,
    nullary_bufs_sub .., binary_bufs_sub .., binary_bufs_sub .., unary_bufs_sub .., nullary_bufs_sub .., unary_bufs_sub ..,
    ternary_bufs_sub .., nullary_bufs_sub .., binary_bufs_sub ..⟩

theorem ops_b_sub : (ops_b : List (HloOp τ sig (Elt F))).Forall fun op => op.bufs ⊆ tcRefs τ sig :=
  ⟨unary_bufs_sub .., reshape_bufs_sub .., nullary_bufs_sub .., unary_bufs_sub .., binary_bufs_sub .., nullary_bufs_sub ..,
    unary_bufs_sub .., binary_bufs_sub .., ternary_bufs_sub .., unary_bufs_sub .., nullary_bufs_sub .., nullary_bufs_sub ..,
    unary_bufs_sub .., binary_bufs_sub .., unary_bufs_sub .., unary_bufs_sub .., binary_bufs_sub .., binary_bufs_sub ..,
    nullary_bufs_sub .., binary_bufs_sub .., binary_bufs_sub .., unary_bufs_sub .., nullary_bufs_sub .., unary_bufs_sub ..,
    ternary_bufs_sub .., nullary_bufs_sub .., binary_bufs_sub ..⟩

theorem ops_c_sub : (ops_c : List (HloOp τ sig (Elt F))).Forall fun op => op.bufs ⊆ tcRefs τ sig :=
  ⟨nullary_bufs_sub .., unary_bufs_sub .., binary_bufs_sub .., nullary_bufs_sub .., unary_bufs_sub .., binary_bufs_sub ..,
    binary_bufs_sub .., unary_bufs_sub .., binary_bufs_sub .., unary_bufs_sub .., unary_bufs_sub .., binary_bufs_sub ..,
    nullary_bufs_sub .., unary_bufs_sub .., binary_bufs_sub .., unary_bufs_sub .., binary_bufs_sub .., unary_bufs_sub ..,
    unary_bufs_sub .., binary_bufs_sub .., nullary_bufs_sub .., unary_bufs_sub .., binary_bufs_sub .., unary_bufs_sub ..,
    binary_bufs_sub .., unary_bufs_sub .., unary_bufs_sub .., binary_bufs_sub .., reshape_bufs_sub ..⟩

theorem ops_sub : (ops : List (HloOp τ sig (Elt F))).Forall fun op => op.bufs ⊆ tcRefs τ sig :=
  List.forall_iff_forall_mem.mpr fun op h => by
    rcases List.mem_append.mp h with h | h
    · exact List.forall_iff_forall_mem.mp ops_a_sub op h
    rcases List.mem_append.mp h with h | h
    · exact List.forall_iff_forall_mem.mp ops_b_sub op h
    · exact List.forall_iff_forall_mem.mp ops_c_sub op h

/-! ## The contents after a stretch -/

/-- Two stretches run one after the other: the second from what the first leaves. -/
theorem after_cat : ∀ (l₁ l₂ : List (HloOp τ sig (Elt F))) (V : Valuation τ sig (Elt F)),
    after (l₁ ++ l₂) V = after l₂ (after l₁ V)
  | [], _, _ => rfl
  | op :: l₁, l₂, V => after_cat l₁ l₂ (op.result V)

/-- The buffers the first stretch writes. -/
abbrev W_a : List (Ref sig .tc) :=
  [main_v0, main_v1, main_call0_c, main_call0_v0, main_call0_v1, main_call0_c_0, main_call0_v2, main_call0_v3, main_call0_v4,
    main_call0_v5, main_call0_c_1, main_call0_c_2, main_call0_v6, main_call0_v7, main_call0_v8, main_call0_v9, main_call0_v10,
    main_call0_v11, main_call0_c_3, main_call0_v12, main_call0_v13, main_call0_v14, main_call0_cst, main_call0_v15, main_v2,
    main_cst, main_v3]
/-- The buffers the second stretch writes. -/
abbrev W_b : List (Ref sig .tc) :=
  [main_v4, main_v5, main_call1_c, main_call1_v0, main_call1_v1, main_call1_c_0, main_call1_v2, main_call1_v3, main_call1_v4,
    main_call1_v5, main_call1_c_1, main_call1_c_2, main_call1_v6, main_call1_v7, main_call1_v8, main_call1_v9, main_call1_v10,
    main_call1_v11, main_call1_c_3, main_call1_v12, main_call1_v13, main_call1_v14, main_call1_cst, main_call1_v15, main_v6,
    main_cst_0, main_v7]
/-- The buffers the third stretch writes. -/
abbrev W_c : List (Ref sig .tc) :=
  [main_call2_cst, main_call2_v0, main_v8, main_call3_cst, main_call3_v0, main_v9, main_v10, main_v11, main_v12, main_v13,
    main_v14, main_v15, main_call4_cst, main_call4_v0, main_v16, main_v17, main_v18, main_v19, main_v20, main_v21,
    main_call5_cst, main_call5_v0, main_v22, main_v23, main_v24, main_v25, main_v26, main_v27, main_v28]

theorem writes_a : (ops_a : List (HloOp τ sig (Elt F))).Forall fun op =>
    op.writes ⊆ (W_a.map (Proc.devRef (τ := τ) .tc)).toFinset := by
  simp only [ops_a, List.Forall, nullary_writes, unary_writes, binary_writes, ternary_writes, reshape_writes,
    Finset.singleton_subset_iff, List.mem_toFinset]
  repeat' apply And.intro
  all_goals exact List.mem_map_of_mem (by decide)

theorem writes_b : (ops_b : List (HloOp τ sig (Elt F))).Forall fun op =>
    op.writes ⊆ (W_b.map (Proc.devRef (τ := τ) .tc)).toFinset := by
  simp only [ops_b, List.Forall, nullary_writes, unary_writes, binary_writes, ternary_writes, reshape_writes,
    Finset.singleton_subset_iff, List.mem_toFinset]
  repeat' apply And.intro
  all_goals exact List.mem_map_of_mem (by decide)

theorem writes_c : (ops_c : List (HloOp τ sig (Elt F))).Forall fun op =>
    op.writes ⊆ (W_c.map (Proc.devRef (τ := τ) .tc)).toFinset := by
  simp only [ops_c, List.Forall, nullary_writes, unary_writes, binary_writes, ternary_writes, reshape_writes,
    Finset.singleton_subset_iff, List.mem_toFinset]
  repeat' apply And.intro
  all_goals exact List.mem_map_of_mem (by decide)

/-- A stretch leaves alone every buffer it does not write. -/
theorem keep_a (V : Valuation τ sig (Elt F)) {r : Ref sig .tc} (h : r ∉ W_a) :
    after ops_a V (Proc.devRef .tc r) = V (Proc.devRef .tc r) := after_of_writes_sub ops_a V writes_a h
theorem keep_b (V : Valuation τ sig (Elt F)) {r : Ref sig .tc} (h : r ∉ W_b) :
    after ops_b V (Proc.devRef .tc r) = V (Proc.devRef .tc r) := after_of_writes_sub ops_b V writes_b h
theorem keep_c (V : Valuation τ sig (Elt F)) {r : Ref sig .tc} (h : r ∉ W_c) :
    after ops_c V (Proc.devRef .tc r) = V (Proc.devRef .tc r) := after_of_writes_sub ops_c V writes_c h

/-! ## What each stretch computes -/

attribute [local irreducible] Host.reduce Host.gather Host.reduceAdd select cmpi addi andi broadcastInDim shapeCast extractStridedSlice constantI constant in
set_option maxRecDepth 8192 in
set_option maxHeartbeats 2000000 in
/-- After the first stretch the first bag's buffer holds the bag of table 0 at the first index array. -/
theorem bag0_eq (V : Valuation τ sig (Elt F)) :
    after ops_a V (Proc.devRef .tc main_v3)
      = RefVal.bagVal (RefVal.tab0 (V (Proc.devRef .tc main_arg2))) (V (Proc.devRef .tc main_arg0)) := by
  after_results_simp
  rfl

attribute [local irreducible] Host.reduce Host.gather Host.reduceAdd select cmpi addi andi broadcastInDim shapeCast extractStridedSlice constantI constant in
set_option maxRecDepth 8192 in
set_option maxHeartbeats 2000000 in
/-- After the second stretch the second bag's buffer holds the bag of table 1 at the second index array. -/
theorem bag1_eq (V : Valuation τ sig (Elt F)) :
    after ops_b V (Proc.devRef .tc main_v7)
      = RefVal.bagVal (RefVal.tab1 (V (Proc.devRef .tc main_arg2))) (V (Proc.devRef .tc main_arg1)) := by
  after_results_simp
  rfl

set_option maxRecDepth 8192 in
set_option maxHeartbeats 2000000 in
/-- After the third stretch the result buffer holds the perceptron of the two bags and the weights. -/
theorem tail_eq (V : Valuation τ sig (Elt F)) :
    after ops_c V (Proc.devRef .tc main_v28)
      = RefVal.tailVal (V (Proc.devRef .tc main_v3)) (V (Proc.devRef .tc main_v7)) (V (Proc.devRef .tc main_arg3))
          (V (Proc.devRef .tc main_arg4)) (V (Proc.devRef .tc main_arg5)) (V (Proc.devRef .tc main_arg6))
          (V (Proc.devRef .tc main_arg7)) (V (Proc.devRef .tc main_arg8)) := by
  after_results
  rfl

/-! ## The three together -/

/-- A buffer none of the three stretches writes keeps its contents through @main. -/
theorem keep (V : Valuation τ sig (Elt F)) {r : Ref sig .tc} (ha : r ∉ W_a) (hb : r ∉ W_b) (hc : r ∉ W_c) :
    after ops V (Proc.devRef .tc r) = V (Proc.devRef .tc r) := by
  show after (ops_a ++ (ops_b ++ ops_c)) V _ = _
  rw [after_cat, after_cat, keep_c _ hc, keep_b _ hb, keep_a _ ha]

/-- After @main the result buffer holds the reference's value of the nine argument arrays. -/
theorem out_eq (V : Valuation τ sig (Elt F)) :
    after ops V (Proc.devRef .tc main_v28)
      = RefVal.val (V (Proc.devRef .tc main_arg0)) (V (Proc.devRef .tc main_arg1)) (V (Proc.devRef .tc main_arg2))
          (V (Proc.devRef .tc main_arg3)) (V (Proc.devRef .tc main_arg4)) (V (Proc.devRef .tc main_arg5))
          (V (Proc.devRef .tc main_arg6)) (V (Proc.devRef .tc main_arg7)) (V (Proc.devRef .tc main_arg8)) := by
  show after (ops_a ++ (ops_b ++ ops_c)) V _ = _
  rw [after_cat, after_cat, tail_eq, bag1_eq, keep_b _ (r := main_v3) (by decide), bag0_eq,
    keep_a V (r := main_arg1) (by decide), keep_a V (r := main_arg2) (by decide),
    keep_b _ (r := main_arg3) (by decide), keep_a V (r := main_arg3) (by decide),
    keep_b _ (r := main_arg4) (by decide), keep_a V (r := main_arg4) (by decide),
    keep_b _ (r := main_arg5) (by decide), keep_a V (r := main_arg5) (by decide),
    keep_b _ (r := main_arg6) (by decide), keep_a V (r := main_arg6) (by decide),
    keep_b _ (r := main_arg7) (by decide), keep_a V (r := main_arg7) (by decide),
    keep_b _ (r := main_arg8) (by decide), keep_a V (r := main_arg8) (by decide)]
  rfl

/-! ## The run -/

theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v28) = Cert.ReferenceIdeal.RefVal.val (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) := by
  exact (θ_run defs _ _).mono (fun _ h c => ⟨(h c main_v28).trans (out_eq (launchContents m c)),
      (h c main_arg0).trans (keep _ (by decide) (by decide) (by decide)),
      (h c main_arg1).trans (keep _ (by decide) (by decide) (by decide)),
      (h c main_arg2).trans (keep _ (by decide) (by decide) (by decide)),
      (h c main_arg3).trans (keep _ (by decide) (by decide) (by decide)),
      (h c main_arg4).trans (keep _ (by decide) (by decide) (by decide)),
      (h c main_arg5).trans (keep _ (by decide) (by decide) (by decide)),
      (h c main_arg6).trans (keep _ (by decide) (by decide) (by decide)),
      (h c main_arg7).trans (keep _ (by decide) (by decide) (by decide)),
      (h c main_arg8).trans (keep _ (by decide) (by decide) (by decide))⟩)
    (run_seq scopedRefs_eq scopedSems_eq defs main (fun _ => ops) main_eq (fun _ => ops_sub) m ρ)

end Cert.ReferenceIdeal.RefRun

end
-- ==== Proof.RefTake.lean ====
/-
  The reference's bag sums read at an entry: where every index word of the row names a row of the table, jnp.take's
  wrap and range test do nothing, the gather reads the named rows, and their sum over the thirty positions is
  the gathered form of the bag.
-/
import proofs.«402669_j2774548873840_3_alg».proof.Proof.RefVal
import proofs.«402669_j2774548873840_3_alg».proof.Proof.Spec
import Idealize.ShloMosaic.Lib.Pipeline.Value
import Idealize.ShloMosaic.Lib.ValueLayout
import Idealize.ShloMosaic.Lib.IdealHost
import Idealize.ShloMosaic.Lib.StableHlo.Predicate
import Idealize.ShloMosaic.PureOps.Ideal.Laws
import Idealize.ShloMosaic.PureOps.Reduce

noncomputable section

namespace Cert.ReferenceIdeal.RefRead

open Idealize.ShloMosaic Idealize.ShloMosaic.ValueIdx Idealize.SL.Sem Cert.ReferenceIdeal Cert.ReferenceIdeal.Gen Cert.ReferenceIdeal.RefVal

/-! ## Words that name a row: the signed compares of jnp.take decide -/

/-- A word below 640 is not negative as a signed number. -/
private theorem slt_zero_of_lt (v : BitVec 32) (hv : v.toNat < 640) : IntOp.cmpi .slt v 0#32 = 0#1 := by
  refine eq_zero_of_ne_one fun e => ?_
  have h := (StableHlo.Predicate.slt_iff_toNat (a := v) (b := 0#32) (by omega) (by decide)).1 e
  simp at h

/-- A word below 640 is at least zero as a signed number. -/
private theorem sge_zero_of_lt (v : BitVec 32) (hv : v.toNat < 640) : IntOp.cmpi .sge v 0#32 = 1#1 :=
  (StableHlo.Predicate.sge_iff_toNat (a := v) (b := 0#32) (by omega) (by decide)).2 (by simp)

/-- A word below 640 is at most 639 as a signed number. -/
private theorem sle_639_of_lt (v : BitVec 32) (hv : v.toNat < 640) : IntOp.cmpi .sle v 639#32 = 1#1 :=
  (StableHlo.Predicate.sle_iff_toNat (a := v) (b := 639#32) (by omega) (by decide)).2
    (by show v.toNat ≤ 639; omega)

/-! ## A reduction by and of words that are all 1 -/

/-- A left fold by and, from 1, over words that are all 1, is 1. -/
private theorem foldl_andi_one {ι : Type} (f : ι → BitVec 1) (hf : ∀ n, f n = 1#1) :
    ∀ l : List ι, l.foldl (fun r n => IntOp.andi r (f n)) 1#1 = 1#1
  | [] => rfl
  | a :: l => by
    have h11 : IntOp.andi (1#1) (1#1) = 1#1 := by decide
    rw [List.foldl_cons, hf a, h11]
    exact foldl_andi_one f hf l

/-- So a reduce by and, from 1, of an array of 1s is 1 at every result index. -/
private theorem reduce_andi_one {s t u : Shape} {axes : List (Fin s.rank)} (x : s.Idx → BitVec 1) (init : u.Idx → BitVec 1)
    (h : s.ReducesTo axes t) (hu : 0 < u.numel) (hi : init (Shape.Idx.first hu) = 1#1) (hx : ∀ i, x i = 1#1) (j : t.Idx) :
    Host.reduce IntOp.andi x init h hu j = 1#1 := by
  rw [Host.reduce_eq_foldl, hi]
  exact foldl_andi_one x hx _

/-- The wrap of jnp.take leaves a word that names a row alone. -/
private theorem wrap_eq (idx : IVec S8192x30 32) (hidx : ∀ i, (idx i).toNat < 640) :
    select (cmpi .slt idx (broadcastInDim S8192x30 ![] bcast_S_S8192x30 (constantI S_ 32 0#32)))
      (addi idx (broadcastInDim S8192x30 ![] bcast_S_S8192x30 (constantI S_ 32 640#32))) idx = idx := by
  funext i
  show Scalar.select (IntOp.cmpi .slt (idx i) 0#32) _ (idx i) = idx i
  rw [slt_zero_of_lt _ (hidx i)]; exact select_zero _ _

/-- Where every word of the start indices names a row, the range test of jnp.take passes everywhere. -/
private theorem inRange_one (i3 : IVec S8192x30x1 32) (h3 : ∀ i, (i3 i).toNat < 640) (j : S8192x30x256.Idx) :
    broadcastInDim S8192x30x256 ![0, 1] bcast_S8192x30_S8192x30x256_0_1
      (Host.reduce IntOp.andi
        (andi (cmpi .sge i3 (broadcastInDim S8192x30x1 ![] bcast_S_S8192x30x1 (constantI S_ 32 0#32)))
          (cmpi .sle i3 (broadcastInDim S8192x30x1 ![0, 1, 2] bcast_S1x1x1_S8192x30x1_0_1_2
            (broadcastInDim S1x1x1 ![2] bcast_S1_S1x1x1_2 (constantI S1 32 639#32)))))
        (constantI S_ 1 1#1) reducesTo_S8192x30x1_S8192x30_d2 h_S_) j = 1#1 := by
  refine reduce_andi_one _ _ _ _ rfl (fun i => ?_) _
  show IntOp.andi (IntOp.cmpi .sge (i3 i) 0#32) (IntOp.cmpi .sle (i3 i) 639#32) = 1#1
  rw [sge_zero_of_lt _ (h3 i), sle_639_of_lt _ (h3 i)]; decide

/-! ## The gather of rows -/

/-- The dimension numbers of the reference's gather: rows of a [640, 256] table at start indices [8192, 30, 1]. -/
private abbrev rowDims : GatherDims S640x256 S8192x30x1 S8192x30x256 := gather_S640x256_S8192x30x1_S8192x30x256_2_0_n_n_0_2_1256

/-- The gather at (b, k, h): the start index at (b, k, 0) is a word v that names a row, the clamp of the start index does
    nothing, and the entry read is the table's at (v, h). -/
private theorem gather_row {α : Type} (tab : S640x256.Idx → α) (i3 : IVec S8192x30x1 32) (b : Fin 8192) (k : Fin 30) (h : Fin 256)
    (v : BitVec 32) (hv : i3 (ix3 b k (0 : Fin 1)) = v) (hlt : v.toNat < 640) :
    Host.gather rowDims tab i3 (ix3 b k h) = tab (ix2 ⟨v.toNat, hlt⟩ h) := by
  unfold Host.gather
  refine congrArg tab (funext fun a => Fin.ext ?_)
  match a with
  | ⟨0, _⟩ =>
    show rowDims.start (ix3 b k h) i3 0 + rowDims.batchCoord (ix3 b k h) 0 + rowDims.offCoord (ix3 b k h) 0 = v.toNat
    rw [GatherDims.batchCoord_eq_zero _ _ _ List.not_mem_nil,
      GatherDims.offCoord_eq_zero _ _ _ (fun hm => ((GatherDims.mem_sKept _ _).mp hm).1 (List.mem_singleton.mpr rfl))]
    simp only [Nat.add_zero]
    unfold GatherDims.start
    rw [dif_pos (show (0 : Fin 2) ∈ rowDims.startIndexMap from List.mem_singleton.mpr rfl)]
    have hsi : rowDims.siIdx (ix3 b k h) ⟨List.idxOf (0 : Fin 2) rowDims.startIndexMap,
        List.idxOf_lt_length_iff.2 (List.mem_singleton.mpr rfl)⟩ = ix3 b k (0 : Fin 1) := by
      funext c; refine Fin.ext ?_
      match c with
      | ⟨0, _⟩ => rfl
      | ⟨1, _⟩ => rfl
      | ⟨2, _⟩ => rfl
    rw [hsi, hv, StableHlo.Predicate.toInt_eq_toNat_of_lt (by omega)]
    show min (v.toNat : ℤ).toNat (640 - 1) = v.toNat
    rw [Int.toNat_natCast]; omega
  | ⟨1, _⟩ =>
    show rowDims.start (ix3 b k h) i3 1 + rowDims.batchCoord (ix3 b k h) 1 + rowDims.offCoord (ix3 b k h) 1 = h.val
    have hs : rowDims.start (ix3 b k h) i3 1 = 0 := by
      unfold GatherDims.start; rw [dif_neg (by decide)]
    have ho : rowDims.offCoord (ix3 b k h) 1 = h.val := by
      unfold GatherDims.offCoord
      rw [dif_pos (by decide)]
      rfl
    rw [GatherDims.batchCoord_eq_zero _ _ _ List.not_mem_nil, hs, ho]; omega

/-! ## jnp.take and the bag at an entry -/

/-- jnp.take at (b, k, h), where every index word names a row: the table's entry at (the word at (b, k), h). -/
theorem takeVal_apply (tab : FVec Ideal S640x256 .f32) (idx : IVec S8192x30 32) (hidx : ∀ i, (idx i).toNat < 640)
    (b : Fin 8192) (k : Fin 30) (h : Fin 256) :
    takeVal tab idx (ix3 b k h) = tab (ix2 ⟨(idx (ix2 b k)).toNat, hidx _⟩ h) := by
  unfold takeVal
  dsimp only
  rw [wrap_eq idx hidx]
  refine (select_apply _ _ _ _).trans ?_
  have h3 : ∀ i, ((broadcastInDim S8192x30x1 ![0, 1] bcast_S8192x30_S8192x30x1_0_1 idx) i).toNat < 640 := fun i => hidx _
  rw [inRange_one _ h3, select_one]
  have e3 : broadcastInDim S8192x30x1 ![0, 1] bcast_S8192x30_S8192x30x1_0_1 idx (ix3 b k (0 : Fin 1)) = idx (ix2 b k) :=
    broadcastInDim_apply _ _ _ _ _ (fun a => by match a with | ⟨0, _⟩ => rfl | ⟨1, _⟩ => rfl)
  exact gather_row tab _ b k h _ e3 (hidx _)

theorem bagVal_apply (tab : FVec Ideal S640x256 .f32) (idx : IVec S8192x30 32) (hidx : ∀ i, (idx i).toNat < 640)
    (b : Fin 8192) (h : Fin 256) :
    bagVal tab idx (ix2 b h) = Cert.Bag.bagGather (fun k => idx (ix2 b k)) (fun j => tab (ix2 j h)) := by
  unfold bagVal
  rw [hostReduceAdd_apply]
  have hR : S8192x30x256.Reduces [1] S8192x256 := by decide
  rw [Ideal.hostReduceAdd_single reducesTo_S8192x30x256_S8192x256_d1 hR]
  have h0 : (constant (F := Ideal) S_ .f32 0x00000000#32) (Shape.Idx.first h_S_) = 0 := Ideal.ofBits_zero_f32
  rw [h0, zero_add]
  unfold Cert.Bag.bagGather
  refine Finset.sum_congr rfl fun (k : Fin 30) _ => ?_
  have hl : hR.lift (ix2 b h) k = ix3 b k h := by
    funext c; refine Fin.ext ?_
    match c with
    | ⟨0, _⟩ => rfl
    | ⟨1, _⟩ => rfl
    | ⟨2, _⟩ => rfl
  rw [hl, takeVal_apply tab idx hidx]
  unfold Cert.Bag.rowAt
  rw [dif_pos (hidx _)]

theorem tab0_apply (a2 : FVec Ideal S2x640x256 .f32) (j : Fin 640) (h : Fin 256) : tab0 a2 (ix2 j h) = a2 (ix3 (0 : Fin 2) j h) := by
  unfold tab0
  refine (shapeCast_1ab_ab_apply _ _ j h).trans ?_
  exact extractStridedSlice_apply _ _ _ _ _ (fun a => by
    match a with
    | ⟨0, _⟩ => rfl
    | ⟨1, _⟩ => show j.val = 0 + j.val; omega
    | ⟨2, _⟩ => show h.val = 0 + h.val; omega)

theorem tab1_apply (a2 : FVec Ideal S2x640x256 .f32) (j : Fin 640) (h : Fin 256) : tab1 a2 (ix2 j h) = a2 (ix3 (1 : Fin 2) j h) := by
  unfold tab1
  refine (shapeCast_1ab_ab_apply _ _ j h).trans ?_
  exact extractStridedSlice_apply _ _ _ _ _ (fun a => by
    match a with
    | ⟨0, _⟩ => rfl
    | ⟨1, _⟩ => show j.val = 0 + j.val; omega
    | ⟨2, _⟩ => show h.val = 0 + h.val; omega)

end Cert.ReferenceIdeal.RefRead

end
-- ==== Proof.RefTail.lean ====
/-
  The reference's perceptron tail read at an entry: batch row b of the result is the perceptron of row b of the
  two bag-sum arrays, the weights read transposed.

  Every operation of the tail reads, at an index, its operands at one index (relu, the bias broadcasts, the
  transposes, the concatenation of the two relu'd bags, the final reshape) or a finite sum of products over the
  contracted coordinate (the three matrix products). Composing these readings from the result inwards gives the
  nested sums of the perceptron.
-/
import proofs.«402669_j2774548873840_3_alg».proof.Proof.RefVal
import proofs.«402669_j2774548873840_3_alg».proof.Proof.Spec
import Idealize.ShloMosaic.Lib.Pipeline.Value
import Idealize.ShloMosaic.Lib.IdealHost
import Idealize.ShloMosaic.Lib.StackMember
import Idealize.ShloMosaic.PureOps.Ideal.Laws

noncomputable section

namespace Cert.ReferenceIdeal.RefRead

open Idealize.ShloMosaic Idealize.ShloMosaic.ValueIdx Idealize.SL.Sem Cert.ReferenceIdeal Cert.ReferenceIdeal.Gen Cert.ReferenceIdeal.RefVal

namespace Tail

/-! ## The pointwise and layout operations at an entry -/

/-- relu of a [8192, 256] array at an entry. -/
theorem relu256_apply (x : FVec Ideal S8192x256 .f32) (j : S8192x256.Idx) : relu256 x j = Cert.Bag.relu (x j) := by
  unfold relu256 Cert.Bag.relu
  rw [maximumf_apply, broadcastInDim_scalar_apply, constant_apply, Ideal.ofBits_zero_f32]

/-- relu of a [8192, 32] array at an entry. -/
theorem relu32_apply (x : FVec Ideal S8192x32 .f32) (j : S8192x32.Idx) : relu32 x j = Cert.Bag.relu (x j) := by
  unfold relu32 Cert.Bag.relu
  rw [maximumf_apply, broadcastInDim_scalar_apply, constant_apply, Ideal.ofBits_zero_f32]

/-- The two relu'd bags side by side, at (b, k): column k of the first for k < 256, else column k − 256 of the second. -/
theorem hid_apply (s0 s1 : FVec Ideal S8192x256 .f32) (b : Fin 8192) (k : Fin 512) :
    concatenate S8192x512 1 [⟨S8192x256, relu256 s0⟩, ⟨S8192x256, relu256 s1⟩] concatenates_S8192x256_S8192x256_S8192x512_d1 (ix2 b k)
      = Cert.Bag.hcat (fun h => s0 (ix2 b h)) (fun h => s1 (ix2 b h)) k := by
  unfold Cert.Bag.hcat
  by_cases h : k.val < 256
  · rw [dif_pos h]
    refine (concatenate_pair_apply_left (t := S8192x512) (s₁ := S8192x256) (s₂ := S8192x256) 1 (relu256 s0) (relu256 s1) _ (ix2 b k) rfl (ix2 b (⟨k.val, h⟩ : Fin 256)) ?_).trans (relu256_apply s0 _)
    intro a
    match a with
    | ⟨0, _⟩ => rfl
    | ⟨1, _⟩ => rfl
  · rw [dif_neg h]
    have hk : k.val - 256 < 256 := by have := k.isLt; omega
    refine (concatenate_pair_apply_right (t := S8192x512) (s₁ := S8192x256) (s₂ := S8192x256) 1 (relu256 s0) (relu256 s1) _ (ix2 b k) rfl rfl (ix2 b (⟨k.val - 256, hk⟩ : Fin 256)) ?_ ?_).trans (relu256_apply s1 _)
    · intro a ha
      match a, ha with
      | ⟨0, _⟩, _ => rfl
      | ⟨1, _⟩, ha => exact absurd rfl ha
    · show k.val - 256 + 256 = k.val
      omega

/-- A length-32 bias broadcast over the rows, at (b, n). -/
theorem bias32_apply (a : FVec Ideal S32 .f32) (b : Fin 8192) (n : Fin 32) :
    broadcastInDim S8192x32 ![0, 1] bcast_S1x32_S8192x32_0_1 (broadcastInDim S1x32 ![1] bcast_S32_S1x32_1 a) (ix2 b n) = a (ix1 n) := by
  refine (broadcastInDim_apply _ _ _ (ix2 b n) (ix2 (0 : Fin 1) n) ?_).trans ?_
  · intro c
    match c with
    | ⟨0, _⟩ => rfl
    | ⟨1, _⟩ => rfl
  · refine broadcastInDim_apply _ _ _ (ix2 (0 : Fin 1) n) (ix1 n) ?_
    intro c
    match c with
    | ⟨0, _⟩ => rfl

/-- The length-1 bias broadcast over the rows, at (b, 0). -/
theorem bias1_apply (a : FVec Ideal S1 .f32) (b : Fin 8192) :
    broadcastInDim S8192x1 ![0, 1] bcast_S1x1_S8192x1_0_1 (broadcastInDim S1x1 ![1] bcast_S1_S1x1_1 a) (ix2 b (0 : Fin 1)) = a (ix1 (0 : Fin 1)) := by
  refine (broadcastInDim_apply _ _ _ (ix2 b (0 : Fin 1)) (ix2 (0 : Fin 1) (0 : Fin 1)) ?_).trans ?_
  · intro c
    match c with
    | ⟨0, _⟩ => rfl
    | ⟨1, _⟩ => rfl
  · refine broadcastInDim_apply _ _ _ (ix2 (0 : Fin 1) (0 : Fin 1)) (ix1 (0 : Fin 1)) ?_
    intro c
    match c with
    | ⟨0, _⟩ => rfl

/-- The transposed weights at (k, n) are the weights at (n, k). -/
theorem tr3_apply (w : FVec Ideal S32x512 .f32) (k : Fin 512) (n : Fin 32) :
    transpose S512x32 [1, 0] w transposes_S32x512_S512x32_1_0 (ix2 k n) = w (ix2 n k) := by
  refine transpose_apply _ _ _ (ix2 k n) (ix2 n k) ?_
  intro c
  match c with
  | ⟨0, _⟩ => rfl
  | ⟨1, _⟩ => rfl

theorem tr5_apply (w : FVec Ideal S32x32 .f32) (k : Fin 32) (n : Fin 32) :
    transpose S32x32 [1, 0] w transposes_S32x32_S32x32_1_0 (ix2 k n) = w (ix2 n k) := by
  refine transpose_apply _ _ _ (ix2 k n) (ix2 n k) ?_
  intro c
  match c with
  | ⟨0, _⟩ => rfl
  | ⟨1, _⟩ => rfl

theorem tr7_apply (w : FVec Ideal S1x32 .f32) (k : Fin 32) (n : Fin 1) :
    transpose S32x1 [1, 0] w transposes_S1x32_S32x1_1_0 (ix2 k n) = w (ix2 n k) := by
  refine transpose_apply _ _ _ (ix2 k n) (ix2 n k) ?_
  intro c
  match c with
  | ⟨0, _⟩ => rfl
  | ⟨1, _⟩ => rfl

/-! ## The three affine layers at an entry -/

/-- First layer: 512 → 32, then relu. -/
theorem layer1_apply (hid : FVec Ideal S8192x512 .f32) (a3 : FVec Ideal S32x512 .f32) (a4 : FVec Ideal S32 .f32) (b : Fin 8192) (n : Fin 32) :
    relu32 (addf
      (Host.dotGeneral dot_S8192x512_S512x32_S8192x32_1_0_0_1_n_n none hid (transpose S512x32 [1, 0] a3 transposes_S32x512_S512x32_1_0))
      (broadcastInDim S8192x32 ![0, 1] bcast_S1x32_S8192x32_0_1 (broadcastInDim S1x32 ![1] bcast_S32_S1x32_1 a4))) (ix2 b n)
      = Cert.Bag.relu ((∑ k : Fin 512, hid (ix2 b k) * a3 (ix2 n k)) + a4 (ix1 n)) := by
  rw [relu32_apply, addf_apply, bias32_apply]
  refine congrArg (fun z => Cert.Bag.relu (z + a4 (ix1 n))) ?_
  refine (StackMember.dotGeneral_plain_apply none hid _ b n).trans ?_
  exact Finset.sum_congr rfl fun k _ => congrArg (fun z => hid (ix2 b k) * z) (tr3_apply a3 k n)

/-- Second layer: 32 → 32, then relu. -/
theorem layer2_apply (h2 : FVec Ideal S8192x32 .f32) (a5 : FVec Ideal S32x32 .f32) (a6 : FVec Ideal S32 .f32) (b : Fin 8192) (n : Fin 32) :
    relu32 (addf
      (Host.dotGeneral dot_S8192x32_S32x32_S8192x32_1_0_0_1_n_n none h2 (transpose S32x32 [1, 0] a5 transposes_S32x32_S32x32_1_0))
      (broadcastInDim S8192x32 ![0, 1] bcast_S1x32_S8192x32_0_1 (broadcastInDim S1x32 ![1] bcast_S32_S1x32_1 a6))) (ix2 b n)
      = Cert.Bag.relu ((∑ k : Fin 32, h2 (ix2 b k) * a5 (ix2 n k)) + a6 (ix1 n)) := by
  rw [relu32_apply, addf_apply, bias32_apply]
  refine congrArg (fun z => Cert.Bag.relu (z + a6 (ix1 n))) ?_
  refine (StackMember.dotGeneral_plain_apply none h2 _ b n).trans ?_
  exact Finset.sum_congr rfl fun k _ => congrArg (fun z => h2 (ix2 b k) * z) (tr5_apply a5 k n)

/-- Third layer: 32 → 1. -/
theorem layer3_apply (h3 : FVec Ideal S8192x32 .f32) (a7 : FVec Ideal S1x32 .f32) (a8 : FVec Ideal S1 .f32) (b : Fin 8192) :
    addf
      (Host.dotGeneral dot_S8192x32_S32x1_S8192x1_1_0_0_1_n_n none h3 (transpose S32x1 [1, 0] a7 transposes_S1x32_S32x1_1_0))
      (broadcastInDim S8192x1 ![0, 1] bcast_S1x1_S8192x1_0_1 (broadcastInDim S1x1 ![1] bcast_S1_S1x1_1 a8)) (ix2 b (0 : Fin 1))
      = (∑ k : Fin 32, h3 (ix2 b k) * a7 (ix2 (0 : Fin 1) k)) + a8 (ix1 (0 : Fin 1)) := by
  rw [addf_apply, bias1_apply]
  refine congrArg (fun z => z + a8 (ix1 (0 : Fin 1))) ?_
  refine (StackMember.dotGeneral_plain_apply none h3 _ b (0 : Fin 1)).trans ?_
  exact Finset.sum_congr rfl fun k _ => congrArg (fun z => h3 (ix2 b k) * z) (tr7_apply a7 k (0 : Fin 1))

/-- Dropping the trailing unit axis: entry b of the result is entry (b, 0) of the [8192, 1] array. -/
theorem cast_apply (o : FVec Ideal S8192x1 .f32) (b : Fin 8192) :
    shapeCast S8192 o shapeCasts_S8192x1_S8192 (ix1 b) = o (ix2 b (0 : Fin 1)) := by
  refine shapeCast_apply o _ (ix1 b) (ix2 b (0 : Fin 1)) ?_
  rw [Shape.rowMajor_val_two, Shape.rowMajor_val_one]
  show b.val * 1 + 0 = b.val
  omega

end Tail

open Tail

/-! ## The tail at an entry -/

theorem tailVal_apply (s0 s1 : FVec Ideal S8192x256 .f32) (a3 : FVec Ideal S32x512 .f32) (a4 : FVec Ideal S32 .f32)
    (a5 : FVec Ideal S32x32 .f32) (a6 : FVec Ideal S32 .f32) (a7 : FVec Ideal S1x32 .f32) (a8 : FVec Ideal S1 .f32) (b : Fin 8192) :
    tailVal s0 s1 a3 a4 a5 a6 a7 a8 (ix1 b)
      = Cert.Bag.mlp (fun h => s0 (ix2 b h)) (fun h => s1 (ix2 b h)) (fun k n => a3 (ix2 n k)) (fun n => a4 (ix1 n))
          (fun k n => a5 (ix2 n k)) (fun n => a6 (ix1 n)) (fun k => a7 (ix2 (0 : Fin 1) k)) (a8 (ix1 (0 : Fin 1))) := by
  unfold tailVal Cert.Bag.mlp Cert.Bag.mlpT
  refine (cast_apply _ b).trans ?_
  refine (layer3_apply _ a7 a8 b).trans ?_
  refine congrArg (fun z => z + a8 (ix1 (0 : Fin 1))) ?_
  refine Finset.sum_congr rfl fun k _ => congrArg (fun z => z * a7 (ix2 (0 : Fin 1) k)) ?_
  refine (layer2_apply _ a5 a6 b k).trans ?_
  refine congrArg (fun z => Cert.Bag.relu (z + a6 (ix1 k))) ?_
  refine Finset.sum_congr rfl fun k' _ => congrArg (fun z => z * a5 (ix2 k k')) ?_
  refine (layer1_apply _ a3 a4 b k').trans ?_
  refine congrArg (fun z => Cert.Bag.relu (z + a4 (ix1 k'))) ?_
  exact Finset.sum_congr rfl fun k'' _ => congrArg (fun z => z * a3 (ix2 k' k'')) (hid_apply s0 s1 b k'')

end Cert.ReferenceIdeal.RefRead

end
-- ==== Proof.RefRead.lean ====
/-
  The reference's result is the gathered form of the specification, where every index word names a row of the table.
-/
import proofs.«402669_j2774548873840_3_alg».proof.Proof.RefVal
import proofs.«402669_j2774548873840_3_alg».proof.Proof.Spec
import proofs.«402669_j2774548873840_3_alg».proof.Proof.RefTake
import proofs.«402669_j2774548873840_3_alg».proof.Proof.RefTail

noncomputable section

namespace Cert.ReferenceIdeal.RefRead

open Idealize.ShloMosaic Idealize.ShloMosaic.ValueIdx Idealize.SL.Sem Cert.ReferenceIdeal Cert.ReferenceIdeal.Gen Cert.ReferenceIdeal.RefVal

theorem val_eq (a0 a1 : IVec S8192x30 32) (a2 : FVec Ideal S2x640x256 .f32) (a3 : FVec Ideal S32x512 .f32) (a4 : FVec Ideal S32 .f32)
    (a5 : FVec Ideal S32x32 .f32) (a6 : FVec Ideal S32 .f32) (a7 : FVec Ideal S1x32 .f32) (a8 : FVec Ideal S1 .f32)
    (h0 : ∀ i, (a0 i).toNat < 640) (h1 : ∀ i, (a1 i).toNat < 640) :
    val a0 a1 a2 a3 a4 a5 a6 a7 a8 = Cert.Bag.out Cert.Bag.bagGather id a0 a1 a2 a3 a4 a5 a6 a7 a8 := by
  funext i
  obtain ⟨b, rfl⟩ : ∃ b : Fin 8192, i = ix1 b := ⟨i 0, eq_ix1 i⟩
  unfold val
  rw [tailVal_apply]
  unfold Cert.Bag.out
  dsimp only
  congr 1
  · funext h; rw [bagVal_apply _ _ h0]; congr 1; funext j; exact tab0_apply a2 j h
  · funext h; rw [bagVal_apply _ _ h1]; congr 1; funext j; exact tab1_apply a2 j h

end Cert.ReferenceIdeal.RefRead

end
-- ==== Proof.PreDecode.lean ====
/-
  What the precondition says of the two index arrays: every word is at least 0 and below 640 as a signed number,
  hence below 640 as a natural number.

  The precondition is a conjunction of tests, each a conjunction over all entries of an array; it is 1 only if each
  test is 1, and a conjunction over all entries is 1 only if every entry is 1. The last two tests are, entry by
  entry, "x ≥ 0 and x < 640" (signed) of the two index arrays; a signed word that is nonnegative has its top bit
  clear, so its signed and natural readings agree.
-/
import proofs.«402669_j2774548873840_3_alg».proof.Pre_finite_inputs
import proofs.«402669_j2774548873840_3_alg».proof.Proof.Gen.Pre_finite_inputs
import Idealize.ShloMosaic.PureOps.Ideal
import Idealize.ShloMosaic.Lib.ValueIdx
import Idealize.ShloMosaic.Lib.StableHlo.Predicate
import Idealize.ShloMosaic.Lib.ReduceAll

noncomputable section

namespace Cert.Pre_finite_inputs.Decode

open Idealize.ShloMosaic Idealize.ShloMosaic.ValueIdx Cert.Pre_finite_inputs

/-- The result of a reduction over all axes has exactly one index. -/
local instance : Subsingleton S_.Idx := ⟨fun a b => funext fun d => d.elim0⟩

/-- A word that is at least 0 and below 640 read as a signed number has its top bit clear, so it is below 640
    read as a natural number. -/
theorem toNat_lt_of_signed (v : BitVec 32) (h0 : IntOp.cmpi .sge v 0#32 = 1#1) (h1 : IntOp.cmpi .slt v 640#32 = 1#1) :
    v.toNat < 640 := by
  rw [IntOp.cmpi_sge, show (0#32 : BitVec 32).toInt = 0 from by decide] at h0
  rw [IntOp.cmpi_slt, show (640#32 : BitVec 32).toInt = 640 from by decide] at h1
  have hv := v.isLt
  have hc := BitVec.toInt_eq_toNat_cond v
  split at hc <;> omega

/-- The conjunction over all entries of "x ≥ 0 and x < 640" being 1 says that every word of x is below 640. -/
theorem range_of_all (x : IVec S8192x30 32) (init : IVec S_ 1)
    (h : Host.reduce IntOp.andi
          (andi (cmpi .sge x (broadcastInDim S8192x30 ![] Facts.bcast_S_S8192x30 (constantI S_ 32 0#32)))
                (cmpi .slt x (broadcastInDim S8192x30 ![] Facts.bcast_S_S8192x30 (constantI S_ 32 640#32))))
          init Facts.reducesTo_S8192x30_S_d0_1 Facts.h_S_ ix0 = 1#1) (i : S8192x30.Idx) : (x i).toNat < 640 := by
  have e := Host.reduce_andi_all _ _ _ _ _ h i
  obtain ⟨e0, e1⟩ := IntOp.andi_eq_one.1 e
  exact toNat_lt_of_signed (x i) e0 e1

theorem idx_range (a0 a1 : IVec S8192x30 32) (a2 : FVec Ideal S2x640x256 .f32) (a3 : FVec Ideal S32x512 .f32) (a4 : FVec Ideal S32 .f32)
    (a5 : FVec Ideal S32x32 .f32) (a6 : FVec Ideal S32 .f32) (a7 : FVec Ideal S1x32 .f32) (a8 : FVec Ideal S1 .f32)
    (hpre : Cert.Pre_finite_inputs.fn (F := Ideal) a0 a1 a2 a3 a4 a5 a6 a7 a8 = fun _ => 1#1) :
    (∀ i, (a0 i).toNat < 640) ∧ (∀ i, (a1 i).toNat < 640) := by
  have h := congrFun hpre ix0
  unfold fn fn_part1 fn_part2 at h
  dsimp only at h
  obtain ⟨h', h1⟩ := IntOp.andi_eq_one.1 h
  obtain ⟨_, h0⟩ := IntOp.andi_eq_one.1 h'
  exact ⟨range_of_all a0 _ h0, range_of_all a1 _ h1⟩

end Cert.Pre_finite_inputs.Decode

end
-- ==== Proof.lean ====
/-
  The certificate's claims.

  The kernel is an embedding bag followed by a small perceptron: for each of two feature sets it forms, per batch
  row, the 640-entry count vector of the row's thirty index words (indicator rows added up) and multiplies it into
  the 640 × 256 table; the reference gathers the thirty named table rows and adds them.  On the extended reals
  the two are equal whenever every index word names a row of the table (Proof/Spec.lean: multiplication
  distributes over a sum of indicators, and an indicator row against a column picks one entry), which is what
  the precondition's index-range conjunct says; the kernel's clamp of the index words then does nothing.  After
  the bags both programs apply the same relu / affine layers, the kernel block of 1024 rows by block with the
  weights transposed on the host beforehand and the result broadcast over 128 lanes of which the host keeps lane
  0, the reference over all 8192 rows at once.

  Frames: the two kernel programs' frames are the generated ones; the reference has no kernel and its frame is its
  run with the result dropped.  The ideal pass rewrote nothing, so `preserves` is trivial.
-/
import proofs.«402669_j2774548873840_3_alg».proof.Defs
import proofs.«402669_j2774548873840_3_alg».proof.Proof.Gen.Kernel
import proofs.«402669_j2774548873840_3_alg».proof.Proof.Gen.Kernel.Skeleton
import proofs.«402669_j2774548873840_3_alg».proof.Proof.Gen.Kernel.Launch
import proofs.«402669_j2774548873840_3_alg».proof.Proof.Gen.Kernel.Points
import proofs.«402669_j2774548873840_3_alg».proof.Proof.Gen.Kernel.Frame
import proofs.«402669_j2774548873840_3_alg».proof.Proof.Gen.KernelIdeal
import proofs.«402669_j2774548873840_3_alg».proof.Proof.Gen.KernelIdeal.Skeleton
import proofs.«402669_j2774548873840_3_alg».proof.Proof.Gen.KernelIdeal.Launch
import proofs.«402669_j2774548873840_3_alg».proof.Proof.Gen.KernelIdeal.Points
import proofs.«402669_j2774548873840_3_alg».proof.Proof.Gen.KernelIdeal.Frame
import proofs.«402669_j2774548873840_3_alg».proof.Proof.Gen.ReferenceIdeal
import proofs.«402669_j2774548873840_3_alg».proof.Proof.Gen.Pre_finite_inputs
import proofs.«402669_j2774548873840_3_alg».proof.Proof.Spec
import proofs.«402669_j2774548873840_3_alg».proof.Proof.KFinal
import proofs.«402669_j2774548873840_3_alg».proof.Proof.RefRun
import proofs.«402669_j2774548873840_3_alg».proof.Proof.RefRead
import proofs.«402669_j2774548873840_3_alg».proof.Proof.PreDecode
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.RefRun.run (F := Ideal) m ρ)

/-- Both runs end at the same array: the kernel's at the count form of the specification over its arguments, the
    reference's at the gathered form over arguments that agree, and the two forms are equal because the
    precondition puts every index word in 0 … 639. -/
theorem algebraic : Cert.algebraic_KernelIdeal_ReferenceIdeal := by
  intro m ρ m' ρ' hpre hagree
  refine ⟨fun c => Cert.Bag.out Cert.Bag.bagCount Cert.Bag.clampW (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)),
    Cert.KernelIdeal.Final.run m ρ, ?_⟩
  refine (θ_run Cert.ReferenceIdeal.defs _ _).mono (fun _ h c => ⟨(h c).1.trans ?_, (h c).2⟩)
    (Cert.ReferenceIdeal.RefRun.run (F := Ideal) m' ρ')
  obtain ⟨h0, h1⟩ := Cert.Pre_finite_inputs.Decode.idx_range _ _ _ _ _ _ _ _ _ (hpre c)
  obtain ⟨e0, e1, e2, e3, e4, e5, e6, e7, e8⟩ := hagree c
  rw [e0, e1, e2, e3, e4, e5, e6, e7, e8]
  rw [Cert.ReferenceIdeal.RefRead.val_eq _ _ _ _ _ _ _ _ _ h0 h1]
  exact (Cert.Bag.out_count_eq_gather _ _ _ _ _ _ _ _ _ h0 h1).symm

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
